-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2x60000 : Shape := ⟨3, ![256, 2, 60000]⟩
abbrev S_ : Shape := ⟨0, ![]⟩

class Facts : Prop where
  bcast_S_S256x2x60000 : S_.BroadcastsInDim S256x2x60000 (![] : Fin 0 → Fin S256x2x60000.rank)
  reducesTo_S256x2x60000_S_d0_1_2 : S256x2x60000.ReducesTo [0, 1, 2] S_
  h_S_ : 0 < S_.numel

variable [Facts]

def fn {F : FTy → Type} [FloatOps F] (main_arg0 : FVec F S256x2x60000 .f32) (main_arg1 : FVec F S256x2x60000 .f32) : IVec S_ 1 :=
  let main_v0 : FVec F S256x2x60000 .f32 := Host.absf main_arg0
  let main_cst : FVec F S_ .f32 := constant S_ .f32 0x7F800000#32
  let main_v1 : FVec F S256x2x60000 .f32 := broadcastInDim S256x2x60000 ![] bcast_S_S256x2x60000 main_cst
  let main_v2 : IVec S256x2x60000 1 := cmpf .olt main_v0 main_v1
  let main_c : IVec S_ 1 := constantI S_ 1 1#1
  let main_v3 : IVec S_ 1 := (fun x v => Host.reduce IntOp.andi x v reducesTo_S256x2x60000_S_d0_1_2 h_S_) main_v2 main_c
  let main_v4 : FVec F S256x2x60000 .f32 := Host.absf main_arg1
  let main_cst_0 : FVec F S_ .f32 := constant S_ .f32 0x7F800000#32
  let main_v5 : FVec F S256x2x60000 .f32 := broadcastInDim S256x2x60000 ![] bcast_S_S256x2x60000 main_cst_0
  let main_v6 : IVec S256x2x60000 1 := cmpf .olt main_v4 main_v5
  let main_c_1 : IVec S_ 1 := constantI S_ 1 1#1
  let main_v7 : IVec S_ 1 := (fun x v => Host.reduce IntOp.andi x v reducesTo_S256x2x60000_S_d0_1_2 h_S_) main_v6 main_c_1
  let main_v8 : IVec S_ 1 := andi main_v3 main_v7
  main_v8
-- ==== Kernel.lean ====
abbrev S256x2x60000 : Shape := ⟨3, ![256, 2, 60000]⟩
abbrev S256x120000 : Shape := ⟨2, ![256, 120000]⟩
abbrev S16x2x8x128 : Shape := ⟨4, ![16, 2, 8, 128]⟩
abbrev S16x120000 : Shape := ⟨2, ![16, 120000]⟩
abbrev S1x2x8x128 : Shape := ⟨4, ![1, 2, 8, 128]⟩
abbrev S16x60000 : Shape := ⟨2, ![16, 60000]⟩
abbrev S16 : Shape := ⟨1, ![16]⟩
abbrev S1x16 : Shape := ⟨2, ![1, 16]⟩
abbrev S1 : Shape := ⟨1, ![1]⟩
abbrev S1x1 : Shape := ⟨2, ![1, 1]⟩
abbrev S2x8x128 : Shape := ⟨3, ![2, 8, 128]⟩
abbrev S_ : Shape := ⟨0, ![]⟩
abbrev S2x128 : Shape := ⟨2, ![2, 128]⟩

abbrev nBuf : Space → Nat
  | .hbm => 34
  | .vmem => 6
  | .smem => 0
  | _ => 0

abbrev bufTy : (tb : Table) → Fin (tcTables nBuf tb) → BufTy
  | .hbm, ⟨0, _⟩ => ⟨S256x2x60000, .f32⟩
  | .hbm, ⟨1, _⟩ => ⟨S256x2x60000, .f32⟩
  | .hbm, ⟨2, _⟩ => ⟨S256x120000, .f32⟩
  | .hbm, ⟨3, _⟩ => ⟨S256x120000, .f32⟩
  | .hbm, ⟨4, _⟩ => ⟨S16x2x8x128, .f32⟩
  | .hbm, ⟨5, _⟩ => ⟨S_, .f32⟩
  | .hbm, ⟨6, _⟩ => ⟨S2x128, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S16x120000, .f32⟩
  | .local _ .vmem, ⟨1, _⟩ => ⟨S16x120000, .f32⟩
  | .local _ .vmem, ⟨2, _⟩ => ⟨S16x120000, .f32⟩
  | .local _ .vmem, ⟨3, _⟩ => ⟨S16x120000, .f32⟩
  | .local _ .vmem, ⟨4, _⟩ => ⟨S1x2x8x128, .f32⟩
  | .local _ .vmem, ⟨5, _⟩ => ⟨S1x2x8x128, .f32⟩
  | _, _ => ⟨S256x2x60000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x120000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x120000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S256x2x60000_S256x120000 : S256x2x60000.ShapeCasts S256x120000
  inb_S16x120000_S16x120000_0_0 : ∀ a, (![0, 0] : Fin 2 → Nat) a + S16x120000.size a ≤ S16x120000.size a
  h_S16x120000 : 0 < S16x120000.numel
  shapeCasts_S16x120000_S16x120000 : S16x120000.ShapeCasts S16x120000
  slices_S16x120000_o0_0_S16x60000 : S16x120000.Slices ![0, 0] S16x60000
  rotates_S16x60000_d1 : S16x60000.Rotates 1 none
  reduces_S16x60000_S16 : S16x60000.Reduces [1] S16
  shapeCasts_S16_S1x16 : S16.ShapeCasts S1x16
  reduces_S1x16_S1 : S1x16.Reduces [1] S1
  shapeCasts_S1_S1x1 : S1.ShapeCasts S1x1
  inpos_S1x1_p0_0 : ∀ a, (![0, 0] : Fin 2 → Nat) a < S1x1.size a
  slices_S16x120000_o0_60000_S16x60000 : S16x120000.Slices ![0, 60000] S16x60000
  iota_S2x8x128_d1_w32 : S2x8x128.Iotas .tc 32 [1]
  iota_S2x8x128_d2_w32 : S2x8x128.Iotas .tc 32 [2]
  iota_S2x8x128_d0_w32 : S2x8x128.Iotas .tc 32 [0]
  inb_S1x2x8x128_S1x2x8x128_0_0_0_0 : ∀ a, (![0, 0, 0, 0] : Fin 4 → Nat) a + S1x2x8x128.size a ≤ S1x2x8x128.size a
  h_S1x2x8x128 : 0 < S1x2x8x128.numel
  shapeCasts_S1x2x8x128_S2x8x128 : S1x2x8x128.ShapeCasts S2x8x128
  shapeCasts_S2x8x128_S1x2x8x128 : S2x8x128.ShapeCasts S1x2x8x128
  reducesTo_S16x2x8x128_S2x128_d0_2 : S16x2x8x128.ReducesTo [0, 2] S2x128
  h_S_ : 0 < S_.numel
  slices_S2x128_S1x1_0_0 : S2x128.Slices ![0, 0] S1x1
  shapeCasts_S1x1_S_ : S1x1.ShapeCasts S_
  slices_S2x128_S1x1_0_1 : S2x128.Slices ![0, 1] S1x1
  slices_S2x128_S1x1_1_0 : S2x128.Slices ![1, 0] S1x1
  slices_S2x128_S1x1_1_1 : S2x128.Slices ![1, 1] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x120000.size a ≤ S256x120000.size a
  hwx0_0 : ∀ i : grid0.Coords, EltTy.bits .f32 = 32 ∨ (Rect.block (s := S256x120000) S16x120000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x120000.size a ≤ S256x120000.size a
  hwx0_1 : ∀ i : grid0.Coords, EltTy.bits .f32 = 32 ∨ (Rect.block (s := S256x120000) S16x120000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x8x128.size a ≤ S16x2x8x128.size a
  hwx0_2 : ∀ i : grid0.Coords, EltTy.bits .f32 = 32 ∨ (Rect.block (s := S16x2x8x128) S1x2x8x128.size (cc0_transform_2 i) (hinb0_2 i)).WholeWords (EltTy.packing .f32)

variable [Facts₀]

abbrev win0_0 : Pipeline.Window sig grid0 :=
  Pipeline.Window.ofSpec (Memref.whole main_v0) S16x120000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x120000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x2x60000 : Shape := ⟨3, ![256, 2, 60000]⟩
abbrev S256x1x60000 : Shape := ⟨3, ![256, 1, 60000]⟩
abbrev S256x60000 : Shape := ⟨2, ![256, 60000]⟩
abbrev S_ : Shape := ⟨0, ![]⟩
abbrev S256x59998 : Shape := ⟨2, ![256, 59998]⟩
abbrev S256x2 : Shape := ⟨2, ![256, 2]⟩
abbrev S256x59999 : Shape := ⟨2, ![256, 59999]⟩
abbrev S256x1 : Shape := ⟨2, ![256, 1]⟩

abbrev nBuf : Space → Nat
  | .hbm => 157
  | .vmem => 0
  | .smem => 0
  | _ => 0

abbrev hbmTy0_0 (i : Nat) : BufTy := match i % 128 with
  | 0 => ⟨S256x2x60000, .f32⟩
  | 1 => ⟨S256x2x60000, .f32⟩
  | 2 => ⟨S256x1x60000, .f32⟩
  | 3 => ⟨S256x60000, .f32⟩
  | 4 => ⟨S_, .f32⟩
  | 5 => ⟨S256x60000, .f32⟩
  | 6 => ⟨S256x60000, .f32⟩
  | 7 => ⟨S256x59998, .f32⟩
  | 8 => ⟨S256x2, .f32⟩
  | 9 => ⟨S256x60000, .f32⟩
  | 10 => ⟨S256x60000, .f32⟩
  | 11 => ⟨S_, .f32⟩
  | 12 => ⟨S256x60000, .f32⟩
  | 13 => ⟨S256x60000, .f32⟩
  | 14 => ⟨S256x59999, .f32⟩
  | 15 => ⟨S256x1, .f32⟩
  | 16 => ⟨S256x60000, .f32⟩
  | 17 => ⟨S256x60000, .f32⟩
  | 18 => ⟨S_, .f32⟩
  | 19 => ⟨S256x60000, .f32⟩
  | 20 => ⟨S256x60000, .f32⟩
  | 21 => ⟨S256x1, .f32⟩
  | 22 => ⟨S256x59999, .f32⟩
  | 23 => ⟨S256x60000, .f32⟩
  | 24 => ⟨S256x60000, .f32⟩
  | 25 => ⟨S_, .f32⟩
  | 26 => ⟨S256x60000, .f32⟩
  | 27 => ⟨S256x60000, .f32⟩
  | 28 => ⟨S256x2, .f32⟩
  | 29 => ⟨S256x59998, .f32⟩
  | 30 => ⟨S256x60000, .f32⟩
  | 31 => ⟨S256x60000, .f32⟩
  | 32 => ⟨S_, .f32⟩
  | 33 => ⟨S256x60000, .f32⟩
  | 34 => ⟨S256x60000, .f32⟩
  | 35 => ⟨S256x1x60000, .f32⟩
  | 36 => ⟨S256x60000, .f32⟩
  | 37 => ⟨S_, .f32⟩
  | 38 => ⟨S256x60000, .f32⟩
  | 39 => ⟨S256x60000, .f32⟩
  | 40 => ⟨S256x59998, .f32⟩
  | 41 => ⟨S256x2, .f32⟩
  | 42 => ⟨S256x60000, .f32⟩
  | 43 => ⟨S256x60000, .f32⟩
  | 44 => ⟨S_, .f32⟩
  | 45 => ⟨S256x60000, .f32⟩
  | 46 => ⟨S256x60000, .f32⟩
  | 47 => ⟨S256x59999, .f32⟩
  | 48 => ⟨S256x1, .f32⟩
  | 49 => ⟨S256x60000, .f32⟩
  | 50 => ⟨S256x60000, .f32⟩
  | 51 => ⟨S_, .f32⟩
  | 52 => ⟨S256x60000, .f32⟩
  | 53 => ⟨S256x60000, .f32⟩
  | 54 => ⟨S256x1, .f32⟩
  | 55 => ⟨S256x59999, .f32⟩
  | 56 => ⟨S256x60000, .f32⟩
  | 57 => ⟨S256x60000, .f32⟩
  | 58 => ⟨S_, .f32⟩
  | 59 => ⟨S256x60000, .f32⟩
  | 60 => ⟨S256x60000, .f32⟩
  | 61 => ⟨S256x2, .f32⟩
  | 62 => ⟨S256x59998, .f32⟩
  | 63 => ⟨S256x60000, .f32⟩
  | 64 => ⟨S256x60000, .f32⟩
  | 65 => ⟨S_, .f32⟩
  | 66 => ⟨S256x60000, .f32⟩
  | 67 => ⟨S256x60000, .f32⟩
  | 68 => ⟨S256x1x60000, .f32⟩
  | 69 => ⟨S256x60000, .f32⟩
  | 70 => ⟨S256x1x60000, .f32⟩
  | 71 => ⟨S256x60000, .f32⟩
  | 72 => ⟨S256x60000, .f32⟩
  | 73 => ⟨S_, .f32⟩
  | 74 => ⟨S_, .f32⟩
  | 75 => ⟨S256x60000, .f32⟩
  | 76 => ⟨S256x60000, .f32⟩
  | 77 => ⟨S256x60000, .f32⟩
  | 78 => ⟨S256x60000, .f32⟩
  | 79 => ⟨S_, .f32⟩
  | 80 => ⟨S_, .f32⟩
  | 81 => ⟨S256x60000, .f32⟩
  | 82 => ⟨S256x60000, .f32⟩
  | 83 => ⟨S256x60000, .f32⟩
  | 84 => ⟨S_, .f32⟩
  | 85 => ⟨S256x60000, .f32⟩
  | 86 => ⟨S256x60000, .f32⟩
  | 87 => ⟨S256x60000, .f32⟩
  | 88 => ⟨S256x60000, .f32⟩
  | 89 => ⟨S256x60000, .f32⟩
  | 90 => ⟨S_, .f32⟩
  | 91 => ⟨S256x60000, .f32⟩
  | 92 => ⟨S256x60000, .i1⟩
  | 93 => ⟨S_, .f32⟩
  | 94 => ⟨S_, .f32⟩
  | 95 => ⟨S256x60000, .f32⟩
  | 96 => ⟨S256x60000, .f32⟩
  | 97 => ⟨S_, .f32⟩
  | 98 => ⟨S_, .f32⟩
  | 99 => ⟨S_, .f32⟩
  | 100 => ⟨S_, .f32⟩
  | 101 => ⟨S256x60000, .f32⟩
  | 102 => ⟨S256x60000, .f32⟩
  | 103 => ⟨S_, .f32⟩
  | 104 => ⟨S_, .f32⟩
  | 105 => ⟨S256x60000, .f32⟩
  | 106 => ⟨S_, .f32⟩
  | 107 => ⟨S_, .f32⟩
  | 108 => ⟨S256x60000, .f32⟩
  | 109 => ⟨S256x60000, .f32⟩
  | 110 => ⟨S256x60000, .f32⟩
  | 111 => ⟨S256x60000, .f32⟩
  | 112 => ⟨S_, .f32⟩
  | 113 => ⟨S_, .f32⟩
  | 114 => ⟨S256x60000, .f32⟩
  | 115 => ⟨S256x60000, .f32⟩
  | 116 => ⟨S256x60000, .f32⟩
  | 117 => ⟨S_, .f32⟩
  | 118 => ⟨S256x60000, .f32⟩
  | 119 => ⟨S256x60000, .f32⟩
  | 120 => ⟨S256x60000, .f32⟩
  | 121 => ⟨S256x60000, .f32⟩
  | 122 => ⟨S256x60000, .f32⟩
  | 123 => ⟨S_, .f32⟩
  | 124 => ⟨S256x60000, .f32⟩
  | 125 => ⟨S256x60000, .i1⟩
  | 126 => ⟨S_, .f32⟩
  | 127 => ⟨S_, .f32⟩
  | _ => ⟨S256x2x60000, .f32⟩

abbrev hbmTy0_1 (i : Nat) : BufTy := match i % 128 with
  | 0 => ⟨S256x60000, .f32⟩
  | 1 => ⟨S256x60000, .f32⟩
  | 2 => ⟨S_, .f32⟩
  | 3 => ⟨S_, .f32⟩
  | 4 => ⟨S_, .f32⟩
  | 5 => ⟨S_, .f32⟩
  | 6 => ⟨S256x60000, .f32⟩
  | 7 => ⟨S256x60000, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | _ => ⟨S256x2x60000, .f32⟩

abbrev hbmTy (i : Nat) : BufTy := match i / 128 with
  | 0 => hbmTy0_0 i
  | 1 => hbmTy0_1 i
  | _ => ⟨S256x2x60000, .f32⟩

abbrev bufTy : (tb : Table) → Fin (tcTables nBuf tb) → BufTy
  | .hbm, ⟨i, _⟩ => hbmTy i
  | _, _ => ⟨S256x2x60000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_call1_v0 : Ref sig .tc := ⟨.hbm, 14, rfl⟩
abbrev main_call1_v1 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_call2_v0 : Ref sig .tc := ⟨.hbm, 21, rfl⟩
abbrev main_call2_v1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_call3_v0 : Ref sig .tc := ⟨.hbm, 28, rfl⟩
abbrev main_call3_v1 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_call4_v0 : Ref sig .tc := ⟨.hbm, 40, rfl⟩
abbrev main_call4_v1 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_call5_v0 : Ref sig .tc := ⟨.hbm, 47, rfl⟩
abbrev main_call5_v1 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_call6_v0 : Ref sig .tc := ⟨.hbm, 54, rfl⟩
abbrev main_call6_v1 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_call7_v0 : Ref sig .tc := ⟨.hbm, 61, rfl⟩
abbrev main_call7_v1 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_call8_v0 : Ref sig .tc := ⟨.hbm, 74, rfl⟩
abbrev main_call8_v1 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_call9_v0 : Ref sig .tc := ⟨.hbm, 80, rfl⟩
abbrev main_call9_v1 : Ref sig .tc := ⟨.hbm, 81, rfl⟩
abbrev main_v48 : Ref sig .tc := ⟨.hbm, 82, rfl⟩
abbrev main_v49 : Ref sig .tc := ⟨.hbm, 83, rfl⟩
abbrev main_cst_11 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_12 : Ref sig .tc := ⟨.hbm, 90, rfl⟩
abbrev main_v55 : Ref sig .tc := ⟨.hbm, 91, rfl⟩
abbrev main_v56 : Ref sig .tc := ⟨.hbm, 92, rfl⟩
abbrev main_cst_13 : Ref sig .tc := ⟨.hbm, 93, rfl⟩
abbrev main_call10_v0 : Ref sig .tc := ⟨.hbm, 94, rfl⟩
abbrev main_call10_v1 : Ref sig .tc := ⟨.hbm, 95, rfl⟩
abbrev main_v57 : Ref sig .tc := ⟨.hbm, 96, rfl⟩
abbrev main_cst_14 : Ref sig .tc := ⟨.hbm, 97, rfl⟩
abbrev main_v58 : Ref sig .tc := ⟨.hbm, 98, rfl⟩
abbrev main_cst_15 : Ref sig .tc := ⟨.hbm, 99, rfl⟩
abbrev main_call11_v0 : Ref sig .tc := ⟨.hbm, 100, rfl⟩
abbrev main_call11_v1 : Ref sig .tc := ⟨.hbm, 101, rfl⟩
abbrev main_v59 : Ref sig .tc := ⟨.hbm, 102, rfl⟩
abbrev main_cst_16 : Ref sig .tc := ⟨.hbm, 103, rfl⟩
abbrev main_v60 : Ref sig .tc := ⟨.hbm, 104, rfl⟩
abbrev main_v61 : Ref sig .tc := ⟨.hbm, 105, rfl⟩
abbrev main_cst_17 : Ref sig .tc := ⟨.hbm, 106, rfl⟩
abbrev main_call12_v0 : Ref sig .tc := ⟨.hbm, 107, rfl⟩
abbrev main_call12_v1 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_18 : Ref sig .tc := ⟨.hbm, 112, rfl⟩
abbrev main_call13_v0 : Ref sig .tc := ⟨.hbm, 113, rfl⟩
abbrev main_call13_v1 : Ref sig .tc := ⟨.hbm, 114, rfl⟩
abbrev main_v65 : Ref sig .tc := ⟨.hbm, 115, rfl⟩
abbrev main_v66 : Ref sig .tc := ⟨.hbm, 116, rfl⟩
abbrev main_cst_19 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_20 : Ref sig .tc := ⟨.hbm, 123, rfl⟩
abbrev main_v72 : Ref sig .tc := ⟨.hbm, 124, rfl⟩
abbrev main_v73 : Ref sig .tc := ⟨.hbm, 125, rfl⟩
abbrev main_cst_21 : Ref sig .tc := ⟨.hbm, 126, rfl⟩
abbrev main_call14_v0 : Ref sig .tc := ⟨.hbm, 127, rfl⟩
abbrev main_call14_v1 : Ref sig .tc := ⟨.hbm, 128, rfl⟩
abbrev main_v74 : Ref sig .tc := ⟨.hbm, 129, rfl⟩
abbrev main_cst_22 : Ref sig .tc := ⟨.hbm, 130, rfl⟩
abbrev main_v75 : Ref sig .tc := ⟨.hbm, 131, rfl⟩
abbrev main_cst_23 : Ref sig .tc := ⟨.hbm, 132, rfl⟩
abbrev main_call15_v0 : Ref sig .tc := ⟨.hbm, 133, rfl⟩
abbrev main_call15_v1 : Ref sig .tc := ⟨.hbm, 134, rfl⟩
abbrev main_v76 : Ref sig .tc := ⟨.hbm, 135, rfl⟩
abbrev main_cst_24 : Ref sig .tc := ⟨.hbm, 136, rfl⟩
abbrev main_v77 : Ref sig .tc := ⟨.hbm, 137, rfl⟩
abbrev main_cst_25 : Ref sig .tc := ⟨.hbm, 138, rfl⟩
abbrev main_v78 : Ref sig .tc := ⟨.hbm, 139, rfl⟩
abbrev main_cst_26 : Ref sig .tc := ⟨.hbm, 140, rfl⟩
abbrev main_v79 : Ref sig .tc := ⟨.hbm, 141, rfl⟩
abbrev main_cst_27 : Ref sig .tc := ⟨.hbm, 142, rfl⟩
abbrev main_v80 : Ref sig .tc := ⟨.hbm, 143, rfl⟩
abbrev main_cst_28 : Ref sig .tc := ⟨.hbm, 144, rfl⟩
abbrev main_v81 : Ref sig .tc := ⟨.hbm, 145, rfl⟩
abbrev main_v82 : Ref sig .tc := ⟨.hbm, 146, rfl⟩
abbrev main_cst_29 : Ref sig .tc := ⟨.hbm, 147, rfl⟩
abbrev main_v83 : Ref sig .tc := ⟨.hbm, 148, rfl⟩
abbrev main_cst_30 : Ref sig .tc := ⟨.hbm, 149, rfl⟩
abbrev main_v84 : Ref sig .tc := ⟨.hbm, 150, rfl⟩
abbrev main_cst_31 : Ref sig .tc := ⟨.hbm, 151, rfl⟩
abbrev main_v85 : Ref sig .tc := ⟨.hbm, 152, rfl⟩
abbrev main_cst_32 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩

abbrev nD : Nat := 1
abbrev τ : Topo := Topo.v7x

variable {F : FTy → Type} [FloatOps F]

class Facts₀ : Prop where
  slices_S256x2x60000_S256x1x60000_0_0_0 : S256x2x60000.Slices ![0, 0, 0] S256x1x60000
  shapeCasts_S256x1x60000_S256x60000 : S256x1x60000.ShapeCasts S256x60000
  bcast_S_S256x60000 : S_.BroadcastsInDim S256x60000 (![] : Fin 0 → Fin S256x60000.rank)
  slices_S256x60000_S256x59998_0_2 : S256x60000.Slices ![0, 2] S256x59998
  slices_S256x60000_S256x2_0_0 : S256x60000.Slices ![0, 0] S256x2
  concatenates_S256x59998_S256x2_S256x60000_d1 : Shape.Concatenates [S256x59998, S256x2] S256x60000 1
  slices_S256x60000_S256x59999_0_1 : S256x60000.Slices ![0, 1] S256x59999
  slices_S256x60000_S256x1_0_0 : S256x60000.Slices ![0, 0] S256x1
  concatenates_S256x59999_S256x1_S256x60000_d1 : Shape.Concatenates [S256x59999, S256x1] S256x60000 1
  slices_S256x60000_S256x1_0_59999 : S256x60000.Slices ![0, 59999] S256x1
  slices_S256x60000_S256x59999_0_0 : S256x60000.Slices ![0, 0] S256x59999
  concatenates_S256x1_S256x59999_S256x60000_d1 : Shape.Concatenates [S256x1, S256x59999] S256x60000 1
  slices_S256x60000_S256x2_0_59998 : S256x60000.Slices ![0, 59998] S256x2
  slices_S256x60000_S256x59998_0_0 : S256x60000.Slices ![0, 0] S256x59998
  concatenates_S256x2_S256x59998_S256x60000_d1 : Shape.Concatenates [S256x2, S256x59998] S256x60000 1
  slices_S256x2x60000_S256x1x60000_0_1_0 : S256x2x60000.Slices ![0, 1, 0] S256x1x60000
  reducesTo_S256x60000_S_d0_1 : S256x60000.ReducesTo [0, 1] S_
  h_S_ : 0 < S_.numel

variable [Facts₀]

class Facts : Prop extends Facts₀ where

variable [Facts]
-- ==== Proof.Spec.lean ====
/- The common value of the two programs, stated once over the argument arrays.

   Both programs compute, for each of the two channels c of a probability array X and an annotation array Y
   (both [256, 2, 60000]), a binary cross entropy summed separately over the "positive" and the "negative" positions of
   a widened annotation:
   * every row y of Y (one batch entry, one channel) is widened in four steps, y ← y + shift_k (y · q) for
     (k, q) = (-2, 1/4), (-1, 1/2), (1, 1/2), (2, 1/4), the shift cyclic along the row, and then capped at 1;
   * the entry's loss is  -(t · max(-100, log p) + (1 - t) · max(-100, log(1 + (-p))))  for the widened t and the
     probability p at the same position;
   * `pos` sums the loss where t > 0 and `neg` where it is not, over all 256 · 60000 positions of the channel;
   * the channel's result is  (1/2 · pos) / n + (1/2 · neg) / n  with n = 256 · 60000, and the total is the sum of the
     two channels' results. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One row of one channel: 60000 time steps. -/
abbrev Row := Fin 60000 → EReal

/-- The cyclic shift of a row by `k` places to the right: entry `j` of the result is entry `j - k` (mod 60000). -/
def rot (k : ℕ) (f : Row) : Row :=
  fun j => f ⟨(j.val + 60000 - k % 60000) % 60000, Nat.mod_lt _ (by norm_num)⟩

abbrev c0 : EReal := Ideal.ofBits .f32 0x00000000#32
abbrev cQuarter : EReal := Ideal.ofBits .f32 0x3E800000#32
abbrev cHalf : EReal := Ideal.ofBits .f32 0x3F000000#32
abbrev c1 : EReal := Ideal.ofBits .f32 0x3F800000#32
abbrev cM100 : EReal := Ideal.ofBits .f32 0xC2C80000#32
abbrev cCount : EReal := Ideal.ofBits .f32 0x4B6A6000#32

/-- One widening step: the row plus its scaled copy shifted by `k`. -/
def step (k : ℕ) (q : EReal) (y : Row) : Row := fun j => y j + rot k (fun j' => y j' * q) j

/-- The widened annotation row: the four steps (a left shift by 2 is the right shift by 59998), capped at 1. -/
def widen (y : Row) : Row :=
  fun j => min (step 2 cQuarter (step 1 cHalf (step 59999 cHalf (step 59998 cQuarter y))) j) c1

/-- The loss of one entry, the logarithms clipped below at -100. -/
def bce (p t : EReal) : EReal :=
  -(t * max cM100 (Ideal.log p) + (c1 - t) * max cM100 (Ideal.log1p (-p)))

/-- Whether a widened annotation counts as positive. -/
def isPos (t : EReal) : BitVec 1 := Ideal.cmp .ogt t c0

def allTerm (p y : Row) : Row := fun j => bce (p j) (widen y j)
def posTerm (p y : Row) : Row := fun j => Scalar.select (isPos (widen y j)) (allTerm p y j) c0
def negTerm (p y : Row) : Row := fun j => Scalar.select (isPos (widen y j)) c0 (allTerm p y j)

/-- An argument array. -/
abbrev Arr := (⟨3, ![256, 2, 60000]⟩ : Shape).Idx → EReal

/-- Row `i` of channel `c`. -/
def row (X : Arr) (c : Fin 2) (i : Fin 256) : Row := fun j => X (ix3 i c j)

def pos (X Y : Arr) (c : Fin 2) : EReal := ∑ i : Fin 256, ∑ j : Fin 60000, posTerm (row X c i) (row Y c i) j
def neg (X Y : Arr) (c : Fin 2) : EReal := ∑ i : Fin 256, ∑ j : Fin 60000, negTerm (row X c i) (row Y c i) j

/-- A channel's result from its two sums. -/
def loss (a b : EReal) : EReal := Ideal.div (cHalf * a) cCount + Ideal.div (cHalf * b) cCount

def beat (X Y : Arr) : EReal := loss (pos X Y 0) (neg X Y 0)
def down (X Y : Arr) : EReal := loss (pos X Y 1) (neg X Y 1)
def total (X Y : Arr) : EReal := beat X Y + down X Y

end Cert.Spec

end
-- ==== Proof.Blocks.lean ====
/- From the sixteen grid points' blocks to the partial-sum array: the [16, 2, 8, 128] array the kernel's region leaves,
   entry by entry, as a function of the two argument arrays. Grid point t reads rows 16t … 16t+15 of both arguments
   (each row its two channels side by side, 120000 entries) and writes slab t of the array. -/
import proofs.«401867_j57501022158919_4_alg».proof.Proof.Gen.KernelIdeal.Frame
import proofs.«401867_j57501022158919_4_alg».proof.Proof.Spec
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-- Rows 16t … 16t+15 of an argument array, each row's two channels side by side. -/
def blkOf (A : Arr) (t : Fin 16) : Vec Ideal S16x120000 .f32 :=
  fun k => A (ix3 (⟨16 * t.val + (k 0).val, by have := idx2_lt0 k; have := t.isLt; omega⟩ : Fin 256)
    (⟨(k 1).val / 60000, by have := idx2_lt1 k; omega⟩ : Fin 2)
    (⟨(k 1).val % 60000, Nat.mod_lt _ (by norm_num)⟩ : Fin 60000))

/-- The first argument flattened to [256, 120000], as the region finds it. -/
theorem V_v0 (c : Dev nD) : (V m c main_v0 : S256x120000.Idx → EReal)
    = shapeCast S256x120000 (m ((c : Thread nD τ).loc main_arg0)) Facts₀.shapeCasts_S256x2x60000_S256x120000 := by
  show StableHlo.after hostOps0 (fun b => m (c, b)) (Proc.devRef .tc main_v0) = _
  after_results
  rfl

/-- The second argument flattened to [256, 120000], as the region finds it. -/
theorem V_v1 (c : Dev nD) : (V m c main_v1 : S256x120000.Idx → EReal)
    = shapeCast S256x120000 (m ((c : Thread nD τ).loc main_arg1)) Facts₀.shapeCasts_S256x2x60000_S256x120000 := by
  show StableHlo.after hostOps0 (fun b => m (c, b)) (Proc.devRef .tc main_v1) = _
  after_results
  rfl

/-- An entry (r, k) of a flattened argument is its entry (r, k / 60000, k % 60000). -/
theorem flat_apply (A : Arr) (k : S256x120000.Idx) :
    shapeCast S256x120000 A Facts₀.shapeCasts_S256x2x60000_S256x120000 k
      = A (ix3 (⟨(k 0).val, idx2_lt0 k⟩ : Fin 256) (⟨(k 1).val / 60000, by have := idx2_lt1 k; omega⟩ : Fin 2)
          (⟨(k 1).val % 60000, Nat.mod_lt _ (by norm_num)⟩ : Fin 60000)) := by
  refine shapeCast_apply A _ k _ ?_
  rw [Shape.rowMajor_val_three, Shape.rowMajor_val_two]
  have h0 := idx2_lt0 k
  have h1 := idx2_lt1 k
  show ((k 0).val * 2 + (k 1).val / 60000) * 60000 + (k 1).val % 60000 = (k 0).val * 120000 + (k 1).val
  omega

/-- Where the three windows' blocks sit at each grid point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

/-- Grid point t's block of the first window is rows 16t … 16t+15 of the first argument. -/
theorem iblk0_eq (c : Dev nD) (t : Fin cfg0.N) :
    (iblk m c 0 t : Vec Ideal S16x120000 .f32) = blkOf (m ((c : Thread nD τ).loc main_arg0)) ⟨t.val, Nat.lt_of_lt_of_eq t.isLt N_0⟩ := by
  funext y
  unfold iblk
  rw [View.read_apply]
  show V m c main_v0 _ = _
  rw [V_v0, flat_apply]
  unfold blkOf
  obtain ⟨e0, e1, -⟩ := idx_facts t
  have h0 : (((cfg0.win 0).blk t).view.emb y 0).val = 16 * t.val + (y 0).val := by
    show win0_0.index t (0 : Fin 2) * 16 + 1 * (y 0).val = _
    rw [e0]; omega
  have h1 : (((cfg0.win 0).blk t).view.emb y 1).val = (y 1).val := by
    show win0_0.index t (1 : Fin 2) * 120000 + 1 * (y 1).val = _
    rw [e1]; omega
  refine congrArg _ (funext fun a => Fin.ext ?_)
  match a with
  | ⟨0, _⟩ => exact h0
  | ⟨1, _⟩ => show _ / 60000 = _ / 60000; rw [h1]
  | ⟨2, _⟩ => show _ % 60000 = _ % 60000; rw [h1]

/-- Grid point t's block of the second window is rows 16t … 16t+15 of the second argument. -/
theorem iblk1_eq (c : Dev nD) (t : Fin cfg0.N) :
    (iblk m c 1 t : Vec Ideal S16x120000 .f32) = blkOf (m ((c : Thread nD τ).loc main_arg1)) ⟨t.val, Nat.lt_of_lt_of_eq t.isLt N_0⟩ := by
  funext y
  unfold iblk
  rw [View.read_apply]
  show V m c main_v1 _ = _
  rw [V_v1, flat_apply]
  unfold blkOf
  obtain ⟨-, -, e0, e1, -⟩ := idx_facts t
  have h0 : (((cfg0.win 1).blk t).view.emb y 0).val = 16 * t.val + (y 0).val := by
    show win0_1.index t (0 : Fin 2) * 16 + 1 * (y 0).val = _
    rw [e0]; omega
  have h1 : (((cfg0.win 1).blk t).view.emb y 1).val = (y 1).val := by
    show win0_1.index t (1 : Fin 2) * 120000 + 1 * (y 1).val = _
    rw [e1]; omega
  refine congrArg _ (funext fun a => Fin.ext ?_)
  match a with
  | ⟨0, _⟩ => exact h0
  | ⟨1, _⟩ => show _ / 60000 = _ / 60000; rw [h1]
  | ⟨2, _⟩ => show _ % 60000 = _ % 60000; rw [h1]

/-- The partial-sum array: slab b is what the grid point that reads rows 16b … 16b+15 writes. -/
def outArr (X Y : Arr) : S16x2x8x128.Idx → EReal :=
  fun i => out0_2 (F := Ideal) (blkOf X (i 0)) (blkOf Y (i 0)) (ix4 (0 : Fin 1) (i 1) (i 2) (i 3))

theorem hz4 : (![0, 0, 0, 0] : Fin 4 → Nat) = fun _ => 0 := funext fun a => by fin_cases a <;> rfl

/-- A staged block whose entries are an array's entries at the block's positions is that array read through the block. -/
theorem cut_eq_read (t : Fin cfg0.N) (v : Vec Ideal S1x2x8x128 .f32) (G : S16x2x8x128.Idx → EReal)
    (h : ∀ j : ((cfg0.win 2).xblock (grid0.coords t)).Idx, v j = G (((cfg0.win 2).blk t).view.emb j)) :
    (cfg0.win 2).cut (grid0.coords t) v = ((cfg0.win 2).blk t).view.read (Elt Ideal) G :=
  funext fun j => h j

/-- What grid point t writes back is slab t of the partial-sum array. -/
theorem flushed_eq (c : Dev nD) (t : Fin cfg0.N) :
    (dats m 0 c).flushed 2 t = ((cfg0.win 2).blk t).view.read (Elt Ideal)
      (outArr (m ((c : Thread nD τ).loc main_arg0)) (m ((c : Thread nD τ).loc main_arg1))) := by
  show (cfg0.win 2).cut (grid0.coords t) ((dats m 0 c).after 2 t) = _
  rw [after0_2, iblk0_eq, iblk1_eq]
  refine cut_eq_read t _ _ fun j => ?_
  unfold outArr
  obtain ⟨-, -, -, -, e0, e1, e2, e3⟩ := idx_facts t
  have hj0 : (j 0).val < 1 := (j 0).isLt
  have h0 : ((cfg0.win 2).blk t).view.emb j 0 = (⟨t.val, Nat.lt_of_lt_of_eq t.isLt N_0⟩ : Fin 16) :=
    Fin.ext (by show win0_2.index t (0 : Fin 4) * 1 + 1 * (j 0).val = t.val; rw [e0]; omega)
  have hj : ix4 (0 : Fin 1) (((cfg0.win 2).blk t).view.emb j 1) (((cfg0.win 2).blk t).view.emb j 2)
      (((cfg0.win 2).blk t).view.emb j 3) = j := by
    funext a; apply Fin.ext
    match a with
    | ⟨0, _⟩ => show 0 = (j 0).val; omega
    | ⟨1, _⟩ => show win0_2.index t (1 : Fin 4) * 2 + 1 * (j 1).val = (j 1).val; rw [e1]; omega
    | ⟨2, _⟩ => show win0_2.index t (2 : Fin 4) * 8 + 1 * (j 2).val = (j 2).val; rw [e2]; omega
    | ⟨3, _⟩ => show win0_2.index t (3 : Fin 4) * 128 + 1 * (j 3).val = (j 3).val; rw [e3]; omega
  rw [h0]
  exact congrArg _ hj.symm

/-- An index of the array is in grid point t's block iff each coordinate is in the block's range on its axis. -/
theorem mem_blk (t : Fin cfg0.N) (i : S16x2x8x128.Idx) :
    i ∈ ((cfg0.win 2).blk t).view.set ↔ ∀ a : Fin 4, win0_2.index t a * S1x2x8x128.size a ≤ (i a).val ∧ (i a).val < win0_2.index t a * S1x2x8x128.size a + S1x2x8x128.size a := by
  show i ∈ ((View.whole main_v2).slice (win0_2.rect t)).set ↔ _
  rw [View.set_slice_whole, Rect.mem_set_unit]
  exact Iff.rfl

/-- The sixteen slabs fill the array, so after the region it is the partial-sum array. -/
theorem final (c : Dev nD) : (dats m 0 c).arrAt 2 cfg0.N
    = outArr (m ((c : Thread nD τ).loc main_arg0)) (m ((c : Thread nD τ).loc main_arg1)) :=
  (dats m 0 c).arrAt_eq_of_cover 2 _ (fun t _ => flushed_eq m c t) fun i => by
    have hi0 : (i 0).val < 16 := (i 0).isLt
    have hi1 : (i 1).val < 2 := (i 1).isLt
    have hi2 : (i 2).val < 8 := (i 2).isLt
    have hi3 : (i 3).val < 128 := (i 3).isLt
    have hN : (i 0).val < cfg0.N := Nat.lt_of_lt_of_eq hi0 N_0.symm
    refine ⟨⟨(i 0).val, hN⟩, flush0_2 _, ?_⟩
    rw [mem_blk]
    obtain ⟨-, -, -, -, e0, e1, e2, e3⟩ := idx_facts ⟨(i 0).val, hN⟩
    replace e0 : win0_2.index ⟨(i 0).val, hN⟩ (0 : Fin 4) = (i 0).val := e0
    intro a
    match a with
    | ⟨0, _⟩ => show win0_2.index _ (0 : Fin 4) * 1 ≤ (i 0).val ∧ (i 0).val < win0_2.index _ (0 : Fin 4) * 1 + 1; rw [e0]; omega
    | ⟨1, _⟩ => show win0_2.index _ (1 : Fin 4) * 2 ≤ (i 1).val ∧ (i 1).val < win0_2.index _ (1 : Fin 4) * 2 + 2; rw [e1]; omega
    | ⟨2, _⟩ => show win0_2.index _ (2 : Fin 4) * 8 ≤ (i 2).val ∧ (i 2).val < win0_2.index _ (2 : Fin 4) * 8 + 8; rw [e2]; omega
    | ⟨3, _⟩ => show win0_2.index _ (3 : Fin 4) * 128 ≤ (i 3).val ∧ (i 3).val < win0_2.index _ (3 : Fin 4) * 128 + 128; rw [e3]; omega

end Cert.KernelIdeal.Blocks

end
-- ==== Proof.Consts.lean ====
/- The float constants the two programs spell, as the extended reals their patterns denote. -/
import Idealize.ShloMosaic.PureOps.Ideal
import Idealize.ShloMosaic.PureOps.Ideal.Laws

noncomputable section

namespace Cert.Consts

open Idealize.ShloMosaic

/-- `+0.0` denotes `0`. -/
theorem ofBits_zero : Ideal.ofBits .f32 0x00000000#32 = 0 := by
  simp [Ideal.ofBits, Ideal.ieee]

/-- `0.25` denotes the real `1/4`. -/
theorem ofBits_quarter : Ideal.ofBits .f32 0x3E800000#32 = ((4⁻¹ : ℝ) : EReal) := by
  simp [Ideal.ofBits, Ideal.ieee, -EReal.coe_mul]; norm_num

/-- `0.5` denotes the real `1/2`. -/
theorem ofBits_half : Ideal.ofBits .f32 0x3F000000#32 = ((2⁻¹ : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- `4.0` denotes the real `4`. -/
theorem ofBits_four : Ideal.ofBits .f32 0x40800000#32 = ((4 : ℝ) : EReal) := by
  simp [Ideal.ofBits, Ideal.ieee, -EReal.coe_mul]; norm_num

/-- `-100.0` denotes the real `-100`. -/
theorem ofBits_m100 : Ideal.ofBits .f32 0xC2C80000#32 = ((-100 : ℝ) : EReal) := by
  simp [Ideal.ofBits, Ideal.ieee, -EReal.coe_mul]; norm_num

/-- `15360000.0`, the number of entries of one channel, denotes that real. -/
theorem ofBits_count : Ideal.ofBits .f32 0x4B6A6000#32 = ((15360000 : ℝ) : EReal) := by
  simp [Ideal.ofBits, Ideal.ieee, -EReal.coe_mul]

end Cert.Consts

end
-- ==== Proof.Tail.lean ====
/- After the region: the host sums the partial-sum array over its slabs and its rows — for channel c and lane l, the sum
   of the entries (b, c, r, l) over all slabs b and rows r —, picks lanes 0 and 1 of each channel, and forms each
   channel's result (1/2 · sum) / n + (1/2 · sum) / n and their total. -/
import proofs.«401867_j57501022158919_4_alg».proof.Proof.Blocks
import proofs.«401867_j57501022158919_4_alg».proof.Proof.Consts
import Idealize.ShloMosaic.Lib.StableHlo.Run
import Idealize.ShloMosaic.Lib.Pipeline.Value
import Idealize.ShloMosaic.PureOps.Ideal.Laws
import Idealize.ShloMosaic.Lib.Tactic

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.Spec

variable (m : (ℓ : Loc nD τ sig) → Buf (Elt Ideal) ℓ) (ρ : Dev nD → PrngReg)

/-- The sum of a [16, 2, 8, 128] array over the entries that reduce to channel `c`, lane `l` when the slab and row axes are
    summed away. -/
def hsum (A : S16x2x8x128.Idx → EReal) (c : Fin 2) (l : Fin 128) : EReal :=
  ∑ i ∈ Finset.univ.filter (fun i => Facts₀.reducesTo_S16x2x8x128_S2x128_d0_2.drop i = ix2 c l), A i

/-- The host's sum over the slab and row axes, read at (c, l): the initial zero contributes nothing. -/
theorem reduce_apply (A : S16x2x8x128.Idx → EReal) (c : Fin 2) (l : Fin 128) :
    Host.reduceAdd (F := Ideal) A (constant S_ .f32 0#32) Facts₀.reducesTo_S16x2x8x128_S2x128_d0_2 Facts₀.h_S_ (ix2 c l)
      = hsum A c l := by
  simp only [Host.reduceAdd, Ideal.hostReduceAdd_def]
  unfold Ideal.hostReduceAdd hsum
  rw [show (constant (F := Ideal) S_ .f32 0#32) (Shape.Idx.first Facts₀.h_S_) = Ideal.ofBits .f32 0x00000000#32 from rfl,
    Consts.ofBits_zero, zero_add]

/-- One entry of a [2, 128] array, sliced out as [1, 1] and reshaped to a scalar. -/
theorem pick_apply (v : S2x128.Idx → EReal) (c : Fin 2) (l : Fin 128) (h : S2x128.Slices ![c.val, l.val] S1x1) (i : S_.Idx) :
    shapeCast S_ (extractStridedSlice S1x1 ![c.val, l.val] v h) Facts₀.shapeCasts_S1x1_S_ i = v (ix2 c l) := by
  rw [shapeCast_apply _ _ i (ix2 (0 : Fin 1) (0 : Fin 1)) (by
    have h2 : (S_.rowMajor i).val = 0 := Nat.lt_one_iff.mp (S_.rowMajor i).isLt
    rw [h2, Shape.rowMajor_val_two]; rfl)]
  exact extractStridedSlice_apply _ v h _ (ix2 c l) (fun a => match a with
    | ⟨0, _⟩ => by show c.val = c.val + 0; omega
    | ⟨1, _⟩ => by show l.val = l.val + 0; omega)

/-- The region's output array, as the host operations after it find it, is the partial-sum array. -/
theorem arr_eq (c : Dev nD) :
    Pipeline.withArrays (cfgs 0).spec c (V0 m c) (fun w => (dats m 0 c).arrAt w (cfgs 0).N) (Proc.devRef .tc main_v2)
      = outArr (m ((c : Thread nD τ).loc main_arg0)) (m ((c : Thread nD τ).loc main_arg1)) :=
  (Pipeline.withArrays_arr spec0 winFacts0.arr_inj c _ _ 2).trans (final m c)

/-- The first channel's result after the host's last operations. -/
theorem tail16_eq (c : Dev nD) : Pipeline.afterTail₀ cfgs (dats m) 0 (V0 m) [hostOps1] c main_v16
    = (fun _ => loss (hsum (outArr (m ((c : Thread nD τ).loc main_arg0)) (m ((c : Thread nD τ).loc main_arg1))) 0 0)
        (hsum (outArr (m ((c : Thread nD τ).loc main_arg0)) (m ((c : Thread nD τ).loc main_arg1))) 0 1) : S_.Idx → EReal) := by
  unfold Pipeline.afterTail₀
  show StableHlo.after hostOps1 _ (Proc.devRef .tc main_v16) = _
  after_results
  rw [arr_eq]
  funext i
  have e0 := (pick_apply (Host.reduceAdd (F := Ideal) (outArr (m ((c : Thread nD τ).loc main_arg0)) (m ((c : Thread nD τ).loc main_arg1)))
    (constant S_ .f32 0#32) Facts₀.reducesTo_S16x2x8x128_S2x128_d0_2 Facts₀.h_S_) 0 0 Facts₀.slices_S2x128_S1x1_0_0 i).trans (reduce_apply _ 0 0)
  have e1 := (pick_apply (Host.reduceAdd (F := Ideal) (outArr (m ((c : Thread nD τ).loc main_arg0)) (m ((c : Thread nD τ).loc main_arg1)))
    (constant S_ .f32 0#32) Facts₀.reducesTo_S16x2x8x128_S2x128_d0_2 Facts₀.h_S_) 0 1 Facts₀.slices_S2x128_S1x1_0_1 i).trans (reduce_apply _ 0 1)
  show loss _ _ = loss _ _
  exact congrArg₂ loss e0 e1

/-- The second channel's result after the host's last operations. -/
theorem tail21_eq (c : Dev nD) : Pipeline.afterTail₀ cfgs (dats m) 0 (V0 m) [hostOps1] c main_v21
    = (fun _ => loss (hsum (outArr (m ((c : Thread nD τ).loc main_arg0)) (m ((c : Thread nD τ).loc main_arg1))) 1 0)
        (hsum (outArr (m ((c : Thread nD τ).loc main_arg0)) (m ((c : Thread nD τ).loc main_arg1))) 1 1) : S_.Idx → EReal) := by
  unfold Pipeline.afterTail₀
  show StableHlo.after hostOps1 _ (Proc.devRef .tc main_v21) = _
  after_results
  rw [arr_eq]
  funext i
  have e0 := (pick_apply (Host.reduceAdd (F := Ideal) (outArr (m ((c : Thread nD τ).loc main_arg0)) (m ((c : Thread nD τ).loc main_arg1)))
    (constant S_ .f32 0#32) Facts₀.reducesTo_S16x2x8x128_S2x128_d0_2 Facts₀.h_S_) 1 0 Facts₀.slices_S2x128_S1x1_1_0 i).trans (reduce_apply _ 1 0)
  have e1 := (pick_apply (Host.reduceAdd (F := Ideal) (outArr (m ((c : Thread nD τ).loc main_arg0)) (m ((c : Thread nD τ).loc main_arg1)))
    (constant S_ .f32 0#32) Facts₀.reducesTo_S16x2x8x128_S2x128_d0_2 Facts₀.h_S_) 1 1 Facts₀.slices_S2x128_S1x1_1_1 i).trans (reduce_apply _ 1 1)
  show loss _ _ = loss _ _
  exact congrArg₂ loss e0 e1

set_option maxHeartbeats 2000000 in
/-- The total after the host's last operation. -/
theorem tail22_eq (c : Dev nD) : Pipeline.afterTail₀ cfgs (dats m) 0 (V0 m) [hostOps1] c main_v22
    = (fun _ => loss (hsum (outArr (m ((c : Thread nD τ).loc main_arg0)) (m ((c : Thread nD τ).loc main_arg1))) 0 0) (hsum (outArr (m ((c : Thread nD τ).loc main_arg0)) (m ((c : Thread nD τ).loc main_arg1))) 0 1) + loss (hsum (outArr (m ((c : Thread nD τ).loc main_arg0)) (m ((c : Thread nD τ).loc main_arg1))) 1 0) (hsum (outArr (m ((c : Thread nD τ).loc main_arg0)) (m ((c : Thread nD τ).loc main_arg1))) 1 1) : S_.Idx → EReal) := by
  unfold Pipeline.afterTail₀
  show StableHlo.after hostOps1 _ (Proc.devRef .tc main_v22) = _
  after_results
  rw [arr_eq]
  funext i
  have e0 := (pick_apply (Host.reduceAdd (F := Ideal) (outArr (m ((c : Thread nD τ).loc main_arg0)) (m ((c : Thread nD τ).loc main_arg1)))
    (constant S_ .f32 0#32) Facts₀.reducesTo_S16x2x8x128_S2x128_d0_2 Facts₀.h_S_) 0 0 Facts₀.slices_S2x128_S1x1_0_0 i).trans (reduce_apply _ 0 0)
  have e1 := (pick_apply (Host.reduceAdd (F := Ideal) (outArr (m ((c : Thread nD τ).loc main_arg0)) (m ((c : Thread nD τ).loc main_arg1)))
    (constant S_ .f32 0#32) Facts₀.reducesTo_S16x2x8x128_S2x128_d0_2 Facts₀.h_S_) 0 1 Facts₀.slices_S2x128_S1x1_0_1 i).trans (reduce_apply _ 0 1)
  have e2 := (pick_apply (Host.reduceAdd (F := Ideal) (outArr (m ((c : Thread nD τ).loc main_arg0)) (m ((c : Thread nD τ).loc main_arg1)))
    (constant S_ .f32 0#32) Facts₀.reducesTo_S16x2x8x128_S2x128_d0_2 Facts₀.h_S_) 1 0 Facts₀.slices_S2x128_S1x1_1_0 i).trans (reduce_apply _ 1 0)
  have e3 := (pick_apply (Host.reduceAdd (F := Ideal) (outArr (m ((c : Thread nD τ).loc main_arg0)) (m ((c : Thread nD τ).loc main_arg1)))
    (constant S_ .f32 0#32) Facts₀.reducesTo_S16x2x8x128_S2x128_d0_2 Facts₀.h_S_) 1 1 Facts₀.slices_S2x128_S1x1_1_1 i).trans (reduce_apply _ 1 1)
  show loss _ _ + loss _ _ = loss _ _ + loss _ _
  exact congrArg₂ (· + ·) (congrArg₂ loss e0 e1) (congrArg₂ loss e2 e3)

/-- The kernel program's run, read: the three results from the partial-sum array's four sums, the arguments unchanged. -/
theorem run : θ_run defs (onTc (τ := τ) (main (F := Ideal))) ⟨m, fun _ => 0, ρ⟩ fun r => ∀ c : Dev nD,
      r.2.mem ((c : Thread nD τ).loc main_v22)
        = (fun _ => loss (hsum (outArr (m ((c : Thread nD τ).loc main_arg0)) (m ((c : Thread nD τ).loc main_arg1))) 0 0) (hsum (outArr (m ((c : Thread nD τ).loc main_arg0)) (m ((c : Thread nD τ).loc main_arg1))) 0 1) + loss (hsum (outArr (m ((c : Thread nD τ).loc main_arg0)) (m ((c : Thread nD τ).loc main_arg1))) 1 0) (hsum (outArr (m ((c : Thread nD τ).loc main_arg0)) (m ((c : Thread nD τ).loc main_arg1))) 1 1) : S_.Idx → EReal)
      ∧ r.2.mem ((c : Thread nD τ).loc main_v16) = (fun _ => loss (hsum (outArr (m ((c : Thread nD τ).loc main_arg0)) (m ((c : Thread nD τ).loc main_arg1))) 0 0) (hsum (outArr (m ((c : Thread nD τ).loc main_arg0)) (m ((c : Thread nD τ).loc main_arg1))) 0 1) : S_.Idx → EReal)
      ∧ r.2.mem ((c : Thread nD τ).loc main_v21) = (fun _ => loss (hsum (outArr (m ((c : Thread nD τ).loc main_arg0)) (m ((c : Thread nD τ).loc main_arg1))) 1 0) (hsum (outArr (m ((c : Thread nD τ).loc main_arg0)) (m ((c : Thread nD τ).loc main_arg1))) 1 1) : S_.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v22 (Pipeline.mem_restRefs_of main_v22 (by decide) (by decide))).trans (tail22_eq m c),
     ((h c).2 main_v16 (Pipeline.mem_restRefs_of main_v16 (by decide) (by decide))).trans (tail16_eq m c),
     ((h c).2 main_v21 (Pipeline.mem_restRefs_of main_v21 (by decide) (by decide))).trans (tail21_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Tail

end
-- ==== Proof.KernelPay.lean ====
/- What one grid point of the kernel writes: its block of the partial-sum array, entry by entry, from its two input blocks. -/
import proofs.«401867_j57501022158919_4_alg».proof.Proof.Gen.KernelIdeal.Frame
import proofs.«401867_j57501022158919_4_alg».proof.Proof.Spec
import proofs.«401867_j57501022158919_4_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Idealize.ShloMosaic Idealize.ShloMosaic.ValueIdx Cert.KernelIdeal Cert.KernelIdeal.Gen Cert.Spec

/-- Row `i` of channel `c` of a [16, 120000] block: the channel's 60000 entries start at column `c · 60000`. -/
def brow (x : Vec Ideal S16x120000 .f32) (c : Fin 2) (i : Fin 16) : Row :=
  fun j => x (ix2 i (⟨c.val * 60000 + j.val, by have := c.isLt; have := j.isLt; omega⟩ : Fin 120000))

/-- A block's sum of the loss over its positive positions, for channel `c`. -/
def bpos (x0 x1 : Vec Ideal S16x120000 .f32) (c : Fin 2) : EReal :=
  ∑ i : Fin 16, ∑ j : Fin 60000, posTerm (brow x0 c i) (brow x1 c i) j

/-- A block's sum of the loss over all positions, for channel `c`. -/
def ball (x0 x1 : Vec Ideal S16x120000 .f32) (c : Fin 2) : EReal :=
  ∑ i : Fin 16, ∑ j : Fin 60000, allTerm (brow x0 c i) (brow x1 c i) j

/-! ## The layout operations of one channel, read at a row and a lane -/

/-- The slice of a block at column offset 0 is channel 0's rows. -/
theorem slice0_apply (x : FVec Ideal S16x120000 .f32) (i : Fin 16) (j : Fin 60000) :
    extractStridedSlice S16x60000 ![0, 0] x slices_S16x120000_o0_0_S16x60000 (ix2 i j) = brow x 0 i j := by
  unfold extractStridedSlice brow
  refine congrArg x (funext fun a => ?_)
  match a with
  | ⟨0, _⟩ => exact Fin.ext (Nat.zero_add _)
  | ⟨1, _⟩ => exact Fin.ext (by show 0 + j.val = 0 * 60000 + j.val; omega)

/-- The slice of a block at column offset 60000 is channel 1's rows. -/
theorem slice1_apply (x : FVec Ideal S16x120000 .f32) (i : Fin 16) (j : Fin 60000) :
    extractStridedSlice S16x60000 ![0, 60000] x slices_S16x120000_o0_60000_S16x60000 (ix2 i j) = brow x 1 i j := by
  unfold extractStridedSlice brow
  refine congrArg x (funext fun a => ?_)
  match a with
  | ⟨0, _⟩ => exact Fin.ext (Nat.zero_add _)
  | ⟨1, _⟩ => exact Fin.ext (by show 60000 + j.val = 1 * 60000 + j.val; omega)

/-- A rotation along the lanes by `k` is, row by row, the cyclic shift by `k`. -/
theorem rotate_apply (k : BitVec 32) (n : ℕ) (hk : k.toNat = n) (v : FVec Ideal S16x60000 .f32) (i : Fin 16) (j : Fin 60000) :
    dynamicRotate 1 k none v rotates_S16x60000_d1 (ix2 i j) = rot n (fun j' => v (ix2 i j')) j := by
  subst hk
  unfold dynamicRotate rot
  refine congrArg v (funext fun a => ?_)
  match a with
  | ⟨0, _⟩ => rfl
  | ⟨1, _⟩ => exact Fin.ext rfl

/-- One widening step of the kernel: the vector plus its scaled copy rotated along the lanes. -/
def stepV (k q : BitVec 32) (v : FVec Ideal S16x60000 .f32) : FVec Ideal S16x60000 .f32 :=
  addf v (dynamicRotate 1 k none (mulf v (broadcast S16x60000 (Scalar.ofBits (F := Ideal) .f32 q))) rotates_S16x60000_d1)

/-- Row by row it is the specification's step. -/
theorem stepV_row (k q : BitVec 32) (n : ℕ) (hk : k.toNat = n) (v : FVec Ideal S16x60000 .f32) (i : Fin 16) (y : Row)
    (hv : ∀ j, v (ix2 i j) = y j) (j : Fin 60000) :
    stepV k q v (ix2 i j) = step n (Ideal.ofBits .f32 q) y j := by
  unfold stepV step
  rw [addf_apply, rotate_apply k n hk, hv j]
  refine congrArg (fun f : Row => y j + rot n f j) (funext fun j' => ?_)
  rw [mulf_apply, hv j']
  rfl

/-- The kernel's widening of a sliced annotation vector, capped at 1. -/
def widenV (v : FVec Ideal S16x60000 .f32) : FVec Ideal S16x60000 .f32 :=
  minimumf (stepV 2#32 0x3E800000#32 (stepV 1#32 0x3F000000#32 (stepV 59999#32 0x3F000000#32 (stepV 59998#32 0x3E800000#32 v))))
    (broadcast S16x60000 (Scalar.ofBits (F := Ideal) .f32 0x3F800000#32))

/-- Row by row it is the specification's widening. -/
theorem widenV_row (v : FVec Ideal S16x60000 .f32) (i : Fin 16) (y : Row) (hv : ∀ j, v (ix2 i j) = y j) (j : Fin 60000) :
    widenV v (ix2 i j) = widen y j := by
  unfold widenV widen
  rw [minimumf_apply]
  refine congrArg (fun t => min t c1) ?_
  exact stepV_row _ _ 2 rfl _ i _ (stepV_row _ _ 1 rfl _ i _ (stepV_row _ _ 59999 rfl _ i _ (stepV_row _ _ 59998 rfl _ i _ hv))) j

/-- The widened annotation of channel 0, at a row and a lane. -/
theorem pay4_apply (x1 : Vec Ideal S16x120000 .f32) (i : Fin 16) (j : Fin 60000) :
    k0_pay4 (F := Ideal) x1 (ix2 i j) = widen (brow x1 0 i) j := by
  have e : k0_pay4 (F := Ideal) x1 = widenV (extractStridedSlice S16x60000 ![0, 0] x1 slices_S16x120000_o0_0_S16x60000) := by
    unfold k0_pay4 k0_pay3 widenV stepV
    rw [shapeCast_self]
  rw [e]
  exact widenV_row _ i _ (fun j' => slice0_apply x1 i j') j

/-- The widened annotation of channel 1, at a row and a lane. -/
theorem pay10_apply (x1 : Vec Ideal S16x120000 .f32) (i : Fin 16) (j : Fin 60000) :
    k0_pay10 (F := Ideal) (k0_pay3 (F := Ideal) x1) (ix2 i j) = widen (brow x1 1 i) j := by
  have e : k0_pay10 (F := Ideal) (k0_pay3 (F := Ideal) x1)
      = widenV (extractStridedSlice S16x60000 ![0, 60000] x1 slices_S16x120000_o0_60000_S16x60000) := by
    unfold k0_pay10 k0_pay3 widenV stepV
    rw [shapeCast_self]
  rw [e]
  exact widenV_row _ i _ (fun j' => slice1_apply x1 i j') j

/-! ## The loss at an entry -/

/-- The kernel's loss of a probability vector against a widened annotation vector. -/
def bceV (p t : FVec Ideal S16x60000 .f32) : FVec Ideal S16x60000 .f32 :=
  subf (broadcast S16x60000 (Scalar.ofBits (F := Ideal) .f32 0x00000000#32))
    (addf
      (mulf t (maximumf (broadcast S16x60000 (Scalar.ofBits (F := Ideal) .f32 0xC2C80000#32)) (log p)))
      (mulf (subf (broadcast S16x60000 (Scalar.ofBits (F := Ideal) .f32 0x3F800000#32)) t)
        (maximumf (broadcast S16x60000 (Scalar.ofBits (F := Ideal) .f32 0xC2C80000#32))
          (log1p (subf (broadcast S16x60000 (Scalar.ofBits (F := Ideal) .f32 0x00000000#32)) p)))))

/-- At every entry it is the specification's loss: the subtraction from zero is the negation. -/
theorem bceV_apply (p t : FVec Ideal S16x60000 .f32) (y : S16x60000.Idx) : bceV p t y = bce (p y) (t y) := by
  unfold bce
  show Ideal.ofBits .f32 0x00000000#32
      - (t y * max (Ideal.ofBits .f32 0xC2C80000#32) (Ideal.log (p y))
        + (Ideal.ofBits .f32 0x3F800000#32 - t y)
          * max (Ideal.ofBits .f32 0xC2C80000#32) (Ideal.log1p (Ideal.ofBits .f32 0x00000000#32 - p y))) = _
  rw [Consts.ofBits_zero, zero_sub, zero_sub]

/-- The block's first payload is the block itself. -/
theorem pay2_eq (x : Vec Ideal S16x120000 .f32) : k0_pay2 (F := Ideal) x = x := shapeCast_self _ _
theorem pay3_eq (x : Vec Ideal S16x120000 .f32) : k0_pay3 (F := Ideal) x = x := shapeCast_self _ _

/-- Channel 0's loss vector, at a row and a lane. -/
theorem pay5_apply (x0 x1 : Vec Ideal S16x120000 .f32) (i : Fin 16) (j : Fin 60000) :
    k0_pay5 (F := Ideal) x0 x1 (ix2 i j) = allTerm (brow x0 0 i) (brow x1 0 i) j := by
  have e : k0_pay5 (F := Ideal) x0 x1
      = bceV (extractStridedSlice S16x60000 ![0, 0] (k0_pay2 (F := Ideal) x0) slices_S16x120000_o0_0_S16x60000)
          (k0_pay4 (F := Ideal) x1) := rfl
  rw [e, bceV_apply, pay2_eq, slice0_apply, pay4_apply]
  rfl

/-- Channel 1's loss vector, as the kernel's third part assembles it from the second part's pieces. -/
def loss1 (x0 x1 : Vec Ideal S16x120000 .f32) : FVec Ideal S16x60000 .f32 :=
  subf (broadcast S16x60000 (Scalar.ofBits (F := Ideal) .f32 0x00000000#32))
    (addf (k0_pay12 (F := Ideal) (k0_pay2 (F := Ideal) x0) (k0_pay3 (F := Ideal) x1))
      (mulf (subf (broadcast S16x60000 (Scalar.ofBits (F := Ideal) .f32 0x3F800000#32)) (k0_pay10 (F := Ideal) (k0_pay3 (F := Ideal) x1)))
        (k0_pay11 (F := Ideal) (k0_pay2 (F := Ideal) x0))))

/-- It is the same loss, of channel 1's slice against channel 1's widened annotation. -/
theorem loss1_apply (x0 x1 : Vec Ideal S16x120000 .f32) (i : Fin 16) (j : Fin 60000) :
    loss1 x0 x1 (ix2 i j) = allTerm (brow x0 1 i) (brow x1 1 i) j := by
  have e : loss1 x0 x1
      = bceV (extractStridedSlice S16x60000 ![0, 60000] (k0_pay2 (F := Ideal) x0) slices_S16x120000_o0_60000_S16x60000)
          (k0_pay10 (F := Ideal) (k0_pay3 (F := Ideal) x1)) := rfl
  rw [e, bceV_apply, pay2_eq, slice1_apply, pay10_apply]
  rfl

/-! ## The kernel's totals: the lanes of each row, then the rows -/

/-- The index over row `i` with lane `k` put back is `(i, k)`. -/
theorem lift_lane (i : Fin 16) (k : Fin 60000) : reduces_S16x60000_S16.lift (ix1 i) k = ix2 i k :=
  funext fun a => match a with | ⟨0, _⟩ => Fin.ext rfl | ⟨1, _⟩ => Fin.ext rfl

/-- The index over the unit coordinate `u` with row `k` put back is `(u, k)`. -/
theorem lift_row (u : Fin 1) (k : Fin 16) : reduces_S1x16_S1.lift (ix1 u) k = ix2 u k :=
  funext fun a => match a with | ⟨0, _⟩ => Fin.ext rfl | ⟨1, _⟩ => Fin.ext rfl

/-- The kernel's total of a [16, 60000] vector: the sum over the lanes of each row, then over the rows, read as a scalar. -/
def totalV (v : FVec Ideal S16x60000 .f32) : Ideal .f32 :=
  extractAt ![0, 0]
    (shapeCast S1x1
      (multiReduction (F := Ideal) .add [1] S1
        (shapeCast S1x16
          (multiReduction (F := Ideal) .add [1] S16 v 0x00000000#32 reduces_S16x60000_S16 (.inl rfl) rfl)
          shapeCasts_S16_S1x16)
        0x00000000#32 reduces_S1x16_S1 (.inl rfl) rfl)
      shapeCasts_S1_S1x1)
    inpos_S1x1_p0_0

/-- It is the double sum over rows and lanes. -/
theorem totalV_eq (v : FVec Ideal S16x60000 .f32) : totalV v = ∑ i : Fin 16, ∑ j : Fin 60000, v (ix2 i j) := by
  unfold totalV extractAt
  have hidx : (fun a => (⟨(![0, 0] : Fin 2 → ℕ) a, inpos_S1x1_p0_0 a⟩ : Fin (S1x1.size a))) = ix2 (0 : Fin 1) (0 : Fin 1) :=
    funext fun a => match a with | ⟨0, _⟩ => rfl | ⟨1, _⟩ => rfl
  refine (congrArg _ hidx).trans ?_
  refine (shapeCast_a_1a_apply _ _ 0 0).trans ?_
  refine (Ideal.multiReduction_add_single _ _ reduces_S1x16_S1 (.inl rfl) rfl (ix1 0)).trans ?_
  show ∑ i : Fin 16, _ = _
  refine Finset.sum_congr rfl fun i _ => ?_
  refine (congrArg _ (lift_row 0 i)).trans ?_
  refine (shapeCast_a_1a_apply _ _ 0 i).trans ?_
  refine (Ideal.multiReduction_add_single _ _ reduces_S16x60000_S16 (.inl rfl) rfl (ix1 i)).trans ?_
  show ∑ j : Fin 60000, _ = _
  refine Finset.sum_congr rfl fun j _ => ?_
  exact congrArg v (lift_lane i j)

/-- The kernel's restriction of a loss vector to the positive positions of a widened annotation vector. -/
def posV (t a : FVec Ideal S16x60000 .f32) : FVec Ideal S16x60000 .f32 :=
  select (cmpf .ogt t (broadcast S16x60000 (Scalar.ofBits (F := Ideal) .f32 0x00000000#32))) a
    (broadcast S16x60000 (Scalar.ofBits (F := Ideal) .f32 0x00000000#32))

theorem posV_apply (t a : FVec Ideal S16x60000 .f32) (y : S16x60000.Idx) :
    posV t a y = Scalar.select (isPos (t y)) (a y) c0 := rfl

/-- Channel 0's positive sum. -/
theorem pay7_eq (x0 x1 : Vec Ideal S16x120000 .f32) :
    k0_pay7 (F := Ideal) (k0_pay4 (F := Ideal) x1) (k0_pay5 (F := Ideal) x0 x1) = bpos x0 x1 0 := by
  have e : k0_pay7 (F := Ideal) (k0_pay4 (F := Ideal) x1) (k0_pay5 (F := Ideal) x0 x1)
      = totalV (posV (k0_pay4 (F := Ideal) x1) (k0_pay5 (F := Ideal) x0 x1)) := rfl
  rw [e, totalV_eq]
  unfold bpos
  refine Finset.sum_congr rfl fun i _ => Finset.sum_congr rfl fun j _ => ?_
  rw [posV_apply, pay4_apply, pay5_apply]
  rfl

/-- Channel 0's second lane: the sum over all positions minus the positive sum. -/
theorem pay8_eq (x0 x1 : Vec Ideal S16x120000 .f32) :
    k0_pay8 (F := Ideal) (k0_pay4 (F := Ideal) x1) (k0_pay5 (F := Ideal) x0 x1) (k0_pay6 (F := Ideal) x0 x1)
      = ball x0 x1 0 - bpos x0 x1 0 := by
  have e : k0_pay8 (F := Ideal) (k0_pay4 (F := Ideal) x1) (k0_pay5 (F := Ideal) x0 x1) (k0_pay6 (F := Ideal) x0 x1)
      = totalV (k0_pay5 (F := Ideal) x0 x1)
        - k0_pay7 (F := Ideal) (k0_pay4 (F := Ideal) x1) (k0_pay5 (F := Ideal) x0 x1) := rfl
  rw [e, pay7_eq, totalV_eq]
  unfold ball
  exact congrArg (· - bpos x0 x1 0)
    (Finset.sum_congr rfl fun i _ => Finset.sum_congr rfl fun j _ => pay5_apply x0 x1 i j)

/-- Channel 1's positive sum. -/
theorem pos1_eq (x0 x1 : Vec Ideal S16x120000 .f32) :
    totalV (posV (k0_pay10 (F := Ideal) (k0_pay3 (F := Ideal) x1)) (loss1 x0 x1)) = bpos x0 x1 1 := by
  rw [totalV_eq]
  unfold bpos
  refine Finset.sum_congr rfl fun i _ => Finset.sum_congr rfl fun j _ => ?_
  rw [posV_apply, pay10_apply, loss1_apply]
  rfl

/-- Channel 1's sum over all positions. -/
theorem all1_eq (x0 x1 : Vec Ideal S16x120000 .f32) : totalV (loss1 x0 x1) = ball x0 x1 1 := by
  rw [totalV_eq]
  unfold ball
  exact Finset.sum_congr rfl fun i _ => Finset.sum_congr rfl fun j _ => loss1_apply x0 x1 i j

/-! ## The placement of the four scalars -/

theorem zeros2 : (![0, 0] : Fin 2 → ℕ) = fun _ => 0 := funext fun a => by fin_cases a <;> rfl
theorem zeros4 : (![0, 0, 0, 0] : Fin 4 → ℕ) = fun _ => 0 := funext fun a => by fin_cases a <;> rfl

/-- A select on "the 32-bit word of `n` is the word of `m`", both below 2³², is the `if` on the naturals. -/
theorem select_coord {α : Type} (n m : ℕ) (hn : n < 2 ^ 32) (hm : m < 2 ^ 32) (A B : α) :
    Scalar.select (IntOp.cmpi .eq (BitVec.ofNat 32 n) (BitVec.ofNat 32 m)) A B = if n = m then A else B := by
  unfold Scalar.select IntOp.cmpi
  by_cases h : n = m
  · subst h; simp
  · have hne : BitVec.ofNat 32 n ≠ BitVec.ofNat 32 m := fun e => h (by
      have e' := congrArg BitVec.toNat e
      rwa [BitVec.toNat_ofNat, BitVec.toNat_ofNat, Nat.mod_eq_of_lt hn, Nat.mod_eq_of_lt hm] at e')
    have hb : (BitVec.ofNat 32 n == BitVec.ofNat 32 m) = false := beq_eq_false_iff_ne.mpr hne
    simp [hb, h]

/-- A select on "the channel coordinate is `m`". -/
theorem sel_iota0 (m : ℕ) (hm : m < 2 ^ 32) (A B : FVec Ideal S2x8x128 .f32) (c : Fin 2) (r : Fin 8) (l : Fin 128) :
    select (cmpi .eq (iota .tc S2x8x128 32 [0] iota_S2x8x128_d0_w32) (broadcast S2x8x128 (BitVec.ofNat 32 m))) A B (ix3 c r l)
      = if c.val = m then A (ix3 c r l) else B (ix3 c r l) := by
  show Scalar.select (IntOp.cmpi .eq (iota .tc S2x8x128 32 [0] iota_S2x8x128_d0_w32 (ix3 c r l)) (BitVec.ofNat 32 m)) _ _ = _
  rw [iota_single_apply]
  exact select_coord c.val m (lt_of_lt_of_le c.isLt (by norm_num)) hm _ _

/-- A select on "the row coordinate is `m`". -/
theorem sel_iota1 (m : ℕ) (hm : m < 2 ^ 32) (A B : FVec Ideal S2x8x128 .f32) (c : Fin 2) (r : Fin 8) (l : Fin 128) :
    select (cmpi .eq (iota .tc S2x8x128 32 [1] iota_S2x8x128_d1_w32) (broadcast S2x8x128 (BitVec.ofNat 32 m))) A B (ix3 c r l)
      = if r.val = m then A (ix3 c r l) else B (ix3 c r l) := by
  show Scalar.select (IntOp.cmpi .eq (iota .tc S2x8x128 32 [1] iota_S2x8x128_d1_w32 (ix3 c r l)) (BitVec.ofNat 32 m)) _ _ = _
  rw [iota_single_apply]
  exact select_coord r.val m (lt_of_lt_of_le r.isLt (by norm_num)) hm _ _

/-- A select on "the lane coordinate is `m`". -/
theorem sel_iota2 (m : ℕ) (hm : m < 2 ^ 32) (A B : FVec Ideal S2x8x128 .f32) (c : Fin 2) (r : Fin 8) (l : Fin 128) :
    select (cmpi .eq (iota .tc S2x8x128 32 [2] iota_S2x8x128_d2_w32) (broadcast S2x8x128 (BitVec.ofNat 32 m))) A B (ix3 c r l)
      = if l.val = m then A (ix3 c r l) else B (ix3 c r l) := by
  show Scalar.select (IntOp.cmpi .eq (iota .tc S2x8x128 32 [2] iota_S2x8x128_d2_w32 (ix3 c r l)) (BitVec.ofNat 32 m)) _ _ = _
  rw [iota_single_apply]
  exact select_coord l.val m (lt_of_lt_of_le l.isLt (by norm_num)) hm _ _

/-- The [2, 8, 128] vector the kernel assembles from the four scalars: lane 0 and lane 1 of each channel, 0 elsewhere. -/
def placeV (a0 b0 a1 b1 : Ideal .f32) : FVec Ideal S2x8x128 .f32 :=
  select (cmpi .eq (iota .tc S2x8x128 32 [0] iota_S2x8x128_d0_w32) (broadcast S2x8x128 1#32))
    (select (cmpi .eq (iota .tc S2x8x128 32 [2] iota_S2x8x128_d2_w32) (broadcast S2x8x128 0#32)) (broadcast S2x8x128 a1)
      (select (cmpi .eq (iota .tc S2x8x128 32 [2] iota_S2x8x128_d2_w32) (broadcast S2x8x128 1#32)) (broadcast S2x8x128 b1)
        (broadcast S2x8x128 (Scalar.ofBits (F := Ideal) .f32 0x00000000#32))))
    (select (cmpi .eq (iota .tc S2x8x128 32 [2] iota_S2x8x128_d2_w32) (broadcast S2x8x128 0#32)) (broadcast S2x8x128 a0)
      (select (cmpi .eq (iota .tc S2x8x128 32 [2] iota_S2x8x128_d2_w32) (broadcast S2x8x128 1#32)) (broadcast S2x8x128 b0)
        (broadcast S2x8x128 (Scalar.ofBits (F := Ideal) .f32 0x00000000#32))))

theorem placeV_apply (a0 b0 a1 b1 : Ideal .f32) (c : Fin 2) (r : Fin 8) (l : Fin 128) :
    placeV a0 b0 a1 b1 (ix3 c r l)
      = if c.val = 1 then (if l.val = 0 then a1 else if l.val = 1 then b1 else 0)
        else (if l.val = 0 then a0 else if l.val = 1 then b0 else 0) := by
  unfold placeV
  rw [sel_iota0 1 (by norm_num), sel_iota2 0 (by norm_num), sel_iota2 1 (by norm_num), sel_iota2 0 (by norm_num),
    sel_iota2 1 (by norm_num)]
  simp only [broadcast_apply]
  show (if c.val = 1 then (if l.val = 0 then a1 else if l.val = 1 then b1 else Ideal.ofBits .f32 0x00000000#32)
      else (if l.val = 0 then a0 else if l.val = 1 then b0 else Ideal.ofBits .f32 0x00000000#32)) = _
  rw [Consts.ofBits_zero]

/-- The stored block keeps row 0 of the assembled vector and is 0 in every other row. -/
theorem pay1_apply (v : FVec Ideal S2x8x128 .f32) (c : Fin 2) (r : Fin 8) (l : Fin 128) :
    k0_pay1 (F := Ideal) (iota .tc S2x8x128 32 [1] iota_S2x8x128_d1_w32) v (ix4 (0 : Fin 1) c r l)
      = if r.val = 0 then v (ix3 c r l) else 0 := by
  have e : k0_pay1 (F := Ideal) (iota .tc S2x8x128 32 [1] iota_S2x8x128_d1_w32) v
      = shapeCast S1x2x8x128
          (select (cmpi .eq (iota .tc S2x8x128 32 [1] iota_S2x8x128_d1_w32) (broadcast S2x8x128 0#32)) v
            (broadcast S2x8x128 (Scalar.ofBits (F := Ideal) .f32 0x00000000#32)))
          shapeCasts_S2x8x128_S1x2x8x128 := rfl
  rw [e]
  refine (shapeCast_abc_1abc_apply _ _ 0 c r l).trans ?_
  refine (sel_iota1 0 (by norm_num) _ _ c r l).trans ?_
  show (if r.val = 0 then v (ix3 c r l) else Ideal.ofBits .f32 0x00000000#32) = _
  rw [Consts.ofBits_zero]

/-- The block a grid point writes, with the channel's case still spelt as the kernel spells it. -/
theorem out_cases (x0 x1 : Vec Ideal S16x120000 .f32) (c : Fin 2) (r : Fin 8) (l : Fin 128) :
    Gen.out0_2 (F := Ideal) x0 x1 (ix4 (0 : Fin 1) c r l)
      = if r.val = 0 then
          (if c.val = 1 then (if l.val = 0 then bpos x0 x1 1 else if l.val = 1 then ball x0 x1 1 - bpos x0 x1 1 else 0)
           else (if l.val = 0 then bpos x0 x1 0 else if l.val = 1 then ball x0 x1 0 - bpos x0 x1 0 else 0))
        else 0 := by
  unfold Gen.out0_2
  rw [View.canon_unit_zero zeros4]
  simp only [View.ld_unit_zero (S := S16x120000) zeros2]
  rw [pay1_apply]
  have e : k0_pay13 (F := Ideal)
        (k0_pay7 (F := Ideal) (k0_pay4 (F := Ideal) x1) (k0_pay5 (F := Ideal) x0 x1))
        (k0_pay8 (F := Ideal) (k0_pay4 (F := Ideal) x1) (k0_pay5 (F := Ideal) x0 x1) (k0_pay6 (F := Ideal) x0 x1))
        (k0_pay10 (F := Ideal) (k0_pay3 (F := Ideal) x1)) (k0_pay11 (F := Ideal) (k0_pay2 (F := Ideal) x0))
        (k0_pay12 (F := Ideal) (k0_pay2 (F := Ideal) x0) (k0_pay3 (F := Ideal) x1))
      = placeV
          (k0_pay7 (F := Ideal) (k0_pay4 (F := Ideal) x1) (k0_pay5 (F := Ideal) x0 x1))
          (k0_pay8 (F := Ideal) (k0_pay4 (F := Ideal) x1) (k0_pay5 (F := Ideal) x0 x1) (k0_pay6 (F := Ideal) x0 x1))
          (totalV (posV (k0_pay10 (F := Ideal) (k0_pay3 (F := Ideal) x1)) (loss1 x0 x1)))
          (totalV (loss1 x0 x1) - totalV (posV (k0_pay10 (F := Ideal) (k0_pay3 (F := Ideal) x1)) (loss1 x0 x1))) := rfl
  rw [e, placeV_apply, pay7_eq, pay8_eq, pos1_eq, all1_eq]

/-- The block a grid point writes: in row 0 of channel `c`, lane 0 holds the positive sum, lane 1 the sum of all minus
    the positive sum, every other entry 0. -/
theorem out_apply (x0 x1 : Vec Ideal S16x120000 .f32) (c : Fin 2) (r : Fin 8) (l : Fin 128) :
    Gen.out0_2 (F := Ideal) x0 x1 (ix4 (0 : Fin 1) c r l)
      = if r.val = 0 then
          (if l.val = 0 then bpos x0 x1 c else if l.val = 1 then ball x0 x1 c - bpos x0 x1 c else 0)
        else 0 := by
  rw [out_cases]
  match c with
  | ⟨0, _⟩ => rfl
  | ⟨1, _⟩ => rfl

end Cert.KernelIdeal.KValue

end
-- ==== Proof.Algebra.lean ====
/- The two laws of finite sums that join the kernel's per-block sums to the reference's whole-array sums. -/
import proofs.«401867_j57501022158919_4_alg».proof.Proof.Spec
import proofs.«401867_j57501022158919_4_alg».proof.Proof.Consts
import Mathlib.Algebra.BigOperators.Fin
import Mathlib.Algebra.BigOperators.Group.Finset.Basic
import Mathlib.Logic.Equiv.Fin.Basic
import Mathlib.Data.EReal.Operations

noncomputable section

namespace Cert.Spec

open Idealize.ShloMosaic

/-- Every entry of a row is a real number. -/
def RowFinite (y : Row) : Prop := ∀ j, ∃ r : ℝ, y j = (r : EReal)

namespace Alg

/-! ### Extended reals that are real numbers -/

/-- The extended real `x` is (the image of) a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.min {x y : EReal} (hx : IsReal x) (hy : IsReal y) : IsReal (min x y) := by
  rcases min_choice x y with h | h <;> rw [h] <;> assumption

theorem IsReal.max {x y : EReal} (hx : IsReal x) (hy : IsReal y) : IsReal (max x y) := by
  rcases max_choice x y with h | h <;> rw [h] <;> assumption

theorem isReal_c1 : IsReal c1 := ⟨1, Consts.ofBits_one⟩
theorem isReal_cHalf : IsReal cHalf := ⟨_, Consts.ofBits_half⟩
theorem isReal_cQuarter : IsReal cQuarter := ⟨_, Consts.ofBits_quarter⟩
theorem isReal_cM100 : IsReal cM100 := ⟨_, Consts.ofBits_m100⟩

/-- The logarithm of a real is a real or `⊥`, so clipping it below at `-100` gives a real. -/
theorem isReal_clipLog {x : EReal} (hx : IsReal x) : IsReal (max cM100 (Ideal.log x)) := by
  obtain ⟨a, rfl⟩ := hx
  by_cases h : a ≤ 0
  · have : Ideal.log (a : EReal) = ⊥ := by rw [Ideal.log_coe, if_pos h]
    rw [this, max_bot_right]; exact isReal_cM100
  · have : Ideal.log (a : EReal) = (Real.log a : EReal) := by rw [Ideal.log_coe, if_neg h]
    rw [this]; exact isReal_cM100.max ⟨_, rfl⟩

theorem isReal_clipLog1p {x : EReal} (hx : IsReal x) : IsReal (max cM100 (Ideal.log1p x)) := by
  unfold Ideal.log1p
  exact isReal_clipLog (IsReal.add ⟨1, rfl⟩ hx)

theorem isReal_bce {p t : EReal} (hp : IsReal p) (ht : IsReal t) : IsReal (bce p t) := by
  unfold bce
  exact ((ht.mul (isReal_clipLog hp)).add ((isReal_c1.sub ht).mul (isReal_clipLog1p hp.neg))).neg

theorem rowFinite_step (k : ℕ) {q : EReal} (hq : IsReal q) {y : Row} (hy : RowFinite y) :
    RowFinite (step k q y) := by
  intro j
  unfold step rot
  exact IsReal.add (hy j) (IsReal.mul (hy _) hq)

theorem isReal_widen {y : Row} (hy : RowFinite y) (j : Fin 60000) : IsReal (widen y j) := by
  unfold widen
  exact IsReal.min
    (rowFinite_step 2 isReal_cQuarter (rowFinite_step 1 isReal_cHalf
      (rowFinite_step 59999 isReal_cHalf (rowFinite_step 59998 isReal_cQuarter hy))) j)
    isReal_c1

/-- With finite rows every entry's loss is a real number. -/
theorem isReal_allTerm {p y : Row} (hp : RowFinite p) (hy : RowFinite y) (j : Fin 60000) :
    IsReal (allTerm p y j) := by
  unfold allTerm
  exact isReal_bce (hp j) (isReal_widen hy j)

/-! ### Sums -/

/-- The coercion of the reals into the extended reals commutes with finite sums. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of reals, minus its part under a mask, is its part under the complementary mask. -/
theorem sum_sub_select {ι : Type*} [Fintype ι] (a : ι → EReal) (m : ι → BitVec 1) (h : ∀ i, IsReal (a i)) :
    (∑ i, a i) - (∑ i, Scalar.select (m i) (a i) 0) = ∑ i, Scalar.select (m i) 0 (a i) := by
  choose r hr using h
  have h1 : ∀ i, Scalar.select (m i) (a i) 0 = ((Scalar.select (m i) (r i) 0 : ℝ) : EReal) := by
    intro i; rw [hr i]; unfold Scalar.select; split_ifs <;> simp
  have h2 : ∀ i, Scalar.select (m i) 0 (a i) = ((Scalar.select (m i) 0 (r i) : ℝ) : EReal) := by
    intro i; rw [hr i]; unfold Scalar.select; split_ifs <;> simp
  simp only [h1, h2]
  simp only [hr, coe_sum, ← EReal.coe_sub]
  congr 1
  rw [← Finset.sum_sub_distrib]
  refine Finset.sum_congr rfl fun i _ => ?_
  unfold Scalar.select; split_ifs <;> simp

/-- A sum over 256 indices, taken as sixteen blocks of sixteen. -/
theorem sum_blocks {M : Type*} [AddCommMonoid M] (g : Fin 256 → M) :
    ∑ b : Fin 16, ∑ i : Fin 16, g ⟨16 * b.val + i.val, by omega⟩ = ∑ k : Fin 256, g k := by
  rw [← Fintype.sum_prod_type']
  refine Fintype.sum_equiv (finProdFinEquiv (m := 16) (n := 16)) _ _ fun x => ?_
  congr 1
  ext
  simp [finProdFinEquiv]
  omega

end Alg

open Alg

/-- The positive sums of the sixteen blocks of sixteen rows add up to the positive sum of all 256 rows. -/
theorem pos_blocks (P Yr : Fin 256 → Row) :
    ∑ b : Fin 16, (∑ i : Fin 16, ∑ j : Fin 60000,
        posTerm (P ⟨16 * b.val + i.val, by omega⟩) (Yr ⟨16 * b.val + i.val, by omega⟩) j)
      = ∑ i : Fin 256, ∑ j : Fin 60000, posTerm (P i) (Yr i) j := by
  exact sum_blocks (fun k => ∑ j : Fin 60000, posTerm (P k) (Yr k) j)

/-- With finite rows, each block's (sum of all) minus (sum over positives) is its sum over negatives, and the blocks'
    negative sums add up to the negative sum of all 256 rows. -/
theorem neg_blocks (P Yr : Fin 256 → Row) (hP : ∀ i, RowFinite (P i)) (hY : ∀ i, RowFinite (Yr i)) :
    ∑ b : Fin 16, ((∑ i : Fin 16, ∑ j : Fin 60000,
          allTerm (P ⟨16 * b.val + i.val, by omega⟩) (Yr ⟨16 * b.val + i.val, by omega⟩) j)
        - (∑ i : Fin 16, ∑ j : Fin 60000,
          posTerm (P ⟨16 * b.val + i.val, by omega⟩) (Yr ⟨16 * b.val + i.val, by omega⟩) j))
      = ∑ i : Fin 256, ∑ j : Fin 60000, negTerm (P i) (Yr i) j := by
  rw [← sum_blocks (fun k => ∑ j : Fin 60000, negTerm (P k) (Yr k) j)]
  refine Finset.sum_congr rfl fun b _ => ?_
  simp only [← Fintype.sum_prod_type']
  have hz : c0 = 0 := Consts.ofBits_zero
  simp only [posTerm, negTerm, hz]
  exact sum_sub_select
    (fun x : Fin 16 × Fin 60000 =>
      allTerm (P ⟨16 * b.val + x.1.val, by omega⟩) (Yr ⟨16 * b.val + x.1.val, by omega⟩) x.2)
    (fun x => isPos (widen (Yr ⟨16 * b.val + x.1.val, by omega⟩) x.2))
    (fun x => isReal_allTerm (hP _) (hY _) x.2)

end Cert.Spec

end
-- ==== Proof.Bridge.lean ====
/- The host's sums of the partial-sum array are the two sums of the common value: lane 0 of channel c sums to the loss
   over the positive positions of all 256 rows, lane 1 — each slab's (sum of all) minus (sum over positives), which for
   finite arguments is its sum over the negatives — to the loss over the negative positions. -/
import proofs.«401867_j57501022158919_4_alg».proof.Proof.KernelPay
import proofs.«401867_j57501022158919_4_alg».proof.Proof.Blocks
import proofs.«401867_j57501022158919_4_alg».proof.Proof.Tail
import proofs.«401867_j57501022158919_4_alg».proof.Proof.Algebra

noncomputable section

namespace Cert.KernelIdeal.Bridge

open Idealize.ShloMosaic Idealize.ShloMosaic.ValueIdx
open Cert.KernelIdeal Cert.KernelIdeal.Gen Cert.KernelIdeal.KValue Cert.KernelIdeal.Blocks Cert.KernelIdeal.Tail Cert.Spec

/-- An index of the [16, 2, 8, 128] array is its four coordinates. -/
def idxEquiv4 : S16x2x8x128.Idx ≃ Fin 16 × Fin 2 × Fin 8 × Fin 128 where
  toFun i := (i 0, i 1, i 2, i 3)
  invFun p := ix4 p.1 p.2.1 p.2.2.1 p.2.2.2
  left_inv i := (eq_ix4 i).symm
  right_inv _ := rfl

/-- Summing away the slab and row axes keeps the channel and the lane. -/
theorem drop_ix4 (b : Fin 16) (c : Fin 2) (r : Fin 8) (l : Fin 128) :
    Facts₀.reducesTo_S16x2x8x128_S2x128_d0_2.drop (ix4 b c r l) = ix2 c l := by
  funext k; apply Fin.ext
  match k with
  | ⟨0, _⟩ => rfl
  | ⟨1, _⟩ => rfl

/-- The host's sum at channel c, lane l is the double sum over slabs and rows. -/
theorem hsum_eq (A : S16x2x8x128.Idx → EReal) (c : Fin 2) (l : Fin 128) :
    hsum A c l = ∑ b : Fin 16, ∑ r : Fin 8, A (ix4 b c r l) := by
  unfold hsum
  rw [Finset.sum_filter, ← Equiv.sum_comp idxEquiv4.symm]
  simp only [Fintype.sum_prod_type]
  show ∑ b : Fin 16, ∑ c' : Fin 2, ∑ r : Fin 8, ∑ l' : Fin 128,
      (if Facts₀.reducesTo_S16x2x8x128_S2x128_d0_2.drop (ix4 b c' r l') = ix2 c l then A (ix4 b c' r l') else 0) = _
  simp only [drop_ix4]
  refine Finset.sum_congr rfl fun b _ => ?_
  rw [Finset.sum_eq_single c (fun c' _ hc => ?_) (fun h => absurd (Finset.mem_univ _) h)]
  · refine Finset.sum_congr rfl fun r _ => ?_
    rw [Finset.sum_eq_single l (fun l' _ hl => ?_) (fun h => absurd (Finset.mem_univ _) h)]
    · rw [if_pos rfl]
    · rw [if_neg (fun h => hl (congrFun h (1 : Fin 2)))]
  · refine Finset.sum_eq_zero fun r _ => Finset.sum_eq_zero fun l' _ => ?_
    rw [if_neg (fun h => hc (congrFun h (0 : Fin 2)))]

/-- Only row 0 of a slab is nonzero. -/
theorem sum_row0 (a : EReal) : ∑ r : Fin 8, (if r.val = 0 then a else 0) = a := by
  rw [Finset.sum_eq_single (0 : Fin 8)]
  · rfl
  · intro r _ hr
    exact if_neg (fun h => hr (Fin.ext h))
  · intro h
    exact absurd (Finset.mem_univ _) h

/-- Row i, channel c of the block of rows 16b … 16b+15 is row 16b + i of the channel. -/
theorem brow_blkOf (A : Arr) (b : Fin 16) (c : Fin 2) (i : Fin 16) :
    brow (blkOf A b) c i = row A c ⟨16 * b.val + i.val, by have := b.isLt; have := i.isLt; omega⟩ := by
  funext j
  unfold brow blkOf row
  have hc := c.isLt
  have hj := j.isLt
  refine congrArg A (funext fun a => Fin.ext ?_)
  match a with
  | ⟨0, _⟩ => rfl
  | ⟨1, _⟩ => show (c.val * 60000 + j.val) / 60000 = c.val; omega
  | ⟨2, _⟩ => show (c.val * 60000 + j.val) % 60000 = j.val; omega

/-- An entry of the partial-sum array. -/
theorem outArr_apply (X Y : Arr) (b : Fin 16) (c : Fin 2) (r : Fin 8) (l : Fin 128) :
    outArr X Y (ix4 b c r l)
      = if r.val = 0 then
          (if l.val = 0 then bpos (blkOf X b) (blkOf Y b) c
            else if l.val = 1 then ball (blkOf X b) (blkOf Y b) c - bpos (blkOf X b) (blkOf Y b) c else 0)
        else 0 :=
  out_apply (blkOf X b) (blkOf Y b) c r l

/-- Lane 0: the positive sums of the sixteen slabs add up to the channel's positive sum. -/
theorem hsum_pos (X Y : Arr) (c : Fin 2) : hsum (outArr X Y) c (0 : Fin 128) = pos X Y c := by
  rw [hsum_eq]
  simp only [outArr_apply]
  simp only [show ((0 : Fin 128).val = 0) = True from eq_self _, if_true, sum_row0]
  unfold bpos pos
  simp only [brow_blkOf]
  exact pos_blocks (row X c) (row Y c)

/-- Lane 1: for finite arguments the slabs' (sum of all) minus (sum over positives) add up to the channel's negative sum. -/
theorem hsum_neg (X Y : Arr) (hX : ∀ i, ∃ r : ℝ, X i = (r : EReal)) (hY : ∀ i, ∃ r : ℝ, Y i = (r : EReal)) (c : Fin 2) :
    hsum (outArr X Y) c (1 : Fin 128) = neg X Y c := by
  rw [hsum_eq]
  simp only [outArr_apply]
  simp only [show ((1 : Fin 128).val = 0) = False from eq_false (by decide), show ((1 : Fin 128).val = 1) = True from eq_self _,
    if_true, if_false, sum_row0]
  unfold ball bpos neg
  simp only [brow_blkOf]
  exact neg_blocks (row X c) (row Y c) (fun i j => hX _) (fun i j => hY _)

end Cert.KernelIdeal.Bridge

end
-- ==== Proof.Finite.lean ====
/- The precondition read: every entry of both argument arrays is a real number. -/
import proofs.«401867_j57501022158919_4_alg».proof.Pre_finite_inputs
import proofs.«401867_j57501022158919_4_alg».proof.Proof.Gen.Pre_finite_inputs
import proofs.«401867_j57501022158919_4_alg».proof.Proof.Spec
import Idealize.ShloMosaic.Lib.ReduceAll

noncomputable section

namespace Cert.Spec

open Idealize.ShloMosaic

namespace FiniteAux

/-- The result shape of a reduction over all axes has exactly one index. -/
local instance subsingleton_scalarIdx : Subsingleton Cert.Pre_finite_inputs.S_.Idx :=
  ⟨fun a b => funext fun d => d.elim0⟩

/-- The pattern with all exponent bits set and no fraction bit denotes `+∞`. -/
theorem ofBits_inf : Ideal.ofBits .f32 0x7F800000#32 = (⊤ : EReal) := by
  simp [Ideal.ofBits, Ideal.ieee]

/-- An extended real whose absolute value `max x (-x)` lies strictly below `+∞` is a real number:
    at `-∞` and at `+∞` the absolute value is `+∞` itself. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The elementwise test `|x| < +∞` true everywhere (its reduction by `and` over all axes being 1)
    makes every entry of the array a real number. -/
theorem real_of_all (X : Arr)
    (hX : Host.reduce IntOp.andi
        (cmpf CmpFPredicate.olt (Host.absf X)
          (broadcastInDim Cert.Pre_finite_inputs.S256x2x60000 ![] Cert.Pre_finite_inputs.Facts.bcast_S_S256x2x60000
            (constant (F := Ideal) Cert.Pre_finite_inputs.S_ FTy.f32 0x7F800000#32)))
        (constantI Cert.Pre_finite_inputs.S_ 1 1#1)
        Cert.Pre_finite_inputs.Facts.reducesTo_S256x2x60000_S_d0_1_2 Cert.Pre_finite_inputs.Facts.h_S_ ValueIdx.ix0 = 1#1) :
    ∀ i, ∃ r : ℝ, X i = (r : EReal) := by
  intro i
  have hi := Host.reduce_andi_all _ _ _ _ _ hX i
  exact real_of_abs_lt_top (X i) hi

end FiniteAux

/-- `finite_inputs` all ones says that every entry of the two arrays is finite, that is, a real number. -/
theorem finite_of_pre (X Y : Arr)
    (h : Cert.Pre_finite_inputs.fn (F := Ideal) X Y = fun _ => 1#1) :
    (∀ i, ∃ r : ℝ, X i = (r : EReal)) ∧ (∀ i, ∃ r : ℝ, Y i = (r : EReal)) := by
  have h0 := congrFun h ValueIdx.ix0
  dsimp only [Cert.Pre_finite_inputs.fn] at h0
  obtain ⟨hX, hY⟩ := IntOp.andi_eq_one.1 h0
  exact ⟨FiniteAux.real_of_all X hX, FiniteAux.real_of_all Y hY⟩

end Cert.Spec

end
-- ==== Proof.RefValue.lean ====
/- The reference's three results are the common value. -/
import proofs.«401867_j57501022158919_4_alg».proof.Proof.RefRead
import proofs.«401867_j57501022158919_4_alg».proof.Proof.Spec
import proofs.«401867_j57501022158919_4_alg».proof.Proof.Consts
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.RefRead Cert.Spec

/-! ## Facts that do not mention the program -/

/-- Division by the constant 4 is multiplication by the constant 1/4. -/
theorem div_four (x : EReal) : Ideal.div x (Ideal.ofBits .f32 0x40800000#32) = x * cQuarter := by
  rw [Consts.ofBits_four, Ideal.div_coe (by norm_num), show cQuarter = _ from Consts.ofBits_quarter]
  norm_num

/-- Division by the constant 2 is multiplication by the constant 1/2. -/
theorem div_two (x : EReal) : Ideal.div x (Ideal.ofBits .f32 0x40000000#32) = x * cHalf := by
  rw [Consts.ofBits_two, Ideal.div_coe (by norm_num), show cHalf = _ from Consts.ofBits_half]
  norm_num

/-- The columns from `n₂` on followed by the first `n₂` columns: the cyclic shift of every row by `n₁ = 60000 - n₂`
    places to the right. -/
theorem roll_apply (n₁ n₂ : ℕ) (hn : n₁ + n₂ = 60000) (h0 : 0 < n₂)
    (z : (⟨2, ![256, 60000]⟩ : Shape).Idx → EReal)
    (hs1 : (⟨2, ![256, 60000]⟩ : Shape).Slices ![0, n₂] ⟨2, ![256, n₁]⟩)
    (hs2 : (⟨2, ![256, 60000]⟩ : Shape).Slices ![0, 0] ⟨2, ![256, n₂]⟩)
    (hc : Shape.Concatenates [⟨2, ![256, n₁]⟩, ⟨2, ![256, n₂]⟩] ⟨2, ![256, 60000]⟩ 1)
    (a : Fin 256) (j : Fin 60000) :
    concatenate (⟨2, ![256, 60000]⟩ : Shape) 1
      [⟨⟨2, ![256, n₁]⟩, extractStridedSlice ⟨2, ![256, n₁]⟩ ![0, n₂] z hs1⟩,
       ⟨⟨2, ![256, n₂]⟩, extractStridedSlice ⟨2, ![256, n₂]⟩ ![0, 0] z hs2⟩] hc (ix2 a j)
      = rot n₁ (fun j' => z (ix2 a j')) j := by
  have hj := j.isLt
  unfold rot
  by_cases hlt : j.val < n₁
  · refine (concatenate_pair_apply_left (t := ⟨2, ![256, 60000]⟩) (s₁ := ⟨2, ![256, n₁]⟩) (s₂ := ⟨2, ![256, n₂]⟩)
      (1 : Fin 2) _ _ hc (ix2 a j) rfl (ix2 a ⟨j.val, hlt⟩)
      (fun b => match b with | ⟨0, _⟩ => rfl | ⟨1, _⟩ => rfl)).trans ?_
    refine (extractStridedSlice_apply ![0, n₂] z hs1 (ix2 a ⟨j.val, hlt⟩)
      (ix2 a ⟨(j.val + 60000 - n₁ % 60000) % 60000, Nat.mod_lt _ (by norm_num)⟩)
      (fun b => match b with
        | ⟨0, _⟩ => by show a.val = 0 + a.val; omega
        | ⟨1, _⟩ => by show (j.val + 60000 - n₁ % 60000) % 60000 = n₂ + j.val; omega)).trans ?_
    rfl
  · refine (concatenate_pair_apply_right (t := ⟨2, ![256, 60000]⟩) (s₁ := ⟨2, ![256, n₁]⟩) (s₂ := ⟨2, ![256, n₂]⟩)
      (1 : Fin 2) _ _ hc (ix2 a j) rfl rfl (ix2 a ⟨j.val - n₁, by omega⟩)
      (fun b => match b with
        | ⟨0, _⟩ => fun _ => rfl
        | ⟨1, _⟩ => fun h => absurd rfl h)
      (by show (j.val - n₁) + n₁ = j.val; omega)).trans ?_
    refine (extractStridedSlice_apply ![0, 0] z hs2 (ix2 a ⟨j.val - n₁, by omega⟩)
      (ix2 a ⟨(j.val + 60000 - n₁ % 60000) % 60000, Nat.mod_lt _ (by norm_num)⟩)
      (fun b => match b with
        | ⟨0, _⟩ => by show a.val = 0 + a.val; omega
        | ⟨1, _⟩ => by show (j.val + 60000 - n₁ % 60000) % 60000 = 0 + (j.val - n₁); omega)).trans ?_
    rfl

/-- One widening step read off its four operations: scale, shift, add. -/
theorem step_eq (k : ℕ) (q : EReal) (w : Fin 256 → Row)
    (u v r s : (⟨2, ![256, 60000]⟩ : Shape).Idx → EReal)
    (hu : ∀ (a : Fin 256) (j : Fin 60000), u (ix2 a j) = w a j)
    (hv : ∀ i, v i = u i * q)
    (hr : ∀ (a : Fin 256) (j : Fin 60000), r (ix2 a j) = rot k (fun j' => v (ix2 a j')) j)
    (hs : ∀ i, s i = u i + r i) (a : Fin 256) (j : Fin 60000) :
    s (ix2 a j) = step k q (w a) j := by
  rw [hs, hr, hu]
  show w a j + rot k (fun j' => v (ix2 a j')) j = w a j + rot k (fun j' => w a j' * q) j
  simp only [hv, hu]

/-- The four widening steps and the cap, read off the fourteen arrays that carry them. -/
theorem widen_chain (w : Fin 256 → Row)
    (u1 u3 u4 u5 u7 u8 u9 u11 u12 u13 u15 u16 u17 u19 : (⟨2, ![256, 60000]⟩ : Shape).Idx → EReal)
    (h1 : ∀ i, u1 i = w (i 0) (i 1))
    (h3 : ∀ i, u3 i = u1 i * cQuarter)
    (h4 : ∀ (a : Fin 256) (j : Fin 60000), u4 (ix2 a j) = rot 59998 (fun j' => u3 (ix2 a j')) j)
    (h5 : ∀ i, u5 i = u1 i + u4 i)
    (h7 : ∀ i, u7 i = u5 i * cHalf)
    (h8 : ∀ (a : Fin 256) (j : Fin 60000), u8 (ix2 a j) = rot 59999 (fun j' => u7 (ix2 a j')) j)
    (h9 : ∀ i, u9 i = u5 i + u8 i)
    (h11 : ∀ i, u11 i = u9 i * cHalf)
    (h12 : ∀ (a : Fin 256) (j : Fin 60000), u12 (ix2 a j) = rot 1 (fun j' => u11 (ix2 a j')) j)
    (h13 : ∀ i, u13 i = u9 i + u12 i)
    (h15 : ∀ i, u15 i = u13 i * cQuarter)
    (h16 : ∀ (a : Fin 256) (j : Fin 60000), u16 (ix2 a j) = rot 2 (fun j' => u15 (ix2 a j')) j)
    (h17 : ∀ i, u17 i = u13 i + u16 i)
    (h19 : ∀ i, u19 i = min (u17 i) c1) :
    u19 = fun i => widen (w (i 0)) (i 1) := by
  funext i
  obtain ⟨a, j, rfl⟩ : ∃ (a : Fin 256) (j : Fin 60000), i = ix2 a j := ⟨i 0, i 1, eq_ix2 i⟩
  have e5 := step_eq 59998 cQuarter w u1 u3 u4 u5 (fun a j => h1 (ix2 a j)) h3 h4 h5
  have e9 := step_eq 59999 cHalf (fun a => step 59998 cQuarter (w a)) u5 u7 u8 u9 e5 h7 h8 h9
  have e13 := step_eq 1 cHalf (fun a => step 59999 cHalf (step 59998 cQuarter (w a))) u9 u11 u12 u13 e9 h11 h12 h13
  have e17 := step_eq 2 cQuarter (fun a => step 1 cHalf (step 59999 cHalf (step 59998 cQuarter (w a)))) u13 u15 u16 u17
    e13 h15 h16 h17
  rw [h19, e17]
  rfl

/-- A total sum from a zero initial value is the double sum over rows and columns. -/
theorem total_eq (f : (⟨2, ![256, 60000]⟩ : Shape).Idx → EReal) (g : Fin 256 → Fin 60000 → EReal)
    (h : ∀ (a : Fin 256) (j : Fin 60000), f (ix2 a j) = g a j) :
    Ideal.ofBits .f32 0x00000000#32 + ∑ i, f i = ∑ a, ∑ j, g a j := by
  rw [Consts.ofBits_zero, zero_add, sum_idx2]
  exact Finset.sum_congr rfl fun a _ => Finset.sum_congr rfl fun j _ => h a j

/-! ## The two channels' rows -/

/-- Channel 0: the slice at channel offset 0 followed by the reshape reads row `a`, column `j`. -/
theorem idx_y0 (a : Fin 256) (j : Fin 60000) : idx_main_v0 (idx_main_v1 (ix2 a j)) = ix3 a (0 : Fin 2) j := by
  have ha := a.isLt
  have hj := j.isLt
  funext b
  match b with
  | ⟨0, _⟩ => exact Fin.ext (by show (a.val * 60000 + j.val) / 60000 = a.val; omega)
  | ⟨1, _⟩ => rfl
  | ⟨2, _⟩ => exact Fin.ext (by show (a.val * 60000 + j.val) % 60000 = j.val; omega)

/-- Channel 1 of the annotations. -/
theorem idx_y1 (a : Fin 256) (j : Fin 60000) : idx_main_v20 (idx_main_v21 (ix2 a j)) = ix3 a (1 : Fin 2) j := by
  have ha := a.isLt
  have hj := j.isLt
  funext b
  match b with
  | ⟨0, _⟩ => exact Fin.ext (by show (a.val * 60000 + j.val) / 60000 = a.val; omega)
  | ⟨1, _⟩ => rfl
  | ⟨2, _⟩ => exact Fin.ext (by show (a.val * 60000 + j.val) % 60000 = j.val; omega)

/-- Channel 0 of the probabilities. -/
theorem idx_x0 (a : Fin 256) (j : Fin 60000) : idx_main_v40 (idx_main_v41 (ix2 a j)) = ix3 a (0 : Fin 2) j := by
  have ha := a.isLt
  have hj := j.isLt
  funext b
  match b with
  | ⟨0, _⟩ => exact Fin.ext (by show (a.val * 60000 + j.val) / 60000 = a.val; omega)
  | ⟨1, _⟩ => rfl
  | ⟨2, _⟩ => exact Fin.ext (by show (a.val * 60000 + j.val) % 60000 = j.val; omega)

/-- Channel 1 of the probabilities. -/
theorem idx_x1 (a : Fin 256) (j : Fin 60000) : idx_main_v42 (idx_main_v43 (ix2 a j)) = ix3 a (1 : Fin 2) j := by
  have ha := a.isLt
  have hj := j.isLt
  funext b
  match b with
  | ⟨0, _⟩ => exact Fin.ext (by show (a.val * 60000 + j.val) / 60000 = a.val; omega)
  | ⟨1, _⟩ => rfl
  | ⟨2, _⟩ => exact Fin.ext (by show (a.val * 60000 + j.val) % 60000 = j.val; omega)

theorem v1_at (Y : Arr) (i : S256x60000.Idx) : val_main_v1 (F := Ideal) Y i = row Y 0 (i 0) (i 1) := by
  obtain ⟨a, j, rfl⟩ : ∃ (a : Fin 256) (j : Fin 60000), i = ix2 a j := ⟨i 0, i 1, eq_ix2 i⟩
  rw [val_main_v1_apply, val_main_v0_apply]
  exact congrArg Y (idx_y0 a j)

theorem v21_at (Y : Arr) (i : S256x60000.Idx) : val_main_v21 (F := Ideal) Y i = row Y 1 (i 0) (i 1) := by
  obtain ⟨a, j, rfl⟩ : ∃ (a : Fin 256) (j : Fin 60000), i = ix2 a j := ⟨i 0, i 1, eq_ix2 i⟩
  rw [val_main_v21_apply, val_main_v20_apply]
  exact congrArg Y (idx_y1 a j)

theorem v41_at (X : Arr) (i : S256x60000.Idx) : val_main_v41 (F := Ideal) X i = row X 0 (i 0) (i 1) := by
  obtain ⟨a, j, rfl⟩ : ∃ (a : Fin 256) (j : Fin 60000), i = ix2 a j := ⟨i 0, i 1, eq_ix2 i⟩
  rw [val_main_v41_apply, val_main_v40_apply]
  exact congrArg X (idx_x0 a j)

theorem v43_at (X : Arr) (i : S256x60000.Idx) : val_main_v43 (F := Ideal) X i = row X 1 (i 0) (i 1) := by
  obtain ⟨a, j, rfl⟩ : ∃ (a : Fin 256) (j : Fin 60000), i = ix2 a j := ⟨i 0, i 1, eq_ix2 i⟩
  rw [val_main_v43_apply, val_main_v42_apply]
  exact congrArg X (idx_x1 a j)

/-! ## The widened annotations -/

/-- Channel 0: the capped result of the four steps is the widened row. -/
theorem v19_eq (Y : Arr) : val_main_v19 (F := Ideal) Y = fun i => widen (row Y 0 (i 0)) (i 1) :=
  widen_chain (fun a => row Y 0 a)
    (val_main_v1 (F := Ideal) Y) (val_main_v3 (F := Ideal) Y) (val_main_v4 (F := Ideal) Y) (val_main_v5 (F := Ideal) Y)
    (val_main_v7 (F := Ideal) Y) (val_main_v8 (F := Ideal) Y) (val_main_v9 (F := Ideal) Y)
    (val_main_v11 (F := Ideal) Y) (val_main_v12 (F := Ideal) Y) (val_main_v13 (F := Ideal) Y)
    (val_main_v15 (F := Ideal) Y) (val_main_v16 (F := Ideal) Y) (val_main_v17 (F := Ideal) Y)
    (val_main_v19 (F := Ideal) Y)
    (v1_at Y)
    (fun i => by rw [val_main_v3_apply, val_main_v2_apply, val_main_cst_apply]; exact div_four _)
    (fun a j => roll_apply 59998 2 rfl (by norm_num) (val_main_v3 (F := Ideal) Y) _ _ _ a j)
    (fun i => val_main_v5_apply (F := Ideal) Y i)
    (fun i => by rw [val_main_v7_apply, val_main_v6_apply, val_main_cst_0_apply]; exact div_two _)
    (fun a j => roll_apply 59999 1 rfl (by norm_num) (val_main_v7 (F := Ideal) Y) _ _ _ a j)
    (fun i => val_main_v9_apply (F := Ideal) Y i)
    (fun i => by rw [val_main_v11_apply, val_main_v10_apply, val_main_cst_1_apply]; exact div_two _)
    (fun a j => roll_apply 1 59999 rfl (by norm_num) (val_main_v11 (F := Ideal) Y) _ _ _ a j)
    (fun i => val_main_v13_apply (F := Ideal) Y i)
    (fun i => by rw [val_main_v15_apply, val_main_v14_apply, val_main_cst_2_apply]; exact div_four _)
    (fun a j => roll_apply 2 59998 rfl (by norm_num) (val_main_v15 (F := Ideal) Y) _ _ _ a j)
    (fun i => val_main_v17_apply (F := Ideal) Y i)
    (fun i => by rw [val_main_v19_apply, val_main_v18_apply, val_main_cst_3_apply]; rfl)

/-- Channel 1. -/
theorem v39_eq (Y : Arr) : val_main_v39 (F := Ideal) Y = fun i => widen (row Y 1 (i 0)) (i 1) :=
  widen_chain (fun a => row Y 1 a)
    (val_main_v21 (F := Ideal) Y) (val_main_v23 (F := Ideal) Y) (val_main_v24 (F := Ideal) Y) (val_main_v25 (F := Ideal) Y)
    (val_main_v27 (F := Ideal) Y) (val_main_v28 (F := Ideal) Y) (val_main_v29 (F := Ideal) Y)
    (val_main_v31 (F := Ideal) Y) (val_main_v32 (F := Ideal) Y) (val_main_v33 (F := Ideal) Y)
    (val_main_v35 (F := Ideal) Y) (val_main_v36 (F := Ideal) Y) (val_main_v37 (F := Ideal) Y)
    (val_main_v39 (F := Ideal) Y)
    (v21_at Y)
    (fun i => by rw [val_main_v23_apply, val_main_v22_apply, val_main_cst_4_apply]; exact div_four _)
    (fun a j => roll_apply 59998 2 rfl (by norm_num) (val_main_v23 (F := Ideal) Y) _ _ _ a j)
    (fun i => val_main_v25_apply (F := Ideal) Y i)
    (fun i => by rw [val_main_v27_apply, val_main_v26_apply, val_main_cst_5_apply]; exact div_two _)
    (fun a j => roll_apply 59999 1 rfl (by norm_num) (val_main_v27 (F := Ideal) Y) _ _ _ a j)
    (fun i => val_main_v29_apply (F := Ideal) Y i)
    (fun i => by rw [val_main_v31_apply, val_main_v30_apply, val_main_cst_6_apply]; exact div_two _)
    (fun a j => roll_apply 1 59999 rfl (by norm_num) (val_main_v31 (F := Ideal) Y) _ _ _ a j)
    (fun i => val_main_v33_apply (F := Ideal) Y i)
    (fun i => by rw [val_main_v35_apply, val_main_v34_apply, val_main_cst_7_apply]; exact div_four _)
    (fun a j => roll_apply 2 59998 rfl (by norm_num) (val_main_v35 (F := Ideal) Y) _ _ _ a j)
    (fun i => val_main_v37_apply (F := Ideal) Y i)
    (fun i => by rw [val_main_v39_apply, val_main_v38_apply, val_main_cst_8_apply]; rfl)

theorem v19_at (Y : Arr) (i : S256x60000.Idx) : val_main_v19 (F := Ideal) Y i = widen (row Y 0 (i 0)) (i 1) :=
  congrFun (v19_eq Y) i

theorem v39_at (Y : Arr) (i : S256x60000.Idx) : val_main_v39 (F := Ideal) Y i = widen (row Y 1 (i 0)) (i 1) :=
  congrFun (v39_eq Y) i

/-! ## The entries' losses -/

/-- Channel 0: the loss of every entry. -/
theorem v54_at (X Y : Arr) (i : S256x60000.Idx) :
    val_main_v54 (F := Ideal) X Y i = allTerm (row X 0 (i 0)) (row Y 0 (i 0)) (i 1) := by
  rw [val_main_v54_apply, val_main_v53_apply, val_main_v49_apply, val_main_v52_apply, val_main_v51_apply,
    val_main_v50_apply, val_main_cst_11_apply, val_main_v45_apply, val_main_v48_apply,
    val_main_call8_v1_apply, val_main_call8_v0_apply, val_main_cst_9_apply,
    val_main_call9_v1_apply, val_main_call9_v0_apply, val_main_cst_10_apply,
    val_main_v44_apply, val_main_v47_apply, val_main_v46_apply, v41_at, v19_at]
  rfl

/-- Channel 1. -/
theorem v71_at (X Y : Arr) (i : S256x60000.Idx) :
    val_main_v71 (F := Ideal) X Y i = allTerm (row X 1 (i 0)) (row Y 1 (i 0)) (i 1) := by
  rw [val_main_v71_apply, val_main_v70_apply, val_main_v66_apply, val_main_v69_apply, val_main_v68_apply,
    val_main_v67_apply, val_main_cst_19_apply, val_main_v62_apply, val_main_v65_apply,
    val_main_call12_v1_apply, val_main_call12_v0_apply, val_main_cst_17_apply,
    val_main_call13_v1_apply, val_main_call13_v0_apply, val_main_cst_18_apply,
    val_main_v61_apply, val_main_v64_apply, val_main_v63_apply, v43_at, v39_at]
  rfl

/-- Channel 0: which entries count as positive. -/
theorem v56_at (Y : Arr) (i : S256x60000.Idx) :
    val_main_v56 (F := Ideal) Y i = isPos (widen (row Y 0 (i 0)) (i 1)) := by
  rw [val_main_v56_apply, val_main_v55_apply, val_main_cst_12_apply, v19_at]
  rfl

/-- Channel 1. -/
theorem v73_at (Y : Arr) (i : S256x60000.Idx) :
    val_main_v73 (F := Ideal) Y i = isPos (widen (row Y 1 (i 0)) (i 1)) := by
  rw [val_main_v73_apply, val_main_v72_apply, val_main_cst_20_apply, v39_at]
  rfl

theorem v57_at (X Y : Arr) (a : Fin 256) (j : Fin 60000) :
    val_main_v57 (F := Ideal) X Y (ix2 a j) = posTerm (row X 0 a) (row Y 0 a) j := by
  rw [val_main_v57_apply, v56_at, v54_at, val_main_call10_v1_apply, val_main_call10_v0_apply, val_main_cst_13_apply]
  rfl

theorem v59_at (X Y : Arr) (a : Fin 256) (j : Fin 60000) :
    val_main_v59 (F := Ideal) X Y (ix2 a j) = negTerm (row X 0 a) (row Y 0 a) j := by
  rw [val_main_v59_apply, v56_at, v54_at, val_main_call11_v1_apply, val_main_call11_v0_apply, val_main_cst_15_apply]
  rfl

theorem v74_at (X Y : Arr) (a : Fin 256) (j : Fin 60000) :
    val_main_v74 (F := Ideal) X Y (ix2 a j) = posTerm (row X 1 a) (row Y 1 a) j := by
  rw [val_main_v74_apply, v73_at, v71_at, val_main_call14_v1_apply, val_main_call14_v0_apply, val_main_cst_21_apply]
  rfl

theorem v76_at (X Y : Arr) (a : Fin 256) (j : Fin 60000) :
    val_main_v76 (F := Ideal) X Y (ix2 a j) = negTerm (row X 1 a) (row Y 1 a) j := by
  rw [val_main_v76_apply, v73_at, v71_at, val_main_call15_v1_apply, val_main_call15_v0_apply, val_main_cst_23_apply]
  rfl

/-! ## The four sums -/

theorem v58_eq (X Y : Arr) : val_main_v58 (F := Ideal) X Y = fun _ => pos X Y 0 := by
  funext i
  rw [val_main_v58_apply, val_main_cst_14_apply]
  exact total_eq _ (fun a j => posTerm (row X 0 a) (row Y 0 a) j) (v57_at X Y)

theorem v60_eq (X Y : Arr) : val_main_v60 (F := Ideal) X Y = fun _ => neg X Y 0 := by
  funext i
  rw [val_main_v60_apply, val_main_cst_16_apply]
  exact total_eq _ (fun a j => negTerm (row X 0 a) (row Y 0 a) j) (v59_at X Y)

theorem v75_eq (X Y : Arr) : val_main_v75 (F := Ideal) X Y = fun _ => pos X Y 1 := by
  funext i
  rw [val_main_v75_apply, val_main_cst_22_apply]
  exact total_eq _ (fun a j => posTerm (row X 1 a) (row Y 1 a) j) (v74_at X Y)

theorem v77_eq (X Y : Arr) : val_main_v77 (F := Ideal) X Y = fun _ => neg X Y 1 := by
  funext i
  rw [val_main_v77_apply, val_main_cst_24_apply]
  exact total_eq _ (fun a j => negTerm (row X 1 a) (row Y 1 a) j) (v76_at X Y)

/-! ## The results -/

/-- The first channel's result. -/
theorem ref_beat (X Y : Arr) : val_main_v82 (F := Ideal) X Y = fun _ => beat X Y := by
  funext i
  rw [val_main_v82_apply, val_main_v79_apply, val_main_v81_apply, val_main_v78_apply, val_main_v80_apply,
    val_main_cst_25_apply, val_main_cst_26_apply, val_main_cst_27_apply, val_main_cst_28_apply, v58_eq, v60_eq]
  rfl

/-- The second channel's result. -/
theorem ref_down (X Y : Arr) : val_main_v87 (F := Ideal) X Y = fun _ => down X Y := by
  funext i
  rw [val_main_v87_apply, val_main_v84_apply, val_main_v86_apply, val_main_v83_apply, val_main_v85_apply,
    val_main_cst_29_apply, val_main_cst_30_apply, val_main_cst_31_apply, val_main_cst_32_apply, v75_eq, v77_eq]
  rfl

/-- The total. -/
theorem ref_total (X Y : Arr) : val_main_v88 (F := Ideal) X Y = fun _ => total X Y := by
  funext i
  rw [val_main_v88_apply, ref_beat, ref_down]
  rfl

end Cert.ReferenceIdeal.RefValue

end
-- ==== Proof.RefRun.lean ====
/- The reference program's run, read back: every execution ends with each of the three results at its stage's value of the
   two arguments, and the arguments unchanged.

   The program is a straight line of 155 operations. Each of the four widening steps reads the row it widens twice (once
   as it is and once shifted), and the loss reads the widened row three times, so the composed term of a result repeats
   its subterms many times over. The line is therefore cut into sixteen stretches at the values that are read more than
   once: within a stretch every value is computed from the few buffers the stretch takes over, and each of those holds a
   stage `RefRead.val_main_vN` of the arguments. A stretch's lemma says: if the buffers it reads hold their stages, then
   after it the buffers that later stretches read hold theirs (a stage is defined from the earlier stages by the very
   operation that writes its buffer, so each such fact is the operation's result at the facts taken over). The lemmas are
   chained through the whole line, and the line is the program window by window. -/
import proofs.«401867_j57501022158919_4_alg».proof.Proof.RefRead
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- an argument array's contents
set_option quotPrecheck false in
local notation "A3" => (⟨S256x2x60000, .f32⟩ : BufTy).Contents (Elt F)

-- a TensorCore reference as a buffer of the device
set_option quotPrecheck false in
local notation "𝔟" r:max => Proc.devRef Proc.tc r

/-! ## The operations, in sixteen stretches -/

/-- Operations 1 … 12: channel 0 of the annotations as rows (`main_v1`), a quarter of it shifted left by 2 added (`main_v5`), and half of that (`main_v7`). -/
abbrev opsA1 : List (HloOp τ sig (Elt F)) :=
  [ unary main_arg1 main_v0 ((extractStridedSlice S256x1x60000 ![0, 0, 0] · slices_S256x2x60000_S256x1x60000_0_0_0) : (⟨S256x2x60000, .f32⟩ : BufTy).Contents (Elt F) → (⟨S256x1x60000, .f32⟩ : BufTy).Contents (Elt F)),
    reshape main_v0 main_v1 rfl shapeCasts_S256x1x60000_S256x60000,
    nullary main_cst (constant S_ .f32 0x40800000#32),
    unary main_cst main_v2 (broadcastInDim S256x60000 ![] bcast_S_S256x60000 : (⟨S_, .f32⟩ : BufTy).Contents (Elt F) → (⟨S256x60000, .f32⟩ : BufTy).Contents (Elt F)),
    binary main_v1 main_v2 main_v3 (Host.divf : (⟨S256x60000, .f32⟩ : BufTy).Contents (Elt F) → (⟨S256x60000, .f32⟩ : BufTy).Contents (Elt F) → (⟨S256x60000, .f32⟩ : BufTy).Contents (Elt F)),
    TRef.unary (TRef.of (T := ⟨S256x60000, .f32⟩) main_v3) (TRef.of (T := ⟨S256x59998, .f32⟩) main_call0_v0) (extractStridedSlice S256x59998 ![0, 2] · slices_S256x60000_S256x59998_0_2),
    TRef.unary (TRef.of (T := ⟨S256x60000, .f32⟩) main_v3) (TRef.of (T := ⟨S256x2, .f32⟩) main_call0_v1) (extractStridedSlice S256x2 ![0, 0] · slices_S256x60000_S256x2_0_0),
    TRef.binary (TRef.of (T := ⟨S256x59998, .f32⟩) main_call0_v0) (TRef.of (T := ⟨S256x2, .f32⟩) main_call0_v1) (TRef.of (T := ⟨S256x60000, .f32⟩) main_v4) (fun a b => concatenate S256x60000 1 [⟨S256x59998, a⟩, ⟨S256x2, b⟩] concatenates_S256x59998_S256x2_S256x60000_d1),
    binary main_v1 main_v4 main_v5 (addf : (⟨S256x60000, .f32⟩ : BufTy).Contents (Elt F) → (⟨S256x60000, .f32⟩ : BufTy).Contents (Elt F) → (⟨S256x60000, .f32⟩ : BufTy).Contents (Elt F)),
    nullary main_cst_0 (constant S_ .f32 0x40000000#32),
    unary main_cst_0 main_v6 (broadcastInDim S256x60000 ![] bcast_S_S256x60000 : (⟨S_, .f32⟩ : BufTy).Contents (Elt F) → (⟨S256x60000, .f32⟩ : BufTy).Contents (Elt F)),
    binary main_v5 main_v6 main_v7 (Host.divf : (⟨S256x60000, .f32⟩ : BufTy).Contents (Elt F) → (⟨S256x60000, .f32⟩ : BufTy).Contents (Elt F) → (⟨S256x60000, .f32⟩ : BufTy).Contents (Elt F)) ]

/-- Operations 13 … 19: the half shifted left by 1 added (`main_v9`), and half of that (`main_v11`). -/
abbrev opsA2 : List (HloOp τ sig (Elt F)) :=
  [ TRef.unary (TRef.of (T := ⟨S256x60000, .f32⟩) main_v7) (TRef.of (T := ⟨S256x59999, .f32⟩) main_call1_v0) (extractStridedSlice S256x59999 ![0, 1] · slices_S256x60000_S256x59999_0_1),
    TRef.unary (TRef.of (T := ⟨S256x60000, .f32⟩) main_v7) (TRef.of (T := ⟨S256x1, .f32⟩) main_call1_v1) (extractStridedSlice S256x1 ![0, 0] · slices_S256x60000_S256x1_0_0),
    TRef.binary (TRef.of (T := ⟨S256x59999, .f32⟩) main_call1_v0) (TRef.of (T := ⟨S256x1, .f32⟩) main_call1_v1) (TRef.of (T := ⟨S256x60000, .f32⟩) main_v8) (fun a b => concatenate S256x60000 1 [⟨S256x59999, a⟩, ⟨S256x1, b⟩] concatenates_S256x59999_S256x1_S256x60000_d1),
    binary main_v5 main_v8 main_v9 (addf : (⟨S256x60000, .f32⟩ : BufTy).Contents (Elt F) → (⟨S256x60000, .f32⟩ : BufTy).Contents (Elt F) → (⟨S256x60000, .f32⟩ : BufTy).Contents (Elt F)),
    nullary main_cst_1 (constant S_ .f32 0x40000000#32),
    unary main_cst_1 main_v10 (broadcastInDim S256x60000 ![] bcast_S_S256x60000 : (⟨S_, .f32⟩ : BufTy).Contents (Elt F) → (⟨S256x60000, .f32⟩ : BufTy).Contents (Elt F)),
    binary main_v9 main_v10 main_v11 (Host.divf : (⟨S256x60000, .f32⟩ : BufTy).Contents (Elt F) → (⟨S256x60000, .f32⟩ : BufTy).Contents (Elt F) → (⟨S256x60000, .f32⟩ : BufTy).Contents (Elt F)) ]

/-- Operations 20 … 26: the half shifted right by 1 added (`main_v13`), and a quarter of that (`main_v15`). -/
abbrev opsA3 : List (HloOp τ sig (Elt F)) :=
  [ TRef.unary (TRef.of (T := ⟨S256x60000, .f32⟩) main_v11) (TRef.of (T := ⟨S256x1, .f32⟩) main_call2_v0) (extractStridedSlice S256x1 ![0, 59999] · slices_S256x60000_S256x1_0_59999),
    TRef.unary (TRef.of (T := ⟨S256x60000, .f32⟩) main_v11) (TRef.of (T := ⟨S256x59999, .f32⟩) main_call2_v1) (extractStridedSlice S256x59999 ![0, 0] · slices_S256x60000_S256x59999_0_0),
    TRef.binary (TRef.of (T := ⟨S256x1, .f32⟩) main_call2_v0) (TRef.of (T := ⟨S256x59999, .f32⟩) main_call2_v1) (TRef.of (T := ⟨S256x60000, .f32⟩) main_v12) (fun a b => concatenate S256x60000 1 [⟨S256x1, a⟩, ⟨S256x59999, b⟩] concatenates_S256x1_S256x59999_S256x60000_d1),
    binary main_v9 main_v12 main_v13 (addf : (⟨S256x60000, .f32⟩ : BufTy).Contents (Elt F) → (⟨S256x60000, .f32⟩ : BufTy).Contents (Elt F) → (⟨S256x60000, .f32⟩ : BufTy).Contents (Elt F)),
    nullary main_cst_2 (constant S_ .f32 0x40800000#32),
    unary main_cst_2 main_v14 (broadcastInDim S256x60000 ![] bcast_S_S256x60000 : (⟨S_, .f32⟩ : BufTy).Contents (Elt F) → (⟨S256x60000, .f32⟩ : BufTy).Contents (Elt F)),
    binary main_v13 main_v14 main_v15 (Host.divf : (⟨S256x60000, .f32⟩ : BufTy).Contents (Elt F) → (⟨S256x60000, .f32⟩ : BufTy).Contents (Elt F) → (⟨S256x60000, .f32⟩ : BufTy).Contents (Elt F)) ]

/-- Operations 27 … 33: the quarter shifted right by 2 added (`main_v17`), capped at 1: channel 0's widened annotation (`main_v19`). -/
abbrev opsA4 : List (HloOp τ sig (Elt F)) :=
  [ TRef.unary (TRef.of (T := ⟨S256x60000, .f32⟩) main_v15) (TRef.of (T := ⟨S256x2, .f32⟩) main_call3_v0) (extractStridedSlice S256x2 ![0, 59998] · slices_S256x60000_S256x2_0_59998),
    TRef.unary (TRef.of (T := ⟨S256x60000, .f32⟩) main_v15) (TRef.of (T := ⟨S256x59998, .f32⟩) main_call3_v1) (extractStridedSlice S256x59998 ![0, 0] · slices_S256x60000_S256x59998_0_0),
    TRef.binary (TRef.of (T := ⟨S256x2, .f32⟩) main_call3_v0) (TRef.of (T := ⟨S256x59998, .f32⟩) main_call3_v1) (TRef.of (T := ⟨S256x60000, .f32⟩) main_v16) (fun a b => concatenate S256x60000 1 [⟨S256x2, a⟩, ⟨S256x59998, b⟩] concatenates_S256x2_S256x59998_S256x60000_d1),
    binary main_v13 main_v16 main_v17 (addf : (⟨S256x60000, .f32⟩ : BufTy).Contents (Elt F) → (⟨S256x60000, .f32⟩ : BufTy).Contents (Elt F) → (⟨S256x60000, .f32⟩ : BufTy).Contents (Elt F)),
    nullary main_cst_3 (constant S_ .f32 0x3F800000#32),
    unary main_cst_3 main_v18 (broadcastInDim S256x60000 ![] bcast_S_S256x60000 : (⟨S_, .f32⟩ : BufTy).Contents (Elt F) → (⟨S256x60000, .f32⟩ : BufTy).Contents (Elt F)),
    binary main_v17 main_v18 main_v19 (minimumf : (⟨S256x60000, .f32⟩ : BufTy).Contents (Elt F) → (⟨S256x60000, .f32⟩ : BufTy).Contents (Elt F) → (⟨S256x60000, .f32⟩ : BufTy).Contents (Elt F)) ]

/-- Operations 34 … 45: as 1 … 12, for channel 1 (`main_v25`, `main_v27`). -/
abbrev opsB1 : List (HloOp τ sig (Elt F)) :=
  [ unary main_arg1 main_v20 ((extractStridedSlice S256x1x60000 ![0, 1, 0] · slices_S256x2x60000_S256x1x60000_0_1_0) : (⟨S256x2x60000, .f32⟩ : BufTy).Contents (Elt F) → (⟨S256x1x60000, .f32⟩ : BufTy).Contents (Elt F)),
    reshape main_v20 main_v21 rfl shapeCasts_S256x1x60000_S256x60000,
    nullary main_cst_4 (constant S_ .f32 0x40800000#32),
    unary main_cst_4 main_v22 (broadcastInDim S256x60000 ![] bcast_S_S256x60000 : (⟨S_, .f32⟩ : BufTy).Contents (Elt F) → (⟨S256x60000, .f32⟩ : BufTy).Contents (Elt F)),
    binary main_v21 main_v22 main_v23 (Host.divf : (⟨S256x60000, .f32⟩ : BufTy).Contents (Elt F) → (⟨S256x60000, .f32⟩ : BufTy).Contents (Elt F) → (⟨S256x60000, .f32⟩ : BufTy).Contents (Elt F)),
    TRef.unary (TRef.of (T := ⟨S256x60000, .f32⟩) main_v23) (TRef.of (T := ⟨S256x59998, .f32⟩) main_call4_v0) (extractStridedSlice S256x59998 ![0, 2] · slices_S256x60000_S256x59998_0_2),
    TRef.unary (TRef.of (T := ⟨S256x60000, .f32⟩) main_v23) (TRef.of (T := ⟨S256x2, .f32⟩) main_call4_v1) (extractStridedSlice S256x2 ![0, 0] · slices_S256x60000_S256x2_0_0),
    TRef.binary (TRef.of (T := ⟨S256x59998, .f32⟩) main_call4_v0) (TRef.of (T := ⟨S256x2, .f32⟩) main_call4_v1) (TRef.of (T := ⟨S256x60000, .f32⟩) main_v24) (fun a b => concatenate S256x60000 1 [⟨S256x59998, a⟩, ⟨S256x2, b⟩] concatenates_S256x59998_S256x2_S256x60000_d1),
    binary main_v21 main_v24 main_v25 (addf : (⟨S256x60000, .f32⟩ : BufTy).Contents (Elt F) → (⟨S256x60000, .f32⟩ : BufTy).Contents (Elt F) → (⟨S256x60000, .f32⟩ : BufTy).Contents (Elt F)),
    nullary main_cst_5 (constant S_ .f32 0x40000000#32),
    unary main_cst_5 main_v26 (broadcastInDim S256x60000 ![] bcast_S_S256x60000 : (⟨S_, .f32⟩ : BufTy).Contents (Elt F) → (⟨S256x60000, .f32⟩ : BufTy).Contents (Elt F)),
    binary main_v25 main_v26 main_v27 (Host.divf : (⟨S256x60000, .f32⟩ : BufTy).Contents (Elt F) → (⟨S256x60000, .f32⟩ : BufTy).Contents (Elt F) → (⟨S256x60000, .f32⟩ : BufTy).Contents (Elt F)) ]

/-- Operations 46 … 52: as 13 … 19, for channel 1 (`main_v29`, `main_v31`). -/
abbrev opsB2 : List (HloOp τ sig (Elt F)) :=
  [ TRef.unary (TRef.of (T := ⟨S256x60000, .f32⟩) main_v27) (TRef.of (T := ⟨S256x59999, .f32⟩) main_call5_v0) (extractStridedSlice S256x59999 ![0, 1] · slices_S256x60000_S256x59999_0_1),
    TRef.unary (TRef.of (T := ⟨S256x60000, .f32⟩) main_v27) (TRef.of (T := ⟨S256x1, .f32⟩) main_call5_v1) (extractStridedSlice S256x1 ![0, 0] · slices_S256x60000_S256x1_0_0),
    TRef.binary (TRef.of (T := ⟨S256x59999, .f32⟩) main_call5_v0) (TRef.of (T := ⟨S256x1, .f32⟩) main_call5_v1) (TRef.of (T := ⟨S256x60000, .f32⟩) main_v28) (fun a b => concatenate S256x60000 1 [⟨S256x59999, a⟩, ⟨S256x1, b⟩] concatenates_S256x59999_S256x1_S256x60000_d1),
    binary main_v25 main_v28 main_v29 (addf : (⟨S256x60000, .f32⟩ : BufTy).Contents (Elt F) → (⟨S256x60000, .f32⟩ : BufTy).Contents (Elt F) → (⟨S256x60000, .f32⟩ : BufTy).Contents (Elt F)),
    nullary main_cst_6 (constant S_ .f32 0x40000000#32),
    unary main_cst_6 main_v30 (broadcastInDim S256x60000 ![] bcast_S_S256x60000 : (⟨S_, .f32⟩ : BufTy).Contents (Elt F) → (⟨S256x60000, .f32⟩ : BufTy).Contents (Elt F)),
    binary main_v29 main_v30 main_v31 (Host.divf : (⟨S256x60000, .f32⟩ : BufTy).Contents (Elt F) → (⟨S256x60000, .f32⟩ : BufTy).Contents (Elt F) → (⟨S256x60000, .f32⟩ : BufTy).Contents (Elt F)) ]

/-- Operations 53 … 59: as 20 … 26, for channel 1 (`main_v33`, `main_v35`). -/
abbrev opsB3 : List (HloOp τ sig (Elt F)) :=
  [ TRef.unary (TRef.of (T := ⟨S256x60000, .f32⟩) main_v31) (TRef.of (T := ⟨S256x1, .f32⟩) main_call6_v0) (extractStridedSlice S256x1 ![0, 59999] · slices_S256x60000_S256x1_0_59999),
    TRef.unary (TRef.of (T := ⟨S256x60000, .f32⟩) main_v31) (TRef.of (T := ⟨S256x59999, .f32⟩) main_call6_v1) (extractStridedSlice S256x59999 ![0, 0] · slices_S256x60000_S256x59999_0_0),
    TRef.binary (TRef.of (T := ⟨S256x1, .f32⟩) main_call6_v0) (TRef.of (T := ⟨S256x59999, .f32⟩) main_call6_v1) (TRef.of (T := ⟨S256x60000, .f32⟩) main_v32) (fun a b => concatenate S256x60000 1 [⟨S256x1, a⟩, ⟨S256x59999, b⟩] concatenates_S256x1_S256x59999_S256x60000_d1),
    binary main_v29 main_v32 main_v33 (addf : (⟨S256x60000, .f32⟩ : BufTy).Contents (Elt F) → (⟨S256x60000, .f32⟩ : BufTy).Contents (Elt F) → (⟨S256x60000, .f32⟩ : BufTy).Contents (Elt F)),
    nullary main_cst_7 (constant S_ .f32 0x40800000#32),
    unary main_cst_7 main_v34 (broadcastInDim S256x60000 ![] bcast_S_S256x60000 : (⟨S_, .f32⟩ : BufTy).Contents (Elt F) → (⟨S256x60000, .f32⟩ : BufTy).Contents (Elt F)),
    binary main_v33 main_v34 main_v35 (Host.divf : (⟨S256x60000, .f32⟩ : BufTy).Contents (Elt F) → (⟨S256x60000, .f32⟩ : BufTy).Contents (Elt F) → (⟨S256x60000, .f32⟩ : BufTy).Contents (Elt F)) ]

/-- Operations 60 … 66: as 27 … 33: channel 1's widened annotation (`main_v39`). -/
abbrev opsB4 : List (HloOp τ sig (Elt F)) :=
  [ TRef.unary (TRef.of (T := ⟨S256x60000, .f32⟩) main_v35) (TRef.of (T := ⟨S256x2, .f32⟩) main_call7_v0) (extractStridedSlice S256x2 ![0, 59998] · slices_S256x60000_S256x2_0_59998),
    TRef.unary (TRef.of (T := ⟨S256x60000, .f32⟩) main_v35) (TRef.of (T := ⟨S256x59998, .f32⟩) main_call7_v1) (extractStridedSlice S256x59998 ![0, 0] · slices_S256x60000_S256x59998_0_0),
    TRef.binary (TRef.of (T := ⟨S256x2, .f32⟩) main_call7_v0) (TRef.of (T := ⟨S256x59998, .f32⟩) main_call7_v1) (TRef.of (T := ⟨S256x60000, .f32⟩) main_v36) (fun a b => concatenate S256x60000 1 [⟨S256x2, a⟩, ⟨S256x59998, b⟩] concatenates_S256x2_S256x59998_S256x60000_d1),
    binary main_v33 main_v36 main_v37 (addf : (⟨S256x60000, .f32⟩ : BufTy).Contents (Elt F) → (⟨S256x60000, .f32⟩ : BufTy).Contents (Elt F) → (⟨S256x60000, .f32⟩ : BufTy).Contents (Elt F)),
    nullary main_cst_8 (constant S_ .f32 0x3F800000#32),
    unary main_cst_8 main_v38 (broadcastInDim S256x60000 ![] bcast_S_S256x60000 : (⟨S_, .f32⟩ : BufTy).Contents (Elt F) → (⟨S256x60000, .f32⟩ : BufTy).Contents (Elt F)),
    binary main_v37 main_v38 main_v39 (minimumf : (⟨S256x60000, .f32⟩ : BufTy).Contents (Elt F) → (⟨S256x60000, .f32⟩ : BufTy).Contents (Elt F) → (⟨S256x60000, .f32⟩ : BufTy).Contents (Elt F)) ]

/-- Operations 67 … 78 (the first window's last): the two channels of the probabilities as rows (`main_v41`, `main_v43`), channel 0's clipped logarithm (`main_v45`) and the logarithm of one minus it (`main_v47`) with the bound it is to be clipped at (`main_cst_10`). -/
abbrev opsC1 : List (HloOp τ sig (Elt F)) :=
  [ unary main_arg0 main_v40 ((extractStridedSlice S256x1x60000 ![0, 0, 0] · slices_S256x2x60000_S256x1x60000_0_0_0) : (⟨S256x2x60000, .f32⟩ : BufTy).Contents (Elt F) → (⟨S256x1x60000, .f32⟩ : BufTy).Contents (Elt F)),
    reshape main_v40 main_v41 rfl shapeCasts_S256x1x60000_S256x60000,
    unary main_arg0 main_v42 ((extractStridedSlice S256x1x60000 ![0, 1, 0] · slices_S256x2x60000_S256x1x60000_0_1_0) : (⟨S256x2x60000, .f32⟩ : BufTy).Contents (Elt F) → (⟨S256x1x60000, .f32⟩ : BufTy).Contents (Elt F)),
    reshape main_v42 main_v43 rfl shapeCasts_S256x1x60000_S256x60000,
    unary main_v41 main_v44 (Host.log : (⟨S256x60000, .f32⟩ : BufTy).Contents (Elt F) → (⟨S256x60000, .f32⟩ : BufTy).Contents (Elt F)),
    nullary main_cst_9 (constant S_ .f32 0xC2C80000#32),
    TRef.unary (TRef.of (T := ⟨S_, .f32⟩) main_cst_9) (TRef.of (T := ⟨S_, .f32⟩) main_call8_v0) id,
    TRef.unary (TRef.of (T := ⟨S_, .f32⟩) main_call8_v0) (TRef.of (T := ⟨S256x60000, .f32⟩) main_call8_v1) (broadcastInDim S256x60000 ![] bcast_S_S256x60000),
    TRef.binary (TRef.of (T := ⟨S256x60000, .f32⟩) main_call8_v1) (TRef.of (T := ⟨S256x60000, .f32⟩) main_v44) (TRef.of (T := ⟨S256x60000, .f32⟩) main_v45) maximumf,
    unary main_v41 main_v46 (Host.negf : (⟨S256x60000, .f32⟩ : BufTy).Contents (Elt F) → (⟨S256x60000, .f32⟩ : BufTy).Contents (Elt F)),
    unary main_v46 main_v47 (Host.log1p : (⟨S256x60000, .f32⟩ : BufTy).Contents (Elt F) → (⟨S256x60000, .f32⟩ : BufTy).Contents (Elt F)),
    nullary main_cst_10 (constant S_ .f32 0xC2C80000#32) ]

/-- Operations 79 … 91: that second logarithm clipped (`main_v48`), channel 0's loss (`main_v54`) and which of its entries are positive (`main_v56`). -/
abbrev opsD2 : List (HloOp τ sig (Elt F)) :=
  [ TRef.unary (TRef.of (T := ⟨S_, .f32⟩) main_cst_10) (TRef.of (T := ⟨S_, .f32⟩) main_call9_v0) id,
    TRef.unary (TRef.of (T := ⟨S_, .f32⟩) main_call9_v0) (TRef.of (T := ⟨S256x60000, .f32⟩) main_call9_v1) (broadcastInDim S256x60000 ![] bcast_S_S256x60000),
    TRef.binary (TRef.of (T := ⟨S256x60000, .f32⟩) main_call9_v1) (TRef.of (T := ⟨S256x60000, .f32⟩) main_v47) (TRef.of (T := ⟨S256x60000, .f32⟩) main_v48) maximumf,
    binary main_v19 main_v45 main_v49 (mulf : (⟨S256x60000, .f32⟩ : BufTy).Contents (Elt F) → (⟨S256x60000, .f32⟩ : BufTy).Contents (Elt F) → (⟨S256x60000, .f32⟩ : BufTy).Contents (Elt F)),
    nullary main_cst_11 (constant S_ .f32 0x3F800000#32),
    unary main_cst_11 main_v50 (broadcastInDim S256x60000 ![] bcast_S_S256x60000 : (⟨S_, .f32⟩ : BufTy).Contents (Elt F) → (⟨S256x60000, .f32⟩ : BufTy).Contents (Elt F)),
    binary main_v50 main_v19 main_v51 (subf : (⟨S256x60000, .f32⟩ : BufTy).Contents (Elt F) → (⟨S256x60000, .f32⟩ : BufTy).Contents (Elt F) → (⟨S256x60000, .f32⟩ : BufTy).Contents (Elt F)),
    binary main_v51 main_v48 main_v52 (mulf : (⟨S256x60000, .f32⟩ : BufTy).Contents (Elt F) → (⟨S256x60000, .f32⟩ : BufTy).Contents (Elt F) → (⟨S256x60000, .f32⟩ : BufTy).Contents (Elt F)),
    binary main_v49 main_v52 main_v53 (addf : (⟨S256x60000, .f32⟩ : BufTy).Contents (Elt F) → (⟨S256x60000, .f32⟩ : BufTy).Contents (Elt F) → (⟨S256x60000, .f32⟩ : BufTy).Contents (Elt F)),
    unary main_v53 main_v54 (Host.negf : (⟨S256x60000, .f32⟩ : BufTy).Contents (Elt F) → (⟨S256x60000, .f32⟩ : BufTy).Contents (Elt F)),
    nullary main_cst_12 (constant S_ .f32 0x00000000#32),
    unary main_cst_12 main_v55 (broadcastInDim S256x60000 ![] bcast_S_S256x60000 : (⟨S_, .f32⟩ : BufTy).Contents (Elt F) → (⟨S256x60000, .f32⟩ : BufTy).Contents (Elt F)),
    binary main_v19 main_v55 main_v56 (cmpf .ogt : (⟨S256x60000, .f32⟩ : BufTy).Contents (Elt F) → (⟨S256x60000, .f32⟩ : BufTy).Contents (Elt F) → (⟨S256x60000, .i1⟩ : BufTy).Contents (Elt F)) ]

/-- Operations 92 … 103: channel 0's loss summed over the positive entries (`main_v58`) and over the others (`main_v60`). -/
abbrev opsD3 : List (HloOp τ sig (Elt F)) :=
  [ nullary main_cst_13 (constant S_ .f32 0x00000000#32),
    TRef.unary (TRef.of (T := ⟨S_, .f32⟩) main_cst_13) (TRef.of (T := ⟨S_, .f32⟩) main_call10_v0) id,
    TRef.unary (TRef.of (T := ⟨S_, .f32⟩) main_call10_v0) (TRef.of (T := ⟨S256x60000, .f32⟩) main_call10_v1) (broadcastInDim S256x60000 ![] bcast_S_S256x60000),
    TRef.ternary (TRef.of (T := ⟨S256x60000, .i1⟩) main_v56) (TRef.of (T := ⟨S256x60000, .f32⟩) main_v54) (TRef.of (T := ⟨S256x60000, .f32⟩) main_call10_v1) (TRef.of (T := ⟨S256x60000, .f32⟩) main_v57) select,
    nullary main_cst_14 (constant S_ .f32 0x00000000#32),
    binary main_v57 main_cst_14 main_v58 ((fun x v => Host.reduceAdd x v reducesTo_S256x60000_S_d0_1 h_S_) : (⟨S256x60000, .f32⟩ : BufTy).Contents (Elt F) → (⟨S_, .f32⟩ : BufTy).Contents (Elt F) → (⟨S_, .f32⟩ : BufTy).Contents (Elt F)),
    nullary main_cst_15 (constant S_ .f32 0x00000000#32),
    TRef.unary (TRef.of (T := ⟨S_, .f32⟩) main_cst_15) (TRef.of (T := ⟨S_, .f32⟩) main_call11_v0) id,
    TRef.unary (TRef.of (T := ⟨S_, .f32⟩) main_call11_v0) (TRef.of (T := ⟨S256x60000, .f32⟩) main_call11_v1) (broadcastInDim S256x60000 ![] bcast_S_S256x60000),
    TRef.ternary (TRef.of (T := ⟨S256x60000, .i1⟩) main_v56) (TRef.of (T := ⟨S256x60000, .f32⟩) main_call11_v1) (TRef.of (T := ⟨S256x60000, .f32⟩) main_v54) (TRef.of (T := ⟨S256x60000, .f32⟩) main_v59) select,
    nullary main_cst_16 (constant S_ .f32 0x00000000#32),
    binary main_v59 main_cst_16 main_v60 ((fun x v => Host.reduceAdd x v reducesTo_S256x60000_S_d0_1 h_S_) : (⟨S256x60000, .f32⟩ : BufTy).Contents (Elt F) → (⟨S_, .f32⟩ : BufTy).Contents (Elt F) → (⟨S_, .f32⟩ : BufTy).Contents (Elt F)) ]

/-- Operations 104 … 114: channel 1's two clipped logarithms (`main_v62`, `main_v65`). -/
abbrev opsE1 : List (HloOp τ sig (Elt F)) :=
  [ unary main_v43 main_v61 (Host.log : (⟨S256x60000, .f32⟩ : BufTy).Contents (Elt F) → (⟨S256x60000, .f32⟩ : BufTy).Contents (Elt F)),
    nullary main_cst_17 (constant S_ .f32 0xC2C80000#32),
    TRef.unary (TRef.of (T := ⟨S_, .f32⟩) main_cst_17) (TRef.of (T := ⟨S_, .f32⟩) main_call12_v0) id,
    TRef.unary (TRef.of (T := ⟨S_, .f32⟩) main_call12_v0) (TRef.of (T := ⟨S256x60000, .f32⟩) main_call12_v1) (broadcastInDim S256x60000 ![] bcast_S_S256x60000),
    TRef.binary (TRef.of (T := ⟨S256x60000, .f32⟩) main_call12_v1) (TRef.of (T := ⟨S256x60000, .f32⟩) main_v61) (TRef.of (T := ⟨S256x60000, .f32⟩) main_v62) maximumf,
    unary main_v43 main_v63 (Host.negf : (⟨S256x60000, .f32⟩ : BufTy).Contents (Elt F) → (⟨S256x60000, .f32⟩ : BufTy).Contents (Elt F)),
    unary main_v63 main_v64 (Host.log1p : (⟨S256x60000, .f32⟩ : BufTy).Contents (Elt F) → (⟨S256x60000, .f32⟩ : BufTy).Contents (Elt F)),
    nullary main_cst_18 (constant S_ .f32 0xC2C80000#32),
    TRef.unary (TRef.of (T := ⟨S_, .f32⟩) main_cst_18) (TRef.of (T := ⟨S_, .f32⟩) main_call13_v0) id,
    TRef.unary (TRef.of (T := ⟨S_, .f32⟩) main_call13_v0) (TRef.of (T := ⟨S256x60000, .f32⟩) main_call13_v1) (broadcastInDim S256x60000 ![] bcast_S_S256x60000),
    TRef.binary (TRef.of (T := ⟨S256x60000, .f32⟩) main_call13_v1) (TRef.of (T := ⟨S256x60000, .f32⟩) main_v64) (TRef.of (T := ⟨S256x60000, .f32⟩) main_v65) maximumf ]

/-- Operations 115 … 124: channel 1's loss (`main_v71`) and which of its entries are positive (`main_v73`). -/
abbrev opsE2 : List (HloOp τ sig (Elt F)) :=
  [ binary main_v39 main_v62 main_v66 (mulf : (⟨S256x60000, .f32⟩ : BufTy).Contents (Elt F) → (⟨S256x60000, .f32⟩ : BufTy).Contents (Elt F) → (⟨S256x60000, .f32⟩ : BufTy).Contents (Elt F)),
    nullary main_cst_19 (constant S_ .f32 0x3F800000#32),
    unary main_cst_19 main_v67 (broadcastInDim S256x60000 ![] bcast_S_S256x60000 : (⟨S_, .f32⟩ : BufTy).Contents (Elt F) → (⟨S256x60000, .f32⟩ : BufTy).Contents (Elt F)),
    binary main_v67 main_v39 main_v68 (subf : (⟨S256x60000, .f32⟩ : BufTy).Contents (Elt F) → (⟨S256x60000, .f32⟩ : BufTy).Contents (Elt F) → (⟨S256x60000, .f32⟩ : BufTy).Contents (Elt F)),
    binary main_v68 main_v65 main_v69 (mulf : (⟨S256x60000, .f32⟩ : BufTy).Contents (Elt F) → (⟨S256x60000, .f32⟩ : BufTy).Contents (Elt F) → (⟨S256x60000, .f32⟩ : BufTy).Contents (Elt F)),
    binary main_v66 main_v69 main_v70 (addf : (⟨S256x60000, .f32⟩ : BufTy).Contents (Elt F) → (⟨S256x60000, .f32⟩ : BufTy).Contents (Elt F) → (⟨S256x60000, .f32⟩ : BufTy).Contents (Elt F)),
    unary main_v70 main_v71 (Host.negf : (⟨S256x60000, .f32⟩ : BufTy).Contents (Elt F) → (⟨S256x60000, .f32⟩ : BufTy).Contents (Elt F)),
    nullary main_cst_20 (constant S_ .f32 0x00000000#32),
    unary main_cst_20 main_v72 (broadcastInDim S256x60000 ![] bcast_S_S256x60000 : (⟨S_, .f32⟩ : BufTy).Contents (Elt F) → (⟨S256x60000, .f32⟩ : BufTy).Contents (Elt F)),
    binary main_v39 main_v72 main_v73 (cmpf .ogt : (⟨S256x60000, .f32⟩ : BufTy).Contents (Elt F) → (⟨S256x60000, .f32⟩ : BufTy).Contents (Elt F) → (⟨S256x60000, .i1⟩ : BufTy).Contents (Elt F)) ]

/-- Operations 125 … 136: channel 1's loss summed over the positive entries (`main_v75`) and over the others (`main_v77`). -/
abbrev opsE3 : List (HloOp τ sig (Elt F)) :=
  [ nullary main_cst_21 (constant S_ .f32 0x00000000#32),
    TRef.unary (TRef.of (T := ⟨S_, .f32⟩) main_cst_21) (TRef.of (T := ⟨S_, .f32⟩) main_call14_v0) id,
    TRef.unary (TRef.of (T := ⟨S_, .f32⟩) main_call14_v0) (TRef.of (T := ⟨S256x60000, .f32⟩) main_call14_v1) (broadcastInDim S256x60000 ![] bcast_S_S256x60000),
    TRef.ternary (TRef.of (T := ⟨S256x60000, .i1⟩) main_v73) (TRef.of (T := ⟨S256x60000, .f32⟩) main_v71) (TRef.of (T := ⟨S256x60000, .f32⟩) main_call14_v1) (TRef.of (T := ⟨S256x60000, .f32⟩) main_v74) select,
    nullary main_cst_22 (constant S_ .f32 0x00000000#32),
    binary main_v74 main_cst_22 main_v75 ((fun x v => Host.reduceAdd x v reducesTo_S256x60000_S_d0_1 h_S_) : (⟨S256x60000, .f32⟩ : BufTy).Contents (Elt F) → (⟨S_, .f32⟩ : BufTy).Contents (Elt F) → (⟨S_, .f32⟩ : BufTy).Contents (Elt F)),
    nullary main_cst_23 (constant S_ .f32 0x00000000#32),
    TRef.unary (TRef.of (T := ⟨S_, .f32⟩) main_cst_23) (TRef.of (T := ⟨S_, .f32⟩) main_call15_v0) id,
    TRef.unary (TRef.of (T := ⟨S_, .f32⟩) main_call15_v0) (TRef.of (T := ⟨S256x60000, .f32⟩) main_call15_v1) (broadcastInDim S256x60000 ![] bcast_S_S256x60000),
    TRef.ternary (TRef.of (T := ⟨S256x60000, .i1⟩) main_v73) (TRef.of (T := ⟨S256x60000, .f32⟩) main_call15_v1) (TRef.of (T := ⟨S256x60000, .f32⟩) main_v71) (TRef.of (T := ⟨S256x60000, .f32⟩) main_v76) select,
    nullary main_cst_24 (constant S_ .f32 0x00000000#32),
    binary main_v76 main_cst_24 main_v77 ((fun x v => Host.reduceAdd x v reducesTo_S256x60000_S_d0_1 h_S_) : (⟨S256x60000, .f32⟩ : BufTy).Contents (Elt F) → (⟨S_, .f32⟩ : BufTy).Contents (Elt F) → (⟨S_, .f32⟩ : BufTy).Contents (Elt F)) ]

/-- Operations 137 … 152 (the second window's last): channel 0's result (`main_v82`) and the two halves of channel 1's, the second not yet divided (`main_v84`, `main_v85`, `main_cst_32`). -/
abbrev opsFa : List (HloOp τ sig (Elt F)) :=
  [ nullary main_cst_25 (constant S_ .f32 0x3F000000#32),
    binary main_cst_25 main_v58 main_v78 (mulf : (⟨S_, .f32⟩ : BufTy).Contents (Elt F) → (⟨S_, .f32⟩ : BufTy).Contents (Elt F) → (⟨S_, .f32⟩ : BufTy).Contents (Elt F)),
    nullary main_cst_26 (constant S_ .f32 0x4B6A6000#32),
    binary main_v78 main_cst_26 main_v79 (Host.divf : (⟨S_, .f32⟩ : BufTy).Contents (Elt F) → (⟨S_, .f32⟩ : BufTy).Contents (Elt F) → (⟨S_, .f32⟩ : BufTy).Contents (Elt F)),
    nullary main_cst_27 (constant S_ .f32 0x3F000000#32),
    binary main_cst_27 main_v60 main_v80 (mulf : (⟨S_, .f32⟩ : BufTy).Contents (Elt F) → (⟨S_, .f32⟩ : BufTy).Contents (Elt F) → (⟨S_, .f32⟩ : BufTy).Contents (Elt F)),
    nullary main_cst_28 (constant S_ .f32 0x4B6A6000#32),
    binary main_v80 main_cst_28 main_v81 (Host.divf : (⟨S_, .f32⟩ : BufTy).Contents (Elt F) → (⟨S_, .f32⟩ : BufTy).Contents (Elt F) → (⟨S_, .f32⟩ : BufTy).Contents (Elt F)),
    binary main_v79 main_v81 main_v82 (addf : (⟨S_, .f32⟩ : BufTy).Contents (Elt F) → (⟨S_, .f32⟩ : BufTy).Contents (Elt F) → (⟨S_, .f32⟩ : BufTy).Contents (Elt F)),
    nullary main_cst_29 (constant S_ .f32 0x3F000000#32),
    binary main_cst_29 main_v75 main_v83 (mulf : (⟨S_, .f32⟩ : BufTy).Contents (Elt F) → (⟨S_, .f32⟩ : BufTy).Contents (Elt F) → (⟨S_, .f32⟩ : BufTy).Contents (Elt F)),
    nullary main_cst_30 (constant S_ .f32 0x4B6A6000#32),
    binary main_v83 main_cst_30 main_v84 (Host.divf : (⟨S_, .f32⟩ : BufTy).Contents (Elt F) → (⟨S_, .f32⟩ : BufTy).Contents (Elt F) → (⟨S_, .f32⟩ : BufTy).Contents (Elt F)),
    nullary main_cst_31 (constant S_ .f32 0x3F000000#32),
    binary main_cst_31 main_v77 main_v85 (mulf : (⟨S_, .f32⟩ : BufTy).Contents (Elt F) → (⟨S_, .f32⟩ : BufTy).Contents (Elt F) → (⟨S_, .f32⟩ : BufTy).Contents (Elt F)),
    nullary main_cst_32 (constant S_ .f32 0x4B6A6000#32) ]

/-- Operations 153 … 155: channel 1's result (`main_v87`) and the total (`main_v88`). -/
abbrev opsFb : List (HloOp τ sig (Elt F)) :=
  [ binary main_v85 main_cst_32 main_v86 (Host.divf : (⟨S_, .f32⟩ : BufTy).Contents (Elt F) → (⟨S_, .f32⟩ : BufTy).Contents (Elt F) → (⟨S_, .f32⟩ : BufTy).Contents (Elt F)),
    binary main_v84 main_v86 main_v87 (addf : (⟨S_, .f32⟩ : BufTy).Contents (Elt F) → (⟨S_, .f32⟩ : BufTy).Contents (Elt F) → (⟨S_, .f32⟩ : BufTy).Contents (Elt F)),
    binary main_v82 main_v87 main_v88 (addf : (⟨S_, .f32⟩ : BufTy).Contents (Elt F) → (⟨S_, .f32⟩ : BufTy).Contents (Elt F) → (⟨S_, .f32⟩ : BufTy).Contents (Elt F)) ]

/-! ## What each stretch leaves

`W` is the contents the stretch starts from, `x0` and `x1` the two arguments. Each conjunct is either a buffer the stretch
does not write (it holds what it held) or one it computes: the operations' results unfolded down to the buffers taken
over, those replaced by their stages, and what is left is the stage's own definition. -/

theorem stA1 (W : Valuation τ sig (Elt F)) (x0 x1 : A3)
    (h0 : W (𝔟 main_arg0) = x0) (h1 : W (𝔟 main_arg1) = x1) :
    after opsA1 W (𝔟 main_arg0) = x0 ∧ after opsA1 W (𝔟 main_arg1) = x1
    ∧ after opsA1 W (𝔟 main_v5) = RefRead.val_main_v5 x1
    ∧ after opsA1 W (𝔟 main_v7) = RefRead.val_main_v7 x1 := by
  refine ⟨?_, ?_, ?_, ?_⟩
  · after_results; exact h0
  · after_results; exact h1
  · after_results; rw [h1]; rfl
  · after_results; rw [h1]; rfl

theorem stA2 (W : Valuation τ sig (Elt F)) (x0 x1 : A3)
    (h0 : W (𝔟 main_arg0) = x0) (h1 : W (𝔟 main_arg1) = x1)
    (hv5 : W (𝔟 main_v5) = RefRead.val_main_v5 x1) (hv7 : W (𝔟 main_v7) = RefRead.val_main_v7 x1) :
    after opsA2 W (𝔟 main_arg0) = x0 ∧ after opsA2 W (𝔟 main_arg1) = x1
    ∧ after opsA2 W (𝔟 main_v9) = RefRead.val_main_v9 x1
    ∧ after opsA2 W (𝔟 main_v11) = RefRead.val_main_v11 x1 := by
  refine ⟨?_, ?_, ?_, ?_⟩
  · after_results; exact h0
  · after_results; exact h1
  · after_results; rw [hv5, hv7]; rfl
  · after_results; rw [hv5, hv7]; rfl

theorem stA3 (W : Valuation τ sig (Elt F)) (x0 x1 : A3)
    (h0 : W (𝔟 main_arg0) = x0) (h1 : W (𝔟 main_arg1) = x1)
    (hv9 : W (𝔟 main_v9) = RefRead.val_main_v9 x1) (hv11 : W (𝔟 main_v11) = RefRead.val_main_v11 x1) :
    after opsA3 W (𝔟 main_arg0) = x0 ∧ after opsA3 W (𝔟 main_arg1) = x1
    ∧ after opsA3 W (𝔟 main_v13) = RefRead.val_main_v13 x1
    ∧ after opsA3 W (𝔟 main_v15) = RefRead.val_main_v15 x1 := by
  refine ⟨?_, ?_, ?_, ?_⟩
  · after_results; exact h0
  · after_results; exact h1
  · after_results; rw [hv9, hv11]; rfl
  · after_results; rw [hv9, hv11]; rfl

theorem stA4 (W : Valuation τ sig (Elt F)) (x0 x1 : A3)
    (h0 : W (𝔟 main_arg0) = x0) (h1 : W (𝔟 main_arg1) = x1)
    (hv13 : W (𝔟 main_v13) = RefRead.val_main_v13 x1) (hv15 : W (𝔟 main_v15) = RefRead.val_main_v15 x1) :
    after opsA4 W (𝔟 main_arg0) = x0 ∧ after opsA4 W (𝔟 main_arg1) = x1
    ∧ after opsA4 W (𝔟 main_v19) = RefRead.val_main_v19 x1 := by
  refine ⟨?_, ?_, ?_⟩
  · after_results; exact h0
  · after_results; exact h1
  · after_results; rw [hv13, hv15]; rfl

theorem stB1 (W : Valuation τ sig (Elt F)) (x0 x1 : A3)
    (h0 : W (𝔟 main_arg0) = x0) (h1 : W (𝔟 main_arg1) = x1)
    (hv19 : W (𝔟 main_v19) = RefRead.val_main_v19 x1) :
    after opsB1 W (𝔟 main_arg0) = x0 ∧ after opsB1 W (𝔟 main_arg1) = x1
    ∧ after opsB1 W (𝔟 main_v19) = RefRead.val_main_v19 x1
    ∧ after opsB1 W (𝔟 main_v25) = RefRead.val_main_v25 x1
    ∧ after opsB1 W (𝔟 main_v27) = RefRead.val_main_v27 x1 := by
  refine ⟨?_, ?_, ?_, ?_, ?_⟩
  · after_results; exact h0
  · after_results; exact h1
  · after_results; exact hv19
  · after_results; rw [h1]; rfl
  · after_results; rw [h1]; rfl

theorem stB2 (W : Valuation τ sig (Elt F)) (x0 x1 : A3)
    (h0 : W (𝔟 main_arg0) = x0) (h1 : W (𝔟 main_arg1) = x1)
    (hv19 : W (𝔟 main_v19) = RefRead.val_main_v19 x1)
    (hv25 : W (𝔟 main_v25) = RefRead.val_main_v25 x1) (hv27 : W (𝔟 main_v27) = RefRead.val_main_v27 x1) :
    after opsB2 W (𝔟 main_arg0) = x0 ∧ after opsB2 W (𝔟 main_arg1) = x1
    ∧ after opsB2 W (𝔟 main_v19) = RefRead.val_main_v19 x1
    ∧ after opsB2 W (𝔟 main_v29) = RefRead.val_main_v29 x1
    ∧ after opsB2 W (𝔟 main_v31) = RefRead.val_main_v31 x1 := by
  refine ⟨?_, ?_, ?_, ?_, ?_⟩
  · after_results; exact h0
  · after_results; exact h1
  · after_results; exact hv19
  · after_results; rw [hv25, hv27]; rfl
  · after_results; rw [hv25, hv27]; rfl

theorem stB3 (W : Valuation τ sig (Elt F)) (x0 x1 : A3)
    (h0 : W (𝔟 main_arg0) = x0) (h1 : W (𝔟 main_arg1) = x1)
    (hv19 : W (𝔟 main_v19) = RefRead.val_main_v19 x1)
    (hv29 : W (𝔟 main_v29) = RefRead.val_main_v29 x1) (hv31 : W (𝔟 main_v31) = RefRead.val_main_v31 x1) :
    after opsB3 W (𝔟 main_arg0) = x0 ∧ after opsB3 W (𝔟 main_arg1) = x1
    ∧ after opsB3 W (𝔟 main_v19) = RefRead.val_main_v19 x1
    ∧ after opsB3 W (𝔟 main_v33) = RefRead.val_main_v33 x1
    ∧ after opsB3 W (𝔟 main_v35) = RefRead.val_main_v35 x1 := by
  refine ⟨?_, ?_, ?_, ?_, ?_⟩
  · after_results; exact h0
  · after_results; exact h1
  · after_results; exact hv19
  · after_results; rw [hv29, hv31]; rfl
  · after_results; rw [hv29, hv31]; rfl

theorem stB4 (W : Valuation τ sig (Elt F)) (x0 x1 : A3)
    (h0 : W (𝔟 main_arg0) = x0) (h1 : W (𝔟 main_arg1) = x1)
    (hv19 : W (𝔟 main_v19) = RefRead.val_main_v19 x1)
    (hv33 : W (𝔟 main_v33) = RefRead.val_main_v33 x1) (hv35 : W (𝔟 main_v35) = RefRead.val_main_v35 x1) :
    after opsB4 W (𝔟 main_arg0) = x0 ∧ after opsB4 W (𝔟 main_arg1) = x1
    ∧ after opsB4 W (𝔟 main_v19) = RefRead.val_main_v19 x1
    ∧ after opsB4 W (𝔟 main_v39) = RefRead.val_main_v39 x1 := by
  refine ⟨?_, ?_, ?_, ?_⟩
  · after_results; exact h0
  · after_results; exact h1
  · after_results; exact hv19
  · after_results; rw [hv33, hv35]; rfl

theorem stC1 (W : Valuation τ sig (Elt F)) (x0 x1 : A3)
    (h0 : W (𝔟 main_arg0) = x0) (h1 : W (𝔟 main_arg1) = x1)
    (hv19 : W (𝔟 main_v19) = RefRead.val_main_v19 x1) (hv39 : W (𝔟 main_v39) = RefRead.val_main_v39 x1) :
    after opsC1 W (𝔟 main_arg0) = x0 ∧ after opsC1 W (𝔟 main_arg1) = x1
    ∧ after opsC1 W (𝔟 main_v19) = RefRead.val_main_v19 x1
    ∧ after opsC1 W (𝔟 main_v39) = RefRead.val_main_v39 x1
    ∧ after opsC1 W (𝔟 main_v43) = RefRead.val_main_v43 x0
    ∧ after opsC1 W (𝔟 main_v45) = RefRead.val_main_v45 x0
    ∧ after opsC1 W (𝔟 main_v47) = RefRead.val_main_v47 x0
    ∧ after opsC1 W (𝔟 main_cst_10) = RefRead.val_main_cst_10 := by
  refine ⟨?_, ?_, ?_, ?_, ?_, ?_, ?_, ?_⟩
  · after_results; exact h0
  · after_results; exact h1
  · after_results; exact hv19
  · after_results; exact hv39
  · after_results; rw [h0]; rfl
  · after_results; rw [h0]; rfl
  · after_results; rw [h0]; rfl
  · after_results; rfl

theorem stD2 (W : Valuation τ sig (Elt F)) (x0 x1 : A3)
    (h0 : W (𝔟 main_arg0) = x0) (h1 : W (𝔟 main_arg1) = x1)
    (hv19 : W (𝔟 main_v19) = RefRead.val_main_v19 x1) (hv39 : W (𝔟 main_v39) = RefRead.val_main_v39 x1)
    (hv43 : W (𝔟 main_v43) = RefRead.val_main_v43 x0) (hv45 : W (𝔟 main_v45) = RefRead.val_main_v45 x0)
    (hv47 : W (𝔟 main_v47) = RefRead.val_main_v47 x0) (hc10 : W (𝔟 main_cst_10) = RefRead.val_main_cst_10) :
    after opsD2 W (𝔟 main_arg0) = x0 ∧ after opsD2 W (𝔟 main_arg1) = x1
    ∧ after opsD2 W (𝔟 main_v39) = RefRead.val_main_v39 x1
    ∧ after opsD2 W (𝔟 main_v43) = RefRead.val_main_v43 x0
    ∧ after opsD2 W (𝔟 main_v54) = RefRead.val_main_v54 x0 x1
    ∧ after opsD2 W (𝔟 main_v56) = RefRead.val_main_v56 x1 := by
  refine ⟨?_, ?_, ?_, ?_, ?_, ?_⟩
  · after_results; exact h0
  · after_results; exact h1
  · after_results; exact hv39
  · after_results; exact hv43
  · after_results; rw [hv19, hv45, hv47, hc10]; rfl
  · after_results; rw [hv19]; rfl

theorem stD3 (W : Valuation τ sig (Elt F)) (x0 x1 : A3)
    (h0 : W (𝔟 main_arg0) = x0) (h1 : W (𝔟 main_arg1) = x1)
    (hv39 : W (𝔟 main_v39) = RefRead.val_main_v39 x1) (hv43 : W (𝔟 main_v43) = RefRead.val_main_v43 x0)
    (hv54 : W (𝔟 main_v54) = RefRead.val_main_v54 x0 x1) (hv56 : W (𝔟 main_v56) = RefRead.val_main_v56 x1) :
    after opsD3 W (𝔟 main_arg0) = x0 ∧ after opsD3 W (𝔟 main_arg1) = x1
    ∧ after opsD3 W (𝔟 main_v39) = RefRead.val_main_v39 x1
    ∧ after opsD3 W (𝔟 main_v43) = RefRead.val_main_v43 x0
    ∧ after opsD3 W (𝔟 main_v58) = RefRead.val_main_v58 x0 x1
    ∧ after opsD3 W (𝔟 main_v60) = RefRead.val_main_v60 x0 x1 := by
  refine ⟨?_, ?_, ?_, ?_, ?_, ?_⟩
  · after_results; exact h0
  · after_results; exact h1
  · after_results; exact hv39
  · after_results; exact hv43
  · after_results; rw [hv54, hv56]; rfl
  · after_results; rw [hv54, hv56]; rfl

theorem stE1 (W : Valuation τ sig (Elt F)) (x0 x1 : A3)
    (h0 : W (𝔟 main_arg0) = x0) (h1 : W (𝔟 main_arg1) = x1)
    (hv39 : W (𝔟 main_v39) = RefRead.val_main_v39 x1) (hv43 : W (𝔟 main_v43) = RefRead.val_main_v43 x0)
    (hv58 : W (𝔟 main_v58) = RefRead.val_main_v58 x0 x1) (hv60 : W (𝔟 main_v60) = RefRead.val_main_v60 x0 x1) :
    after opsE1 W (𝔟 main_arg0) = x0 ∧ after opsE1 W (𝔟 main_arg1) = x1
    ∧ after opsE1 W (𝔟 main_v39) = RefRead.val_main_v39 x1
    ∧ after opsE1 W (𝔟 main_v58) = RefRead.val_main_v58 x0 x1
    ∧ after opsE1 W (𝔟 main_v60) = RefRead.val_main_v60 x0 x1
    ∧ after opsE1 W (𝔟 main_v62) = RefRead.val_main_v62 x0
    ∧ after opsE1 W (𝔟 main_v65) = RefRead.val_main_v65 x0 := by
  refine ⟨?_, ?_, ?_, ?_, ?_, ?_, ?_⟩
  · after_results; exact h0
  · after_results; exact h1
  · after_results; exact hv39
  · after_results; exact hv58
  · after_results; exact hv60
  · after_results; rw [hv43]; rfl
  · after_results; rw [hv43]; rfl

theorem stE2 (W : Valuation τ sig (Elt F)) (x0 x1 : A3)
    (h0 : W (𝔟 main_arg0) = x0) (h1 : W (𝔟 main_arg1) = x1)
    (hv39 : W (𝔟 main_v39) = RefRead.val_main_v39 x1)
    (hv58 : W (𝔟 main_v58) = RefRead.val_main_v58 x0 x1) (hv60 : W (𝔟 main_v60) = RefRead.val_main_v60 x0 x1)
    (hv62 : W (𝔟 main_v62) = RefRead.val_main_v62 x0) (hv65 : W (𝔟 main_v65) = RefRead.val_main_v65 x0) :
    after opsE2 W (𝔟 main_arg0) = x0 ∧ after opsE2 W (𝔟 main_arg1) = x1
    ∧ after opsE2 W (𝔟 main_v58) = RefRead.val_main_v58 x0 x1
    ∧ after opsE2 W (𝔟 main_v60) = RefRead.val_main_v60 x0 x1
    ∧ after opsE2 W (𝔟 main_v71) = RefRead.val_main_v71 x0 x1
    ∧ after opsE2 W (𝔟 main_v73) = RefRead.val_main_v73 x1 := by
  refine ⟨?_, ?_, ?_, ?_, ?_, ?_⟩
  · after_results; exact h0
  · after_results; exact h1
  · after_results; exact hv58
  · after_results; exact hv60
  · after_results; rw [hv39, hv62, hv65]; rfl
  · after_results; rw [hv39]; rfl

theorem stE3 (W : Valuation τ sig (Elt F)) (x0 x1 : A3)
    (h0 : W (𝔟 main_arg0) = x0) (h1 : W (𝔟 main_arg1) = x1)
    (hv58 : W (𝔟 main_v58) = RefRead.val_main_v58 x0 x1) (hv60 : W (𝔟 main_v60) = RefRead.val_main_v60 x0 x1)
    (hv71 : W (𝔟 main_v71) = RefRead.val_main_v71 x0 x1) (hv73 : W (𝔟 main_v73) = RefRead.val_main_v73 x1) :
    after opsE3 W (𝔟 main_arg0) = x0 ∧ after opsE3 W (𝔟 main_arg1) = x1
    ∧ after opsE3 W (𝔟 main_v58) = RefRead.val_main_v58 x0 x1
    ∧ after opsE3 W (𝔟 main_v60) = RefRead.val_main_v60 x0 x1
    ∧ after opsE3 W (𝔟 main_v75) = RefRead.val_main_v75 x0 x1
    ∧ after opsE3 W (𝔟 main_v77) = RefRead.val_main_v77 x0 x1 := by
  refine ⟨?_, ?_, ?_, ?_, ?_, ?_⟩
  · after_results; exact h0
  · after_results; exact h1
  · after_results; exact hv58
  · after_results; exact hv60
  · after_results; rw [hv71, hv73]; rfl
  · after_results; rw [hv71, hv73]; rfl

theorem stFa (W : Valuation τ sig (Elt F)) (x0 x1 : A3)
    (h0 : W (𝔟 main_arg0) = x0) (h1 : W (𝔟 main_arg1) = x1)
    (hv58 : W (𝔟 main_v58) = RefRead.val_main_v58 x0 x1) (hv60 : W (𝔟 main_v60) = RefRead.val_main_v60 x0 x1)
    (hv75 : W (𝔟 main_v75) = RefRead.val_main_v75 x0 x1) (hv77 : W (𝔟 main_v77) = RefRead.val_main_v77 x0 x1) :
    after opsFa W (𝔟 main_arg0) = x0 ∧ after opsFa W (𝔟 main_arg1) = x1
    ∧ after opsFa W (𝔟 main_v82) = RefRead.val_main_v82 x0 x1
    ∧ after opsFa W (𝔟 main_v84) = RefRead.val_main_v84 x0 x1
    ∧ after opsFa W (𝔟 main_v85) = RefRead.val_main_v85 x0 x1
    ∧ after opsFa W (𝔟 main_cst_32) = RefRead.val_main_cst_32 := by
  refine ⟨?_, ?_, ?_, ?_, ?_, ?_⟩
  · after_results; exact h0
  · after_results; exact h1
  · after_results; rw [hv58, hv60]; rfl
  · after_results; rw [hv75]; rfl
  · after_results; rw [hv77]; rfl
  · after_results; rfl

theorem stFb (W : Valuation τ sig (Elt F)) (x0 x1 : A3)
    (h0 : W (𝔟 main_arg0) = x0) (h1 : W (𝔟 main_arg1) = x1)
    (hv82 : W (𝔟 main_v82) = RefRead.val_main_v82 x0 x1) (hv84 : W (𝔟 main_v84) = RefRead.val_main_v84 x0 x1)
    (hv85 : W (𝔟 main_v85) = RefRead.val_main_v85 x0 x1) (hc32 : W (𝔟 main_cst_32) = RefRead.val_main_cst_32) :
    after opsFb W (𝔟 main_arg0) = x0 ∧ after opsFb W (𝔟 main_arg1) = x1
    ∧ after opsFb W (𝔟 main_v82) = RefRead.val_main_v82 x0 x1
    ∧ after opsFb W (𝔟 main_v87) = RefRead.val_main_v87 x0 x1
    ∧ after opsFb W (𝔟 main_v88) = RefRead.val_main_v88 x0 x1 := by
  refine ⟨?_, ?_, ?_, ?_, ?_⟩
  · after_results; exact h0
  · after_results; exact h1
  · after_results; exact hv82
  · after_results; rw [hv84, hv85, hc32]; rfl
  · after_results; rw [hv82, hv84, hv85, hc32]; rfl

/-! ## The whole line -/

/-- The first window's operations, 1 … 78. -/
abbrev opsW0 : List (HloOp τ sig (Elt F)) :=
  opsA1 ++ (opsA2 ++ (opsA3 ++ (opsA4 ++ (opsB1 ++ (opsB2 ++ (opsB3 ++ (opsB4 ++ opsC1)))))))
/-- The second window's operations, 79 … 152. -/
abbrev opsW1 : List (HloOp τ sig (Elt F)) :=
  opsD2 ++ (opsD3 ++ (opsE1 ++ (opsE2 ++ (opsE3 ++ opsFa))))
/-- All 155 operations, in order. -/
abbrev opsAll : List (HloOp τ sig (Elt F)) := opsW0 ++ (opsW1 ++ opsFb)

/-- Chaining the stretches: after the whole line the three results hold their stages of what the argument buffers held
    at the start, and the argument buffers hold that still. -/
theorem vals (V : Valuation τ sig (Elt F)) :
    after opsAll V (𝔟 main_v88) = RefRead.val_main_v88 (V (𝔟 main_arg0)) (V (𝔟 main_arg1))
    ∧ after opsAll V (𝔟 main_v82) = RefRead.val_main_v82 (V (𝔟 main_arg0)) (V (𝔟 main_arg1))
    ∧ after opsAll V (𝔟 main_v87) = RefRead.val_main_v87 (V (𝔟 main_arg0)) (V (𝔟 main_arg1))
    ∧ after opsAll V (𝔟 main_arg0) = V (𝔟 main_arg0)
    ∧ after opsAll V (𝔟 main_arg1) = V (𝔟 main_arg1) := by
  obtain ⟨a0, a1, a5, a7⟩ := stA1 V _ _ rfl rfl
  obtain ⟨b0, b1, b9, b11⟩ := stA2 _ _ _ a0 a1 a5 a7
  obtain ⟨c0, c1, c13, c15⟩ := stA3 _ _ _ b0 b1 b9 b11
  obtain ⟨d0, d1, d19⟩ := stA4 _ _ _ c0 c1 c13 c15
  obtain ⟨e0, e1, e19, e25, e27⟩ := stB1 _ _ _ d0 d1 d19
  obtain ⟨f0, f1, f19, f29, f31⟩ := stB2 _ _ _ e0 e1 e19 e25 e27
  obtain ⟨g0, g1, g19, g33, g35⟩ := stB3 _ _ _ f0 f1 f19 f29 f31
  obtain ⟨i0, i1, i19, i39⟩ := stB4 _ _ _ g0 g1 g19 g33 g35
  obtain ⟨j0, j1, j19, j39, j43, j45, j47, jc⟩ := stC1 _ _ _ i0 i1 i19 i39
  obtain ⟨k0, k1, k39, k43, k54, k56⟩ := stD2 _ _ _ j0 j1 j19 j39 j43 j45 j47 jc
  obtain ⟨l0, l1, l39, l43, l58, l60⟩ := stD3 _ _ _ k0 k1 k39 k43 k54 k56
  obtain ⟨m0, m1, m39, m58, m60, m62, m65⟩ := stE1 _ _ _ l0 l1 l39 l43 l58 l60
  obtain ⟨n0, n1, n58, n60, n71, n73⟩ := stE2 _ _ _ m0 m1 m39 m58 m60 m62 m65
  obtain ⟨o0, o1, o58, o60, o75, o77⟩ := stE3 _ _ _ n0 n1 n58 n60 n71 n73
  obtain ⟨p0, p1, p82, p84, p85, pc⟩ := stFa _ _ _ o0 o1 o58 o60 o75 o77
  obtain ⟨q0, q1, q82, q87, q88⟩ := stFb _ _ _ p0 p1 p82 p84 p85 pc
  simp only [opsAll, opsW0, opsW1, after_append]
  exact ⟨q88, q82, q87, q0, q1⟩

/-! ## The line is the program

Each window of the program is its operations in order (a called function's operations stand in its call's place); the
three windows run one after the other. -/

theorem part0_eq (c : Dev nD) : main_part0 (F := F) c = seq opsW0 := by chain_rfl
theorem part1_eq (c : Dev nD) : main_part1 (F := F) c = seq opsW1 := by chain_rfl
theorem part2_eq (c : Dev nD) : main_part2 (F := F) c = seq opsFb := by chain_rfl

theorem main_eq (c : Dev nD) : main (F := F) c = seq opsAll :=
  calc main (F := F) c = (main_part0 c >>= fun _ => main_part1 c >>= fun _ => main_part2 c) := rfl
    _ = (seq opsW0 >>= fun _ => seq opsW1 >>= fun _ => seq opsFb) := by rw [part0_eq, part1_eq, part2_eq]
    _ = (seq opsW0 >>= fun _ => seq (opsW1 ++ opsFb)) := by rw [seq_append opsW1 opsFb]
    _ = seq opsAll := (seq_append opsW0 (opsW1 ++ opsFb)).symm

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

/-- What the run asks of an operation. -/
abbrev Ok (op : HloOp τ sig (Elt F)) : Prop := op.bufs ⊆ tcRefs τ sig ∧ op.fresh = ∅

theorem ok_nullary (y : Ref sig .tc) (v : y.ty.Contents (Elt F)) (hy) : Ok (nullary (τ := τ) y v hy) :=
  ⟨nullary_bufs_sub y v hy, rfl⟩
theorem ok_unary (x y : Ref sig .tc) (f : x.ty.Contents (Elt F) → y.ty.Contents (Elt F)) (hx hy) :
    Ok (unary (τ := τ) x y f hx hy) := ⟨unary_bufs_sub x y f hx hy, rfl⟩
theorem ok_binary (a b y : Ref sig .tc) (f : a.ty.Contents (Elt F) → b.ty.Contents (Elt F) → y.ty.Contents (Elt F)) (ha hb hy) :
    Ok (binary (τ := τ) a b y f ha hb hy) := ⟨binary_bufs_sub a b y f ha hb hy, rfl⟩
theorem ok_ternary (c a b y : Ref sig .tc)
    (f : c.ty.Contents (Elt F) → a.ty.Contents (Elt F) → b.ty.Contents (Elt F) → y.ty.Contents (Elt F)) (hc ha hb hy) :
    Ok (ternary (τ := τ) c a b y f hc ha hb hy) := ⟨ternary_bufs_sub _ _ _ _ f hc ha hb hy, rfl⟩
theorem ok_reshape (x y : Ref sig .tc) (he hn hx hy) : Ok (reshape (τ := τ) (Val := Elt F) x y he hn hx hy) :=
  ⟨reshape_bufs_sub x y he hn hx hy, rfl⟩

theorem okA1 : (opsA1 : List (HloOp τ sig (Elt F))).Forall Ok :=
  ⟨ok_unary .., ok_reshape .., ok_nullary .., ok_unary .., ok_binary .., ok_unary .., ok_unary .., ok_binary .., ok_binary ..,
   ok_nullary .., ok_unary .., ok_binary ..⟩
theorem okA2 : (opsA2 : List (HloOp τ sig (Elt F))).Forall Ok :=
  ⟨ok_unary .., ok_unary .., ok_binary .., ok_binary .., ok_nullary .., ok_unary .., ok_binary ..⟩
theorem okA3 : (opsA3 : List (HloOp τ sig (Elt F))).Forall Ok :=
  ⟨ok_unary .., ok_unary .., ok_binary .., ok_binary .., ok_nullary .., ok_unary .., ok_binary ..⟩
theorem okA4 : (opsA4 : List (HloOp τ sig (Elt F))).Forall Ok :=
  ⟨ok_unary .., ok_unary .., ok_binary .., ok_binary .., ok_nullary .., ok_unary .., ok_binary ..⟩
theorem okB1 : (opsB1 : List (HloOp τ sig (Elt F))).Forall Ok :=
  ⟨ok_unary .., ok_reshape .., ok_nullary .., ok_unary .., ok_binary .., ok_unary .., ok_unary .., ok_binary .., ok_binary ..,
   ok_nullary .., ok_unary .., ok_binary ..⟩
theorem okB2 : (opsB2 : List (HloOp τ sig (Elt F))).Forall Ok :=
  ⟨ok_unary .., ok_unary .., ok_binary .., ok_binary .., ok_nullary .., ok_unary .., ok_binary ..⟩
theorem okB3 : (opsB3 : List (HloOp τ sig (Elt F))).Forall Ok :=
  ⟨ok_unary .., ok_unary .., ok_binary .., ok_binary .., ok_nullary .., ok_unary .., ok_binary ..⟩
theorem okB4 : (opsB4 : List (HloOp τ sig (Elt F))).Forall Ok :=
  ⟨ok_unary .., ok_unary .., ok_binary .., ok_binary .., ok_nullary .., ok_unary .., ok_binary ..⟩
theorem okC1 : (opsC1 : List (HloOp τ sig (Elt F))).Forall Ok :=
  ⟨ok_unary .., ok_reshape .., ok_unary .., ok_reshape .., ok_unary .., ok_nullary .., ok_unary .., ok_unary .., ok_binary ..,
   ok_unary .., ok_unary .., ok_nullary ..⟩
theorem okD2 : (opsD2 : List (HloOp τ sig (Elt F))).Forall Ok :=
  ⟨ok_unary .., ok_unary .., ok_binary .., ok_binary .., ok_nullary .., ok_unary .., ok_binary .., ok_binary .., ok_binary ..,
   ok_unary .., ok_nullary .., ok_unary .., ok_binary ..⟩
theorem okD3 : (opsD3 : List (HloOp τ sig (Elt F))).Forall Ok :=
  ⟨ok_nullary .., ok_unary .., ok_unary .., ok_ternary .., ok_nullary .., ok_binary .., ok_nullary .., ok_unary .., ok_unary ..,
   ok_ternary .., ok_nullary .., ok_binary ..⟩
theorem okE1 : (opsE1 : List (HloOp τ sig (Elt F))).Forall Ok :=
  ⟨ok_unary .., ok_nullary .., ok_unary .., ok_unary .., ok_binary .., ok_unary .., ok_unary .., ok_nullary .., ok_unary ..,
   ok_unary .., ok_binary ..⟩
theorem okE2 : (opsE2 : List (HloOp τ sig (Elt F))).Forall Ok :=
  ⟨ok_binary .., ok_nullary .., ok_unary .., ok_binary .., ok_binary .., ok_binary .., ok_unary .., ok_nullary .., ok_unary ..,
   ok_binary ..⟩
theorem okE3 : (opsE3 : List (HloOp τ sig (Elt F))).Forall Ok :=
  ⟨ok_nullary .., ok_unary .., ok_unary .., ok_ternary .., ok_nullary .., ok_binary .., ok_nullary .., ok_unary .., ok_unary ..,
   ok_ternary .., ok_nullary .., ok_binary ..⟩
theorem okFa : (opsFa : List (HloOp τ sig (Elt F))).Forall Ok :=
  ⟨ok_nullary .., ok_binary .., ok_nullary .., ok_binary .., ok_nullary .., ok_binary .., ok_nullary .., ok_binary .., ok_binary ..,
   ok_nullary .., ok_binary .., ok_nullary .., ok_binary .., ok_nullary .., ok_binary .., ok_nullary ..⟩
theorem okFb : (opsFb : List (HloOp τ sig (Elt F))).Forall Ok :=
  ⟨ok_binary .., ok_binary .., ok_binary ..⟩

theorem ok_of {l : List (HloOp τ sig (Elt F))} (h : l.Forall Ok) : ∀ op ∈ l, Ok op := List.forall_iff_forall_mem.mp h
theorem ok_app {l₁ l₂ : List (HloOp τ sig (Elt F))} (h₁ : ∀ op ∈ l₁, Ok op) (h₂ : ∀ op ∈ l₂, Ok op) :
    ∀ op ∈ l₁ ++ l₂, Ok op := fun op h => (List.mem_append.mp h).elim (h₁ op) (h₂ op)

theorem okAll : ∀ op ∈ (opsAll : List (HloOp τ sig (Elt F))), Ok op :=
  ok_app
    (ok_app (ok_of okA1) (ok_app (ok_of okA2) (ok_app (ok_of okA3) (ok_app (ok_of okA4) (ok_app (ok_of okB1)
      (ok_app (ok_of okB2) (ok_app (ok_of okB3) (ok_app (ok_of okB4) (ok_of okC1)))))))))
    (ok_app
      (ok_app (ok_of okD2) (ok_app (ok_of okD3) (ok_app (ok_of okE1) (ok_app (ok_of okE2) (ok_app (ok_of okE3) (ok_of okFa))))))
      (ok_of okFb))

/-- On every device, from any memory with zero counters: every weakly fair execution of the reference terminates with the
    three results at their stages of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = RefRead.val_main_v88 (F := F) (m ((c.tc : Thread nD τ).loc main_arg0)) (m ((c.tc : Thread nD τ).loc main_arg1))
      ∧ r.2.mem ((c.tc : Thread nD τ).loc main_v82) = RefRead.val_main_v82 (F := F) (m ((c.tc : Thread nD τ).loc main_arg0)) (m ((c.tc : Thread nD τ).loc main_arg1))
      ∧ r.2.mem ((c.tc : Thread nD τ).loc main_v87) = RefRead.val_main_v87 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c =>
        ⟨(h c main_v88).trans (vals (launchContents m c)).1,
         (h c main_v82).trans (vals (launchContents m c)).2.1,
         (h c main_v87).trans (vals (launchContents m c)).2.2.1,
         (h c main_arg0).trans (vals (launchContents m c)).2.2.2.1,
         (h c main_arg1).trans (vals (launchContents m c)).2.2.2.2⟩)
      (run_seq scopedRefs_eq scopedSems_eq defs main (fun _ => opsAll) main_eq
        (fun _ => List.forall_iff_forall_mem.mpr fun op h => (okAll op h).1) m ρ
        (fun _ op h => (okAll op h).2))

end Cert.ReferenceIdeal.RefRun

end
-- ==== Proof.lean ====
/- The certificate's claims.

   The kernel computes, per channel, a binary cross entropy of probabilities against a cyclically widened annotation,
   summed separately over the positions where the widened annotation is positive and where it is not; sixteen grid
   points each sum sixteen rows, the "negative" sum of a block being taken as (sum of all) − (sum over positives), and
   the host adds the blocks' sums and scales them. The reference takes the two sums directly over all 256 rows. Over
   the extended reals the two agree when every input is finite: the loss of every entry is then a real number (the
   logarithms are clipped at −100), so a block's difference is its sum over the negatives, and regrouping the rows is
   associativity and commutativity of addition. The shared value is Proof/Spec.lean; Proof/KernelPay.lean, Blocks.lean,
   Tail.lean and Bridge.lean read the kernel's run as that value, Proof/RefValue.lean over RefRun.lean the
   reference's, Proof/Algebra.lean holds the two laws of sums and Proof/Finite.lean reads the precondition.
   The frames of the two kernel programs are their generated frame runs; the reference's frame is its run with the
   results dropped; the idealization rewrote nothing, so `preserves` is trivial. -/
import proofs.«401867_j57501022158919_4_alg».proof.Defs
import proofs.«401867_j57501022158919_4_alg».proof.Proof.Gen.Kernel
import proofs.«401867_j57501022158919_4_alg».proof.Proof.Gen.Kernel.Skeleton
import proofs.«401867_j57501022158919_4_alg».proof.Proof.Gen.Kernel.Launch
import proofs.«401867_j57501022158919_4_alg».proof.Proof.Gen.Kernel.Points
import proofs.«401867_j57501022158919_4_alg».proof.Proof.Gen.Kernel.Frame
import proofs.«401867_j57501022158919_4_alg».proof.Proof.Gen.KernelIdeal
import proofs.«401867_j57501022158919_4_alg».proof.Proof.Gen.KernelIdeal.Skeleton
import proofs.«401867_j57501022158919_4_alg».proof.Proof.Gen.KernelIdeal.Launch
import proofs.«401867_j57501022158919_4_alg».proof.Proof.Gen.KernelIdeal.Points
import proofs.«401867_j57501022158919_4_alg».proof.Proof.Gen.KernelIdeal.Frame
import proofs.«401867_j57501022158919_4_alg».proof.Proof.Gen.ReferenceIdeal
import proofs.«401867_j57501022158919_4_alg».proof.Proof.Gen.Pre_finite_inputs
import proofs.«401867_j57501022158919_4_alg».proof.Proof.Tail
import proofs.«401867_j57501022158919_4_alg».proof.Proof.Bridge
import proofs.«401867_j57501022158919_4_alg».proof.Proof.Finite
import proofs.«401867_j57501022158919_4_alg».proof.Proof.RefValue
import proofs.«401867_j57501022158919_4_alg».proof.Proof.RefRun
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2)
    (Cert.ReferenceIdeal.RefRun.run (F := Ideal) m ρ)

/-- The kernel's three results are the common value of its (finite) arguments, and so are the reference's of arguments
    that agree with them. -/
theorem algebraic : Cert.algebraic_KernelIdeal_ReferenceIdeal := by
  intro m ρ m' ρ' hpre hagree
  refine ⟨fun c => (fun _ => total (m ((c.tc : Thread _ _).loc Cert.KernelIdeal.main_arg0)) (m ((c.tc : Thread _ _).loc Cert.KernelIdeal.main_arg1))),
    fun c => (fun _ => beat (m ((c.tc : Thread _ _).loc Cert.KernelIdeal.main_arg0)) (m ((c.tc : Thread _ _).loc Cert.KernelIdeal.main_arg1))),
    fun c => (fun _ => down (m ((c.tc : Thread _ _).loc Cert.KernelIdeal.main_arg0)) (m ((c.tc : Thread _ _).loc Cert.KernelIdeal.main_arg1))), ?_, ?_⟩
  · refine (θ_run Cert.KernelIdeal.defs _ _).mono (fun r h c => ?_) (Cert.KernelIdeal.Tail.run m ρ)
    obtain ⟨h22, h16, h21, ha0, ha1⟩ := h c
    obtain ⟨hX, hY⟩ := finite_of_pre _ _ (hpre c)
    refine ⟨h22.trans ?_, h16.trans ?_, h21.trans ?_, ha0, ha1⟩
    · funext _
      rw [Cert.KernelIdeal.Bridge.hsum_pos, Cert.KernelIdeal.Bridge.hsum_neg _ _ hX hY,
        Cert.KernelIdeal.Bridge.hsum_pos, Cert.KernelIdeal.Bridge.hsum_neg _ _ hX hY]
      rfl
    · funext _
      rw [Cert.KernelIdeal.Bridge.hsum_pos, Cert.KernelIdeal.Bridge.hsum_neg _ _ hX hY]
      rfl
    · funext _
      rw [Cert.KernelIdeal.Bridge.hsum_pos, Cert.KernelIdeal.Bridge.hsum_neg _ _ hX hY]
      rfl
  · refine (θ_run Cert.ReferenceIdeal.defs _ _).mono (fun r h c => ?_) (Cert.ReferenceIdeal.RefRun.run (F := Ideal) m' ρ')
    obtain ⟨h88, h82, h87, ha0, ha1⟩ := h c
    refine ⟨h88.trans ?_, h82.trans ?_, h87.trans ?_, ha0, ha1⟩
    · rw [(hagree c).1, (hagree c).2]; exact Cert.ReferenceIdeal.RefValue.ref_total _ _
    · rw [(hagree c).1, (hagree c).2]; exact Cert.ReferenceIdeal.RefValue.ref_beat _ _
    · rw [(hagree c).1, (hagree c).2]; exact Cert.ReferenceIdeal.RefValue.ref_down _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
